-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S3000000 : Shape := ⟨1, ![3000000]⟩
abbrev S3000000x1 : Shape := ⟨2, ![3000000, 1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S3000000 : S_.BroadcastsInDim S3000000 (![] : Fin 0 → Fin S3000000.rank)
  reducesTo_S3000000_S_d0 : S3000000.ReducesTo [0] S_
  bcast_S_S3000000x1 : S_.BroadcastsInDim S3000000x1 (![] : Fin 0 → Fin S3000000x1.rank)
  reducesTo_S3000000x1_S_d0_1 : S3000000x1.ReducesTo [0, 1] S_

variable [Facts]

def fn {F : FTy → Type} [FloatOps F] (main_arg0 : FVec F S1000000 .f32) (main_arg1 : FVec F S3000000 .f32) (main_arg2 : FVec F S3000000x1 .f32) (main_arg3 : IVec S3000000 32) (main_arg4 : IVec S3000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S3000000 .f32 := Host.absf main_arg1
  let main_cst_0 : FVec F S_ .f32 := constant S_ .f32 0x7F800000#32
  let main_v5 : FVec F S3000000 .f32 := broadcastInDim S3000000 ![] bcast_S_S3000000 main_cst_0
  let main_v6 : IVec S3000000 1 := cmpf .olt main_v4 main_v5
  let main_c_1 : IVec S_ 1 := constantI S_ 1 1#1
  let main_v7 : IVec S_ 1 := (fun x v => Host.reduce IntOp.andi x v reducesTo_S3000000_S_d0 h_S_) main_v6 main_c_1
  let main_v8 : IVec S_ 1 := andi main_v3 main_v7
  let main_v9 : FVec F S3000000x1 .f32 := Host.absf main_arg2
  let main_cst_2 : FVec F S_ .f32 := constant S_ .f32 0x7F800000#32
  let main_v10 : FVec F S3000000x1 .f32 := broadcastInDim S3000000x1 ![] bcast_S_S3000000x1 main_cst_2
  let main_v11 : IVec S3000000x1 1 := cmpf .olt main_v9 main_v10
  let main_c_3 : IVec S_ 1 := constantI S_ 1 1#1
  let main_v12 : IVec S_ 1 := (fun x v => Host.reduce IntOp.andi x v reducesTo_S3000000x1_S_d0_1 h_S_) main_v11 main_c_3
  let main_v13 : IVec S_ 1 := andi main_v8 main_v12
  main_v13
-- ==== Kernel.lean ====
abbrev S1000000 : Shape := ⟨1, ![1000000]⟩
abbrev S3000000 : Shape := ⟨1, ![3000000]⟩
abbrev S3000000x1 : Shape := ⟨2, ![3000000, 1]⟩
abbrev S7x6 : Shape := ⟨2, ![7, 6]⟩
abbrev S_ : Shape := ⟨0, ![]⟩
abbrev S3000000x42 : Shape := ⟨2, ![3000000, 42]⟩
abbrev S8000x1 : Shape := ⟨2, ![8000, 1]⟩
abbrev S8000x42 : Shape := ⟨2, ![8000, 42]⟩
abbrev S1x6 : Shape := ⟨2, ![1, 6]⟩
abbrev S6 : Shape := ⟨1, ![6]⟩
abbrev S8000x6 : Shape := ⟨2, ![8000, 6]⟩

abbrev nBuf : Space → Nat
  | .hbm => 19
  | .vmem => 10
  | .smem => 0
  | _ => 0

abbrev bufTy : (tb : Table) → Fin (tcTables nBuf tb) → BufTy
  | .hbm, ⟨0, _⟩ => ⟨S1000000, .f32⟩
  | .hbm, ⟨1, _⟩ => ⟨S3000000, .f32⟩
  | .hbm, ⟨2, _⟩ => ⟨S3000000x1, .f32⟩
  | .hbm, ⟨3, _⟩ => ⟨S3000000, .i32⟩
  | .hbm, ⟨4, _⟩ => ⟨S3000000, .i32⟩
  | .hbm, ⟨5, _⟩ => ⟨S7x6, .f32⟩
  | .hbm, ⟨6, _⟩ => ⟨S7x6, .f32⟩
  | .hbm, ⟨7, _⟩ => ⟨S_, .i32⟩
  | .hbm, ⟨8, _⟩ => ⟨S3000000, .i32⟩
  | .hbm, ⟨9, _⟩ => ⟨S3000000, .i1⟩
  | .hbm, ⟨10, _⟩ => ⟨S_, .i32⟩
  | .hbm, ⟨11, _⟩ => ⟨S3000000, .i32⟩
  | .hbm, ⟨12, _⟩ => ⟨S3000000, .i32⟩
  | .hbm, ⟨13, _⟩ => ⟨S3000000, .i32⟩
  | .hbm, ⟨14, _⟩ => ⟨S3000000x1, .i32⟩
  | .hbm, ⟨15, _⟩ => ⟨S3000000, .f32⟩
  | .hbm, ⟨16, _⟩ => ⟨S3000000x1, .f32⟩
  | .hbm, ⟨17, _⟩ => ⟨S3000000x1, .f32⟩
  | .hbm, ⟨18, _⟩ => ⟨S3000000x42, .f32⟩
  | .local _ .vmem, ⟨0, _⟩ => ⟨S8000x1, .f32⟩
  | .local _ .vmem, ⟨1, _⟩ => ⟨S8000x1, .f32⟩
  | .local _ .vmem, ⟨2, _⟩ => ⟨S8000x1, .f32⟩
  | .local _ .vmem, ⟨3, _⟩ => ⟨S8000x1, .f32⟩
  | .local _ .vmem, ⟨4, _⟩ => ⟨S8000x1, .f32⟩
  | .local _ .vmem, ⟨5, _⟩ => ⟨S8000x1, .f32⟩
  | .local _ .vmem, ⟨6, _⟩ => ⟨S7x6, .f32⟩
  | .local _ .vmem, ⟨7, _⟩ => ⟨S7x6, .f32⟩
  | .local _ .vmem, ⟨8, _⟩ => ⟨S8000x42, .f32⟩
  | .local _ .vmem, ⟨9, _⟩ => ⟨S8000x42, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![375], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x42 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S3000000 : S_.BroadcastsInDim S3000000 (![] : Fin 0 → Fin S3000000.rank)
  bcast_S3000000_S3000000x1_0 : S3000000.BroadcastsInDim S3000000x1 (![0] : Fin 1 → Fin S3000000x1.rank)
  shapeCasts_S3000000_S3000000x1 : S3000000.ShapeCasts S3000000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S7x6_S7x6_0_0 : ∀ a, (![0, 0] : Fin 2 → Nat) a + S7x6.size a ≤ S7x6.size a
  h_S7x6 : 0 < S7x6.numel
  slices_S7x6_o0_0_S1x6 : S7x6.Slices ![0, 0] S1x6
  shapeCasts_S1x6_S6 : S1x6.ShapeCasts S6
  shapeCasts_S6_S1x6 : S6.ShapeCasts S1x6
  broadcasts_S8000x1_S8000x6 : S8000x1.Broadcasts S8000x6
  broadcasts_S1x6_S8000x6 : S1x6.Broadcasts S8000x6
  slices_S7x6_o1_0_S1x6 : S7x6.Slices ![1, 0] S1x6
  slices_S7x6_o2_0_S1x6 : S7x6.Slices ![2, 0] S1x6
  slices_S7x6_o3_0_S1x6 : S7x6.Slices ![3, 0] S1x6
  slices_S7x6_o4_0_S1x6 : S7x6.Slices ![4, 0] S1x6
  slices_S7x6_o5_0_S1x6 : S7x6.Slices ![5, 0] S1x6
  slices_S7x6_o6_0_S1x6 : S7x6.Slices ![6, 0] S1x6
  concatenates_S8000x6_S8000x6_S8000x6_S8000x6_S8000x6_S8000x6_S8000x6_S8000x42_d1 : Shape.Concatenates [S8000x6, S8000x6, S8000x6, S8000x6, S8000x6, S8000x6, S8000x6] S8000x42 1
  broadcasts_S8000x1_S8000x42 : S8000x1.Broadcasts S8000x42
  inb_S8000x42_S8000x42_0_0 : ∀ a, (![0, 0] : Fin 2 → Nat) a + S8000x42.size a ≤ S8000x42.size a
  h_S8000x42 : 0 < S8000x42.numel
  gather_S1000000_S3000000x1_S3000000_n_0_n_n_0_1_1_wf : GatherDims.WF S1000000 S3000000x1 S3000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S3000000x1.size a
  hwx0_0 : ∀ i : grid0.Coords, EltTy.bits .f32 = 32 ∨ (Rect.block (s := S3000000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S3000000x1.size a
  hwx0_1 : ∀ i : grid0.Coords, EltTy.bits .f32 = 32 ∨ (Rect.block (s := S3000000x1) S8000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S3000000x1.size a
  hwx0_2 : ∀ i : grid0.Coords, EltTy.bits .f32 = 32 ∨ (Rect.block (s := S3000000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x6.size a ≤ S7x6.size a
  hwx0_3 : ∀ i : grid0.Coords, EltTy.bits .f32 = 32 ∨ (Rect.block (s := S7x6) S7x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x6.size a ≤ S7x6.size a
  hwx0_4 : ∀ i : grid0.Coords, EltTy.bits .f32 = 32 ∨ (Rect.block (s := S7x6) S7x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x42.size a ≤ S3000000x42.size a
  hwx0_5 : ∀ i : grid0.Coords, EltTy.bits .f32 = 32 ∨ (Rect.block (s := S3000000x42) S8000x42.size (cc0_transform_5 i) (hinb0_5 i)).WholeWords (EltTy.packing .f32)

variable [Facts₀]

def gather_S1000000_S3000000x1_S3000000_n_0_n_n_0_1_1 : GatherDims S1000000 S3000000x1 S3000000 where
  offsetDims := []
  collapsedSliceDims := [0]
  operandBatchingDims := []
  startIndicesBatchingDims := []
  startIndexMap := [0]
  indexVectorDim := 1
  sliceSizes := ![1]
  wf := gather_S1000000_S3000000x1_S3000000_n_0_n_n_0_1_1_wf

abbrev win0_0 : Pipeline.Window sig grid0 :=
  Pipeline.Window.ofSpec (Memref.whole main_v7) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S7x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_0) S7x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8000x42.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000 : Shape := ⟨1, ![1000000]⟩
abbrev S3000000 : Shape := ⟨1, ![3000000]⟩
abbrev S3000000x1 : Shape := ⟨2, ![3000000, 1]⟩
abbrev S7x6 : Shape := ⟨2, ![7, 6]⟩
abbrev S_ : Shape := ⟨0, ![]⟩
abbrev S1x6 : Shape := ⟨2, ![1, 6]⟩
abbrev S6 : Shape := ⟨1, ![6]⟩
abbrev S1000000x1 : Shape := ⟨2, ![1000000, 1]⟩
abbrev S1000000x6 : Shape := ⟨2, ![1000000, 6]⟩
abbrev S1000000x42 : Shape := ⟨2, ![1000000, 42]⟩
abbrev S3000000x42 : Shape := ⟨2, ![3000000, 42]⟩
abbrev S3000000x7 : Shape := ⟨2, ![3000000, 7]⟩
abbrev S3000000x7x6 : Shape := ⟨3, ![3000000, 7, 6]⟩

abbrev nBuf : Space → Nat
  | .hbm => 354
  | .vmem => 0
  | .smem => 0
  | _ => 0

abbrev hbmTy0_0 (i : Nat) : BufTy := match i % 128 with
  | 0 => ⟨S1000000, .f32⟩
  | 1 => ⟨S3000000, .f32⟩
  | 2 => ⟨S3000000x1, .f32⟩
  | 3 => ⟨S3000000, .i32⟩
  | 4 => ⟨S3000000, .i32⟩
  | 5 => ⟨S7x6, .f32⟩
  | 6 => ⟨S7x6, .f32⟩
  | 7 => ⟨S_, .f32⟩
  | 8 => ⟨S1000000, .f32⟩
  | 9 => ⟨S1000000, .f32⟩
  | 10 => ⟨S1000000, .f32⟩
  | 11 => ⟨S1000000, .f32⟩
  | 12 => ⟨S1000000, .f32⟩
  | 13 => ⟨S_, .f32⟩
  | 14 => ⟨S1000000, .f32⟩
  | 15 => ⟨S1000000, .f32⟩
  | 16 => ⟨S_, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S_, .f32⟩
  | 23 => ⟨S1000000, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S_, .f32⟩
  | 34 => ⟨S1000000, .f32⟩
  | 35 => ⟨S1000000, .i1⟩
  | 36 => ⟨S_, .f32⟩
  | 37 => ⟨S_, .f32⟩
  | 38 => ⟨S1000000, .f32⟩
  | 39 => ⟨S1000000, .f32⟩
  | 40 => ⟨S1x6, .f32⟩
  | 41 => ⟨S6, .f32⟩
  | 42 => ⟨S1000000x1, .f32⟩
  | 43 => ⟨S1x6, .f32⟩
  | 44 => ⟨S6, .f32⟩
  | 45 => ⟨S1x6, .f32⟩
  | 46 => ⟨S1000000x6, .f32⟩
  | 47 => ⟨S1000000x6, .f32⟩
  | 48 => ⟨S1000000x6, .f32⟩
  | 49 => ⟨S1000000x6, .f32⟩
  | 50 => ⟨S1000000x6, .f32⟩
  | 51 => ⟨S1x6, .f32⟩
  | 52 => ⟨S1000000x6, .f32⟩
  | 53 => ⟨S1000000x6, .f32⟩
  | 54 => ⟨S1x6, .f32⟩
  | 55 => ⟨S6, .f32⟩
  | 56 => ⟨S1000000x1, .f32⟩
  | 57 => ⟨S1x6, .f32⟩
  | 58 => ⟨S6, .f32⟩
  | 59 => ⟨S1x6, .f32⟩
  | 60 => ⟨S1000000x6, .f32⟩
  | 61 => ⟨S1000000x6, .f32⟩
  | 62 => ⟨S1000000x6, .f32⟩
  | 63 => ⟨S1000000x6, .f32⟩
  | 64 => ⟨S1000000x6, .f32⟩
  | 65 => ⟨S1000000x6, .f32⟩
  | 66 => ⟨S1000000x6, .f32⟩
  | 67 => ⟨S1000000x6, .f32⟩
  | 68 => ⟨S1000000x6, .f32⟩
  | 69 => ⟨S1000000x6, .f32⟩
  | 70 => ⟨S1000000x6, .f32⟩
  | 71 => ⟨S1x6, .f32⟩
  | 72 => ⟨S1000000x6, .f32⟩
  | 73 => ⟨S1000000x6, .f32⟩
  | 74 => ⟨S1x6, .f32⟩
  | 75 => ⟨S6, .f32⟩
  | 76 => ⟨S1000000x1, .f32⟩
  | 77 => ⟨S1x6, .f32⟩
  | 78 => ⟨S6, .f32⟩
  | 79 => ⟨S1x6, .f32⟩
  | 80 => ⟨S1000000x6, .f32⟩
  | 81 => ⟨S1000000x6, .f32⟩
  | 82 => ⟨S1000000x6, .f32⟩
  | 83 => ⟨S1000000x6, .f32⟩
  | 84 => ⟨S1000000x6, .f32⟩
  | 85 => ⟨S1000000x6, .f32⟩
  | 86 => ⟨S1000000x6, .f32⟩
  | 87 => ⟨S1000000x6, .f32⟩
  | 88 => ⟨S1000000x6, .f32⟩
  | 89 => ⟨S1000000x6, .f32⟩
  | 90 => ⟨S1000000x6, .f32⟩
  | 91 => ⟨S_, .f32⟩
  | 92 => ⟨S1000000x6, .f32⟩
  | 93 => ⟨S1000000x6, .f32⟩
  | 94 => ⟨S1000000x6, .f32⟩
  | 95 => ⟨S1000000x6, .f32⟩
  | 96 => ⟨S1x6, .f32⟩
  | 97 => ⟨S1000000x6, .f32⟩
  | 98 => ⟨S1000000x6, .f32⟩
  | 99 => ⟨S1x6, .f32⟩
  | 100 => ⟨S6, .f32⟩
  | 101 => ⟨S1000000x1, .f32⟩
  | 102 => ⟨S1x6, .f32⟩
  | 103 => ⟨S6, .f32⟩
  | 104 => ⟨S1x6, .f32⟩
  | 105 => ⟨S1000000x6, .f32⟩
  | 106 => ⟨S1000000x6, .f32⟩
  | 107 => ⟨S1000000x6, .f32⟩
  | 108 => ⟨S1000000x6, .f32⟩
  | 109 => ⟨S1000000x6, .f32⟩
  | 110 => ⟨S1000000x6, .f32⟩
  | 111 => ⟨S1000000x6, .f32⟩
  | 112 => ⟨S1000000x6, .f32⟩
  | 113 => ⟨S1000000x6, .f32⟩
  | 114 => ⟨S1000000x6, .f32⟩
  | 115 => ⟨S1000000x6, .f32⟩
  | 116 => ⟨S_, .f32⟩
  | 117 => ⟨S1000000x6, .f32⟩
  | 118 => ⟨S1000000x6, .f32⟩
  | 119 => ⟨S1000000x6, .f32⟩
  | 120 => ⟨S1000000x6, .f32⟩
  | 121 => ⟨S_, .f32⟩
  | 122 => ⟨S1000000x6, .f32⟩
  | 123 => ⟨S1000000x6, .f32⟩
  | 124 => ⟨S1000000x6, .f32⟩
  | 125 => ⟨S1000000x6, .f32⟩
  | 126 => ⟨S1x6, .f32⟩
  | 127 => ⟨S1000000x6, .f32⟩
  | _ => ⟨S1000000, .f32⟩

abbrev hbmTy0_1 (i : Nat) : BufTy := match i % 128 with
  | 0 => ⟨S1000000x6, .f32⟩
  | 1 => ⟨S1x6, .f32⟩
  | 2 => ⟨S6, .f32⟩
  | 3 => ⟨S1000000x1, .f32⟩
  | 4 => ⟨S1x6, .f32⟩
  | 5 => ⟨S6, .f32⟩
  | 6 => ⟨S1x6, .f32⟩
  | 7 => ⟨S1000000x6, .f32⟩
  | 8 => ⟨S1000000x6, .f32⟩
  | 9 => ⟨S1000000x6, .f32⟩
  | 10 => ⟨S1000000x6, .f32⟩
  | 11 => ⟨S1000000x6, .f32⟩
  | 12 => ⟨S1000000x6, .f32⟩
  | 13 => ⟨S1000000x6, .f32⟩
  | 14 => ⟨S1000000x6, .f32⟩
  | 15 => ⟨S1000000x6, .f32⟩
  | 16 => ⟨S1000000x6, .f32⟩
  | 17 => ⟨S1000000x6, .f32⟩
  | 18 => ⟨S_, .f32⟩
  | 19 => ⟨S1000000x6, .f32⟩
  | 20 => ⟨S1000000x6, .f32⟩
  | 21 => ⟨S1000000x6, .f32⟩
  | 22 => ⟨S1000000x6, .f32⟩
  | 23 => ⟨S_, .f32⟩
  | 24 => ⟨S1000000x6, .f32⟩
  | 25 => ⟨S1000000x6, .f32⟩
  | 26 => ⟨S1000000x6, .f32⟩
  | 27 => ⟨S1000000x6, .f32⟩
  | 28 => ⟨S_, .f32⟩
  | 29 => ⟨S1000000x6, .f32⟩
  | 30 => ⟨S1000000x6, .f32⟩
  | 31 => ⟨S1000000x6, .f32⟩
  | 32 => ⟨S1000000x6, .f32⟩
  | 33 => ⟨S1x6, .f32⟩
  | 34 => ⟨S1000000x6, .f32⟩
  | 35 => ⟨S1000000x6, .f32⟩
  | 36 => ⟨S1x6, .f32⟩
  | 37 => ⟨S6, .f32⟩
  | 38 => ⟨S1000000x1, .f32⟩
  | 39 => ⟨S1x6, .f32⟩
  | 40 => ⟨S6, .f32⟩
  | 41 => ⟨S1x6, .f32⟩
  | 42 => ⟨S1000000x6, .f32⟩
  | 43 => ⟨S1000000x6, .f32⟩
  | 44 => ⟨S1000000x6, .f32⟩
  | 45 => ⟨S1000000x6, .f32⟩
  | 46 => ⟨S1000000x6, .f32⟩
  | 47 => ⟨S1000000x6, .f32⟩
  | 48 => ⟨S1000000x6, .f32⟩
  | 49 => ⟨S1000000x6, .f32⟩
  | 50 => ⟨S1000000x6, .f32⟩
  | 51 => ⟨S1000000x6, .f32⟩
  | 52 => ⟨S1000000x6, .f32⟩
  | 53 => ⟨S_, .f32⟩
  | 54 => ⟨S1000000x6, .f32⟩
  | 55 => ⟨S1000000x6, .f32⟩
  | 56 => ⟨S1000000x6, .f32⟩
  | 57 => ⟨S1000000x6, .f32⟩
  | 58 => ⟨S_, .f32⟩
  | 59 => ⟨S1000000x6, .f32⟩
  | 60 => ⟨S1000000x6, .f32⟩
  | 61 => ⟨S1000000x6, .f32⟩
  | 62 => ⟨S1000000x6, .f32⟩
  | 63 => ⟨S_, .f32⟩
  | 64 => ⟨S1000000x6, .f32⟩
  | 65 => ⟨S1000000x6, .f32⟩
  | 66 => ⟨S1000000x6, .f32⟩
  | 67 => ⟨S1000000x6, .f32⟩
  | 68 => ⟨S_, .f32⟩
  | 69 => ⟨S1000000x6, .f32⟩
  | 70 => ⟨S1000000x6, .f32⟩
  | 71 => ⟨S1000000x6, .f32⟩
  | 72 => ⟨S1000000x6, .f32⟩
  | 73 => ⟨S1x6, .f32⟩
  | 74 => ⟨S1000000x6, .f32⟩
  | 75 => ⟨S1000000x6, .f32⟩
  | 76 => ⟨S1x6, .f32⟩
  | 77 => ⟨S6, .f32⟩
  | 78 => ⟨S1000000x1, .f32⟩
  | 79 => ⟨S1x6, .f32⟩
  | 80 => ⟨S6, .f32⟩
  | 81 => ⟨S1x6, .f32⟩
  | 82 => ⟨S1000000x6, .f32⟩
  | 83 => ⟨S1000000x6, .f32⟩
  | 84 => ⟨S1000000x6, .f32⟩
  | 85 => ⟨S1000000x6, .f32⟩
  | 86 => ⟨S1000000x6, .f32⟩
  | 87 => ⟨S1000000x6, .f32⟩
  | 88 => ⟨S1000000x6, .f32⟩
  | 89 => ⟨S1000000x6, .f32⟩
  | 90 => ⟨S1000000x6, .f32⟩
  | 91 => ⟨S1000000x6, .f32⟩
  | 92 => ⟨S1000000x6, .f32⟩
  | 93 => ⟨S_, .f32⟩
  | 94 => ⟨S1000000x6, .f32⟩
  | 95 => ⟨S1000000x6, .f32⟩
  | 96 => ⟨S1000000x6, .f32⟩
  | 97 => ⟨S1000000x6, .f32⟩
  | 98 => ⟨S_, .f32⟩
  | 99 => ⟨S1000000x6, .f32⟩
  | 100 => ⟨S1000000x6, .f32⟩
  | 101 => ⟨S1000000x6, .f32⟩
  | 102 => ⟨S1000000x6, .f32⟩
  | 103 => ⟨S_, .f32⟩
  | 104 => ⟨S1000000x6, .f32⟩
  | 105 => ⟨S1000000x6, .f32⟩
  | 106 => ⟨S1000000x6, .f32⟩
  | 107 => ⟨S1000000x6, .f32⟩
  | 108 => ⟨S_, .f32⟩
  | 109 => ⟨S1000000x6, .f32⟩
  | 110 => ⟨S1000000x6, .f32⟩
  | 111 => ⟨S1000000x6, .f32⟩
  | 112 => ⟨S1000000x6, .f32⟩
  | 113 => ⟨S_, .f32⟩
  | 114 => ⟨S1000000x6, .f32⟩
  | 115 => ⟨S1000000x6, .f32⟩
  | 116 => ⟨S1000000x6, .f32⟩
  | 117 => ⟨S1000000x6, .f32⟩
  | 118 => ⟨S1x6, .f32⟩
  | 119 => ⟨S1000000x6, .f32⟩
  | 120 => ⟨S1000000x6, .f32⟩
  | 121 => ⟨S1000000x42, .f32⟩
  | 122 => ⟨S1000000x1, .f32⟩
  | 123 => ⟨S1000000x42, .f32⟩
  | 124 => ⟨S1000000x42, .f32⟩
  | 125 => ⟨S_, .i32⟩
  | 126 => ⟨S3000000, .i32⟩
  | 127 => ⟨S3000000, .i1⟩
  | _ => ⟨S1000000, .f32⟩

abbrev hbmTy0_2 (i : Nat) : BufTy := match i % 128 with
  | 0 => ⟨S_, .i32⟩
  | 1 => ⟨S3000000, .i32⟩
  | 2 => ⟨S3000000, .i32⟩
  | 3 => ⟨S3000000, .i32⟩
  | 4 => ⟨S3000000x1, .i32⟩
  | 5 => ⟨S3000000x42, .f32⟩
  | 6 => ⟨S3000000, .f32⟩
  | 7 => ⟨S_, .f32⟩
  | 8 => ⟨S3000000, .f32⟩
  | 9 => ⟨S_, .f32⟩
  | 10 => ⟨S3000000, .f32⟩
  | 11 => ⟨S3000000, .f32⟩
  | 12 => ⟨S3000000, .f32⟩
  | 13 => ⟨S_, .f32⟩
  | 14 => ⟨S3000000, .f32⟩
  | 15 => ⟨S3000000, .f32⟩
  | 16 => ⟨S3000000, .f32⟩
  | 17 => ⟨S_, .f32⟩
  | 18 => ⟨S3000000, .f32⟩
  | 19 => ⟨S3000000, .f32⟩
  | 20 => ⟨S_, .f32⟩
  | 21 => ⟨S3000000, .f32⟩
  | 22 => ⟨S3000000, .f32⟩
  | 23 => ⟨S3000000, .f32⟩
  | 24 => ⟨S_, .f32⟩
  | 25 => ⟨S3000000, .f32⟩
  | 26 => ⟨S3000000, .f32⟩
  | 27 => ⟨S3000000, .f32⟩
  | 28 => ⟨S_, .f32⟩
  | 29 => ⟨S3000000, .f32⟩
  | 30 => ⟨S3000000, .f32⟩
  | 31 => ⟨S_, .f32⟩
  | 32 => ⟨S3000000, .f32⟩
  | 33 => ⟨S3000000, .f32⟩
  | 34 => ⟨S3000000, .f32⟩
  | 35 => ⟨S_, .f32⟩
  | 36 => ⟨S3000000, .f32⟩
  | 37 => ⟨S3000000, .f32⟩
  | 38 => ⟨S3000000, .f32⟩
  | 39 => ⟨S_, .f32⟩
  | 40 => ⟨S3000000, .f32⟩
  | 41 => ⟨S3000000, .f32⟩
  | 42 => ⟨S_, .f32⟩
  | 43 => ⟨S3000000, .f32⟩
  | 44 => ⟨S3000000, .f32⟩
  | 45 => ⟨S3000000, .f32⟩
  | 46 => ⟨S_, .f32⟩
  | 47 => ⟨S3000000, .f32⟩
  | 48 => ⟨S3000000, .f32⟩
  | 49 => ⟨S3000000, .f32⟩
  | 50 => ⟨S_, .f32⟩
  | 51 => ⟨S3000000, .f32⟩
  | 52 => ⟨S3000000, .f32⟩
  | 53 => ⟨S_, .f32⟩
  | 54 => ⟨S3000000, .f32⟩
  | 55 => ⟨S3000000, .f32⟩
  | 56 => ⟨S3000000, .f32⟩
  | 57 => ⟨S_, .f32⟩
  | 58 => ⟨S3000000, .f32⟩
  | 59 => ⟨S3000000, .f32⟩
  | 60 => ⟨S3000000, .f32⟩
  | 61 => ⟨S_, .f32⟩
  | 62 => ⟨S3000000, .f32⟩
  | 63 => ⟨S3000000, .f32⟩
  | 64 => ⟨S_, .f32⟩
  | 65 => ⟨S3000000, .f32⟩
  | 66 => ⟨S3000000, .f32⟩
  | 67 => ⟨S_, .f32⟩
  | 68 => ⟨S3000000, .f32⟩
  | 69 => ⟨S3000000, .f32⟩
  | 70 => ⟨S_, .f32⟩
  | 71 => ⟨S3000000, .f32⟩
  | 72 => ⟨S3000000, .f32⟩
  | 73 => ⟨S_, .f32⟩
  | 74 => ⟨S3000000, .f32⟩
  | 75 => ⟨S3000000, .f32⟩
  | 76 => ⟨S_, .f32⟩
  | 77 => ⟨S3000000, .f32⟩
  | 78 => ⟨S3000000, .f32⟩
  | 79 => ⟨S_, .f32⟩
  | 80 => ⟨S3000000, .f32⟩
  | 81 => ⟨S3000000, .f32⟩
  | 82 => ⟨S_, .f32⟩
  | 83 => ⟨S3000000, .f32⟩
  | 84 => ⟨S3000000, .f32⟩
  | 85 => ⟨S3000000x1, .f32⟩
  | 86 => ⟨S3000000x1, .f32⟩
  | 87 => ⟨S3000000x1, .f32⟩
  | 88 => ⟨S3000000x1, .f32⟩
  | 89 => ⟨S3000000x1, .f32⟩
  | 90 => ⟨S3000000x1, .f32⟩
  | 91 => ⟨S3000000x1, .f32⟩
  | 92 => ⟨S3000000x7, .f32⟩
  | 93 => ⟨S3000000x7x6, .f32⟩
  | 94 => ⟨S3000000x42, .f32⟩
  | 95 => ⟨S3000000x42, .f32⟩
  | 96 => ⟨S3000000x42, .f32⟩
  | 97 => ⟨S3000000x42, .f32⟩
  | _ => ⟨S1000000, .f32⟩

abbrev hbmTy (i : Nat) : BufTy := match i / 128 with
  | 0 => hbmTy0_0 i
  | 1 => hbmTy0_1 i
  | 2 => hbmTy0_2 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_8 : Ref sig .tc := ⟨.hbm, 33, rfl⟩
abbrev main_v19 : Ref sig .tc := ⟨.hbm, 34, rfl⟩
abbrev main_v20 : Ref sig .tc := ⟨.hbm, 35, rfl⟩
abbrev main_cst_9 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_11 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_12 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_13 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_14 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_15 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_cst_16 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_17 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_cst_18 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_cst_19 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_cst_20 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_cst_21 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_22 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_cst_23 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_cst_24 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_c : Ref sig .tc := ⟨.hbm, 253, rfl⟩
abbrev main_v220 : Ref sig .tc := ⟨.hbm, 254, rfl⟩
abbrev main_v221 : Ref sig .tc := ⟨.hbm, 255, rfl⟩
abbrev main_c_25 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_cst_26 : Ref sig .tc := ⟨.hbm, 263, rfl⟩
abbrev main_v228 : Ref sig .tc := ⟨.hbm, 264, rfl⟩
abbrev main_cst_27 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_cst_28 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_cst_29 : Ref sig .tc := ⟨.hbm, 273, rfl⟩
abbrev main_v235 : Ref sig .tc := ⟨.hbm, 274, rfl⟩
abbrev main_v236 : Ref sig .tc := ⟨.hbm, 275, rfl⟩
abbrev main_cst_30 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_cst_31 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_cst_32 : Ref sig .tc := ⟨.hbm, 284, rfl⟩
abbrev main_v243 : Ref sig .tc := ⟨.hbm, 285, rfl⟩
abbrev main_v244 : Ref sig .tc := ⟨.hbm, 286, rfl⟩
abbrev main_cst_33 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_cst_34 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_cst_35 : Ref sig .tc := ⟨.hbm, 295, rfl⟩
abbrev main_v251 : Ref sig .tc := ⟨.hbm, 296, rfl⟩
abbrev main_v252 : Ref sig .tc := ⟨.hbm, 297, rfl⟩
abbrev main_cst_36 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_cst_37 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_cst_38 : Ref sig .tc := ⟨.hbm, 306, rfl⟩
abbrev main_v259 : Ref sig .tc := ⟨.hbm, 307, rfl⟩
abbrev main_v260 : Ref sig .tc := ⟨.hbm, 308, rfl⟩
abbrev main_cst_39 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_cst_40 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_cst_41 : Ref sig .tc := ⟨.hbm, 317, rfl⟩
abbrev main_v267 : Ref sig .tc := ⟨.hbm, 318, rfl⟩
abbrev main_v268 : Ref sig .tc := ⟨.hbm, 319, rfl⟩
abbrev main_cst_42 : Ref sig .tc := ⟨.hbm, 320, rfl⟩
abbrev main_v269 : Ref sig .tc := ⟨.hbm, 321, rfl⟩
abbrev main_v270 : Ref sig .tc := ⟨.hbm, 322, rfl⟩
abbrev main_cst_43 : Ref sig .tc := ⟨.hbm, 323, rfl⟩
abbrev main_v271 : Ref sig .tc := ⟨.hbm, 324, rfl⟩
abbrev main_v272 : Ref sig .tc := ⟨.hbm, 325, rfl⟩
abbrev main_cst_44 : Ref sig .tc := ⟨.hbm, 326, rfl⟩
abbrev main_v273 : Ref sig .tc := ⟨.hbm, 327, rfl⟩
abbrev main_v274 : Ref sig .tc := ⟨.hbm, 328, rfl⟩
abbrev main_cst_45 : Ref sig .tc := ⟨.hbm, 329, rfl⟩
abbrev main_v275 : Ref sig .tc := ⟨.hbm, 330, rfl⟩
abbrev main_v276 : Ref sig .tc := ⟨.hbm, 331, rfl⟩
abbrev main_cst_46 : Ref sig .tc := ⟨.hbm, 332, rfl⟩
abbrev main_v277 : Ref sig .tc := ⟨.hbm, 333, rfl⟩
abbrev main_v278 : Ref sig .tc := ⟨.hbm, 334, rfl⟩
abbrev main_cst_47 : Ref sig .tc := ⟨.hbm, 335, rfl⟩
abbrev main_v279 : Ref sig .tc := ⟨.hbm, 336, rfl⟩
abbrev main_v280 : Ref sig .tc := ⟨.hbm, 337, rfl⟩
abbrev main_cst_48 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  slices_S7x6_S1x6_0_0 : S7x6.Slices ![0, 0] S1x6
  shapeCasts_S1x6_S6 : S1x6.ShapeCasts S6
  bcast_S1000000_S1000000x1_0 : S1000000.BroadcastsInDim S1000000x1 (![0] : Fin 1 → Fin S1000000x1.rank)
  bcast_S6_S1x6_1 : S6.BroadcastsInDim S1x6 (![1] : Fin 1 → Fin S1x6.rank)
  bcast_S1000000x1_S1000000x6_0_1 : S1000000x1.BroadcastsInDim S1000000x6 (![0, 1] : Fin 2 → Fin S1000000x6.rank)
  bcast_S1x6_S1000000x6_0_1 : S1x6.BroadcastsInDim S1000000x6 (![0, 1] : Fin 2 → Fin S1000000x6.rank)
  slices_S7x6_S1x6_1_0 : S7x6.Slices ![1, 0] S1x6
  slices_S7x6_S1x6_2_0 : S7x6.Slices ![2, 0] S1x6
  bcast_S_S1000000x6 : S_.BroadcastsInDim S1000000x6 (![] : Fin 0 → Fin S1000000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  concatenates_S1000000x6_S1000000x6_S1000000x6_S1000000x6_S1000000x6_S1000000x6_S1000000x6_S1000000x42_d1 : Shape.Concatenates [S1000000x6, S1000000x6, S1000000x6, S1000000x6, S1000000x6, S1000000x6, S1000000x6] S1000000x42 1
  bcast_S1000000x1_S1000000x42_0_1 : S1000000x1.BroadcastsInDim S1000000x42 (![0, 1] : Fin 2 → Fin S1000000x42.rank)
  bcast_S_S3000000 : S_.BroadcastsInDim S3000000 (![] : Fin 0 → Fin S3000000.rank)
  bcast_S3000000_S3000000x1_0 : S3000000.BroadcastsInDim S3000000x1 (![0] : Fin 1 → Fin S3000000x1.rank)
  concatenates_S3000000x1_S3000000x1_S3000000x1_S3000000x1_S3000000x1_S3000000x1_S3000000x1_S3000000x7_d1 : Shape.Concatenates [S3000000x1, S3000000x1, S3000000x1, S3000000x1, S3000000x1, S3000000x1, S3000000x1] S3000000x7 1
  bcast_S3000000x7_S3000000x7x6_0_1 : S3000000x7.BroadcastsInDim S3000000x7x6 (![0, 1] : Fin 2 → Fin S3000000x7x6.rank)
  shapeCasts_S3000000x7x6_S3000000x42 : S3000000x7x6.ShapeCasts S3000000x42
  bcast_S3000000x1_S3000000x42_0_1 : S3000000x1.BroadcastsInDim S3000000x42 (![0, 1] : Fin 2 → Fin S3000000x42.rank)
  gather_S1000000x42_S3000000x1_S3000000x42_1_0_n_n_0_1_142_wf : GatherDims.WF S1000000x42 S3000000x1 S3000000x42 [1] [0] [] [0] [] 1 ![1, 42]

variable [Facts₀]

def gather_S1000000x42_S3000000x1_S3000000x42_1_0_n_n_0_1_142 : GatherDims S1000000x42 S3000000x1 S3000000x42 where
  offsetDims := [1]
  collapsedSliceDims := [0]
  operandBatchingDims := []
  startIndicesBatchingDims := []
  startIndexMap := [0]
  indexVectorDim := 1
  sliceSizes := ![1, 42]
  wf := gather_S1000000x42_S3000000x1_S3000000x42_1_0_n_n_0_1_142_wf

class Facts : Prop extends Facts₀ where

variable [Facts]
-- ==== Proof.RefOps.lean ====
/- A TABLE: the reference program's host operations as lists, once per printed window (w0 …) and once cut at the seams
   of the computation (sA, sB0 … sB6, sC, sD1, sD2), each with its builders' buffer facts. No theorem about what the
   operations compute is here. -/
import proofs.«169226_j83665962926262_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- Printed window 0 of @main: its 62 operations, in order. -/
abbrev w0 : List (HloOp τ sig (Elt F)) :=
  [ StableHlo.nullary main_cst (fun i => FloatOps.ofBits .f32 (lit0 (S7x6.rowMajor i))),
    StableHlo.nullary main_cst_0 (fun i => FloatOps.ofBits .f32 (lit1 (S7x6.rowMajor i))),
    StableHlo.nullary main_cst_1 (constant S_ .f32 0x3E4CCCCD#32),
    StableHlo.unary main_cst_1 main_v0 (broadcastInDim S1000000 ![] bcast_S_S1000000 : (⟨S_, .f32⟩ : BufTy).Contents (Elt F) → (⟨S1000000, .f32⟩ : BufTy).Contents (Elt F)),
    StableHlo.binary main_arg0 main_v0 main_v1 (mulf : (⟨S1000000, .f32⟩ : BufTy).Contents (Elt F) → (⟨S1000000, .f32⟩ : BufTy).Contents (Elt F) → (⟨S1000000, .f32⟩ : BufTy).Contents (Elt F)),
    StableHlo.binary main_v1 main_v1 main_v2 (mulf : (⟨S1000000, .f32⟩ : BufTy).Contents (Elt F) → (⟨S1000000, .f32⟩ : BufTy).Contents (Elt F) → (⟨S1000000, .f32⟩ : BufTy).Contents (Elt F)),
    StableHlo.binary main_v2 main_v2 main_v3 (mulf : (⟨S1000000, .f32⟩ : BufTy).Contents (Elt F) → (⟨S1000000, .f32⟩ : BufTy).Contents (Elt F) → (⟨S1000000, .f32⟩ : BufTy).Contents (Elt F)),
    StableHlo.binary main_v2 main_v3 main_v4 (mulf : (⟨S1000000, .f32⟩ : BufTy).Contents (Elt F) → (⟨S1000000, .f32⟩ : BufTy).Contents (Elt F) → (⟨S1000000, .f32⟩ : BufTy).Contents (Elt F)),
    StableHlo.nullary main_cst_2 (constant S_ .f32 0xC1E00000#32),
    StableHlo.unary main_cst_2 main_v5 (broadcastInDim S1000000 ![] bcast_S_S1000000 : (⟨S_, .f32⟩ : BufTy).Contents (Elt F) → (⟨S1000000, .f32⟩ : BufTy).Contents (Elt F)),
    StableHlo.binary main_v5 main_v4 main_v6 (mulf : (⟨S1000000, .f32⟩ : BufTy).Contents (Elt F) → (⟨S1000000, .f32⟩ : BufTy).Contents (Elt F) → (⟨S1000000, .f32⟩ : BufTy).Contents (Elt F)),
    StableHlo.nullary main_cst_3 (constant S_ .f32 0x3F800000#32),
    StableHlo.unary main_cst_3 main_v7 (broadcastInDim S1000000 ![] bcast_S_S1000000 : (⟨S_, .f32⟩ : BufTy).Contents (Elt F) → (⟨S1000000, .f32⟩ : BufTy).Contents (Elt F)),
    StableHlo.binary main_v7 main_v6 main_v8 (addf : (⟨S1000000, .f32⟩ : BufTy).Contents (Elt F) → (⟨S1000000, .f32⟩ : BufTy).Contents (Elt F) → (⟨S1000000, .f32⟩ : BufTy).Contents (Elt F)),
    StableHlo.nullary main_cst_4 (constant S_ .f32 0x40E00000#32),
    StableHlo.unary main_cst_4 main_v9 (broadcastInDim S1000000 ![] bcast_S_S1000000 : (⟨S_, .f32⟩ : BufTy).Contents (Elt F) → (⟨S1000000, .f32⟩ : BufTy).Contents (Elt F)),
    StableHlo.binary main_v1 main_v9 main_v10 (Host.powf : (⟨S1000000, .f32⟩ : BufTy).Contents (Elt F) → (⟨S1000000, .f32⟩ : BufTy).Contents (Elt F) → (⟨S1000000, .f32⟩ : BufTy).Contents (Elt F)),
    StableHlo.nullary main_cst_5 (constant S_ .f32 0x42400000#32),
    StableHlo.unary main_cst_5 main_v11 (broadcastInDim S1000000 ![] bcast_S_S1000000 : (⟨S_, .f32⟩ : BufTy).Contents (Elt F) → (⟨S1000000, .f32⟩ : BufTy).Contents (Elt F)),
    StableHlo.binary main_v11 main_v10 main_v12 (mulf : (⟨S1000000, .f32⟩ : BufTy).Contents (Elt F) → (⟨S1000000, .f32⟩ : BufTy).Contents (Elt F) → (⟨S1000000, .f32⟩ : BufTy).Contents (Elt F)),
    StableHlo.binary main_v8 main_v12 main_v13 (addf : (⟨S1000000, .f32⟩ : BufTy).Contents (Elt F) → (⟨S1000000, .f32⟩ : BufTy).Contents (Elt F) → (⟨S1000000, .f32⟩ : BufTy).Contents (Elt F)),
    StableHlo.nullary main_cst_6 (constant S_ .f32 0x41000000#32),
    StableHlo.unary main_cst_6 main_v14 (broadcastInDim S1000000 ![] bcast_S_S1000000 : (⟨S_, .f32⟩ : BufTy).Contents (Elt F) → (⟨S1000000, .f32⟩ : BufTy).Contents (Elt F)),
    StableHlo.binary main_v1 main_v14 main_v15 (Host.powf : (⟨S1000000, .f32⟩ : BufTy).Contents (Elt F) → (⟨S1000000, .f32⟩ : BufTy).Contents (Elt F) → (⟨S1000000, .f32⟩ : BufTy).Contents (Elt F)),
    StableHlo.nullary main_cst_7 (constant S_ .f32 0xC1A80000#32),
    StableHlo.unary main_cst_7 main_v16 (broadcastInDim S1000000 ![] bcast_S_S1000000 : (⟨S_, .f32⟩ : BufTy).Contents (Elt F) → (⟨S1000000, .f32⟩ : BufTy).Contents (Elt F)),
    StableHlo.binary main_v16 main_v15 main_v17 (mulf : (⟨S1000000, .f32⟩ : BufTy).Contents (Elt F) → (⟨S1000000, .f32⟩ : BufTy).Contents (Elt F) → (⟨S1000000, .f32⟩ : BufTy).Contents (Elt F)),
    StableHlo.binary main_v13 main_v17 main_v18 (addf : (⟨S1000000, .f32⟩ : BufTy).Contents (Elt F) → (⟨S1000000, .f32⟩ : BufTy).Contents (Elt F) → (⟨S1000000, .f32⟩ : BufTy).Contents (Elt F)),
    StableHlo.nullary main_cst_8 (constant S_ .f32 0x3F800000#32),
    StableHlo.unary main_cst_8 main_v19 (broadcastInDim S1000000 ![] bcast_S_S1000000 : (⟨S_, .f32⟩ : BufTy).Contents (Elt F) → (⟨S1000000, .f32⟩ : BufTy).Contents (Elt F)),
    StableHlo.binary main_v1 main_v19 main_v20 (cmpf .olt : (⟨S1000000, .f32⟩ : BufTy).Contents (Elt F) → (⟨S1000000, .f32⟩ : BufTy).Contents (Elt F) → (⟨S1000000, .i1⟩ : BufTy).Contents (Elt F)),
    StableHlo.nullary main_cst_9 (constant S_ .f32 0x00000000#32),
    StableHlo.TRef.unary (StableHlo.TRef.of (T := ⟨S_, .f32⟩) main_cst_9) main_call0.v0 id,
    StableHlo.TRef.unary main_call0.v0 main_call0.v1 (broadcastInDim S1000000 ![] bcast_S_S1000000),
    StableHlo.TRef.ternary (StableHlo.TRef.of (T := ⟨S1000000, .i1⟩) main_v20) (StableHlo.TRef.of (T := ⟨S1000000, .f32⟩) main_v18) main_call0.v1 main_call0.v2 select,
    StableHlo.unary main_cst_0 main_v22 ((extractStridedSlice S1x6 ![0, 0] · slices_S7x6_S1x6_0_0) : (⟨S7x6, .f32⟩ : BufTy).Contents (Elt F) → (⟨S1x6, .f32⟩ : BufTy).Contents (Elt F)),
    StableHlo.reshape main_v22 main_v23 rfl shapeCasts_S1x6_S6,
    StableHlo.unary main_v1 main_v24 (broadcastInDim S1000000x1 ![0] bcast_S1000000_S1000000x1_0 : (⟨S1000000, .f32⟩ : BufTy).Contents (Elt F) → (⟨S1000000x1, .f32⟩ : BufTy).Contents (Elt F)),
    StableHlo.unary main_cst main_v25 ((extractStridedSlice S1x6 ![0, 0] · slices_S7x6_S1x6_0_0) : (⟨S7x6, .f32⟩ : BufTy).Contents (Elt F) → (⟨S1x6, .f32⟩ : BufTy).Contents (Elt F)),
    StableHlo.reshape main_v25 main_v26 rfl shapeCasts_S1x6_S6,
    StableHlo.unary main_v26 main_v27 (broadcastInDim S1x6 ![1] bcast_S6_S1x6_1 : (⟨S6, .f32⟩ : BufTy).Contents (Elt F) → (⟨S1x6, .f32⟩ : BufTy).Contents (Elt F)),
    StableHlo.unary main_v24 main_v28 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v27 main_v29 (broadcastInDim S1000000x6 ![0, 1] bcast_S1x6_S1000000x6_0_1 : (⟨S1x6, .f32⟩ : BufTy).Contents (Elt F) → (⟨S1000000x6, .f32⟩ : BufTy).Contents (Elt F)),
    StableHlo.binary main_v28 main_v29 main_v30 (mulf : (⟨S1000000x6, .f32⟩ : BufTy).Contents (Elt F) → (⟨S1000000x6, .f32⟩ : BufTy).Contents (Elt F) → (⟨S1000000x6, .f32⟩ : BufTy).Contents (Elt F)),
    StableHlo.unary main_v30 main_v31 (Host.sin : (⟨S1000000x6, .f32⟩ : BufTy).Contents (Elt F) → (⟨S1000000x6, .f32⟩ : BufTy).Contents (Elt F)),
    StableHlo.binary main_v31 main_v30 main_v32 (Host.divf : (⟨S1000000x6, .f32⟩ : BufTy).Contents (Elt F) → (⟨S1000000x6, .f32⟩ : BufTy).Contents (Elt F) → (⟨S1000000x6, .f32⟩ : BufTy).Contents (Elt F)),
    StableHlo.unary main_v23 main_v33 (broadcastInDim S1x6 ![1] bcast_S6_S1x6_1 : (⟨S6, .f32⟩ : BufTy).Contents (Elt F) → (⟨S1x6, .f32⟩ : BufTy).Contents (Elt F)),
    StableHlo.unary main_v33 main_v34 (broadcastInDim S1000000x6 ![0, 1] bcast_S1x6_S1000000x6_0_1 : (⟨S1x6, .f32⟩ : BufTy).Contents (Elt F) → (⟨S1000000x6, .f32⟩ : BufTy).Contents (Elt F)),
    StableHlo.binary main_v34 main_v32 main_v35 (mulf : (⟨S1000000x6, .f32⟩ : BufTy).Contents (Elt F) → (⟨S1000000x6, .f32⟩ : BufTy).Contents (Elt F) → (⟨S1000000x6, .f32⟩ : BufTy).Contents (Elt F)),
    StableHlo.unary main_cst_0 main_v36 ((extractStridedSlice S1x6 ![1, 0] · slices_S7x6_S1x6_1_0) : (⟨S7x6, .f32⟩ : BufTy).Contents (Elt F) → (⟨S1x6, .f32⟩ : BufTy).Contents (Elt F)),
    StableHlo.reshape main_v36 main_v37 rfl shapeCasts_S1x6_S6,
    StableHlo.unary main_v1 main_v38 (broadcastInDim S1000000x1 ![0] bcast_S1000000_S1000000x1_0 : (⟨S1000000, .f32⟩ : BufTy).Contents (Elt F) → (⟨S1000000x1, .f32⟩ : BufTy).Contents (Elt F)),
    StableHlo.unary main_cst main_v39 ((extractStridedSlice S1x6 ![1, 0] · slices_S7x6_S1x6_1_0) : (⟨S7x6, .f32⟩ : BufTy).Contents (Elt F) → (⟨S1x6, .f32⟩ : BufTy).Contents (Elt F)),
    StableHlo.reshape main_v39 main_v40 rfl shapeCasts_S1x6_S6,
    StableHlo.unary main_v40 main_v41 (broadcastInDim S1x6 ![1] bcast_S6_S1x6_1 : (⟨S6, .f32⟩ : BufTy).Contents (Elt F) → (⟨S1x6, .f32⟩ : BufTy).Contents (Elt F)),
    StableHlo.unary main_v38 main_v42 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v41 main_v43 (broadcastInDim S1000000x6 ![0, 1] bcast_S1x6_S1000000x6_0_1 : (⟨S1x6, .f32⟩ : BufTy).Contents (Elt F) → (⟨S1000000x6, .f32⟩ : BufTy).Contents (Elt F)),
    StableHlo.binary main_v42 main_v43 main_v44 (mulf : (⟨S1000000x6, .f32⟩ : BufTy).Contents (Elt F) → (⟨S1000000x6, .f32⟩ : BufTy).Contents (Elt F) → (⟨S1000000x6, .f32⟩ : BufTy).Contents (Elt F)),
    StableHlo.unary main_v44 main_v45 (Host.sin : (⟨S1000000x6, .f32⟩ : BufTy).Contents (Elt F) → (⟨S1000000x6, .f32⟩ : BufTy).Contents (Elt F)),
    StableHlo.binary main_v45 main_v44 main_v46 (Host.divf : (⟨S1000000x6, .f32⟩ : BufTy).Contents (Elt F) → (⟨S1000000x6, .f32⟩ : BufTy).Contents (Elt F) → (⟨S1000000x6, .f32⟩ : BufTy).Contents (Elt F)),
    StableHlo.unary main_v44 main_v47 (Host.sin : (⟨S1000000x6, .f32⟩ : BufTy).Contents (Elt F) → (⟨S1000000x6, .f32⟩ : BufTy).Contents (Elt F)),
    StableHlo.binary main_v44 main_v44 main_v48 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem w0_sub : (w0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub ..⟩

/-- Printed window 1 of @main: its 60 operations, in order. -/
abbrev w1 : List (HloOp τ sig (Elt F)) :=
  [ StableHlo.binary main_v47 main_v48 main_v49 (Host.divf : (⟨S1000000x6, .f32⟩ : BufTy).Contents (Elt F) → (⟨S1000000x6, .f32⟩ : BufTy).Contents (Elt F) → (⟨S1000000x6, .f32⟩ : BufTy).Contents (Elt F)),
    StableHlo.unary main_v44 main_v50 (Host.cos : (⟨S1000000x6, .f32⟩ : BufTy).Contents (Elt F) → (⟨S1000000x6, .f32⟩ : BufTy).Contents (Elt F)),
    StableHlo.binary main_v50 main_v44 main_v51 (Host.divf : (⟨S1000000x6, .f32⟩ : BufTy).Contents (Elt F) → (⟨S1000000x6, .f32⟩ : BufTy).Contents (Elt F) → (⟨S1000000x6, .f32⟩ : BufTy).Contents (Elt F)),
    StableHlo.binary main_v49 main_v51 main_v52 (subf : (⟨S1000000x6, .f32⟩ : BufTy).Contents (Elt F) → (⟨S1000000x6, .f32⟩ : BufTy).Contents (Elt F) → (⟨S1000000x6, .f32⟩ : BufTy).Contents (Elt F)),
    StableHlo.unary main_v37 main_v53 (broadcastInDim S1x6 ![1] bcast_S6_S1x6_1 : (⟨S6, .f32⟩ : BufTy).Contents (Elt F) → (⟨S1x6, .f32⟩ : BufTy).Contents (Elt F)),
    StableHlo.unary main_v53 main_v54 (broadcastInDim S1000000x6 ![0, 1] bcast_S1x6_S1000000x6_0_1 : (⟨S1x6, .f32⟩ : BufTy).Contents (Elt F) → (⟨S1000000x6, .f32⟩ : BufTy).Contents (Elt F)),
    StableHlo.binary main_v54 main_v52 main_v55 (mulf : (⟨S1000000x6, .f32⟩ : BufTy).Contents (Elt F) → (⟨S1000000x6, .f32⟩ : BufTy).Contents (Elt F) → (⟨S1000000x6, .f32⟩ : BufTy).Contents (Elt F)),
    StableHlo.unary main_cst_0 main_v56 ((extractStridedSlice S1x6 ![2, 0] · slices_S7x6_S1x6_2_0) : (⟨S7x6, .f32⟩ : BufTy).Contents (Elt F) → (⟨S1x6, .f32⟩ : BufTy).Contents (Elt F)),
    StableHlo.reshape main_v56 main_v57 rfl shapeCasts_S1x6_S6,
    StableHlo.unary main_v1 main_v58 (broadcastInDim S1000000x1 ![0] bcast_S1000000_S1000000x1_0 : (⟨S1000000, .f32⟩ : BufTy).Contents (Elt F) → (⟨S1000000x1, .f32⟩ : BufTy).Contents (Elt F)),
    StableHlo.unary main_cst main_v59 ((extractStridedSlice S1x6 ![2, 0] · slices_S7x6_S1x6_2_0) : (⟨S7x6, .f32⟩ : BufTy).Contents (Elt F) → (⟨S1x6, .f32⟩ : BufTy).Contents (Elt F)),
    StableHlo.reshape main_v59 main_v60 rfl shapeCasts_S1x6_S6,
    StableHlo.unary main_v60 main_v61 (broadcastInDim S1x6 ![1] bcast_S6_S1x6_1 : (⟨S6, .f32⟩ : BufTy).Contents (Elt F) → (⟨S1x6, .f32⟩ : BufTy).Contents (Elt F)),
    StableHlo.unary main_v58 main_v62 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v61 main_v63 (broadcastInDim S1000000x6 ![0, 1] bcast_S1x6_S1000000x6_0_1 : (⟨S1x6, .f32⟩ : BufTy).Contents (Elt F) → (⟨S1000000x6, .f32⟩ : BufTy).Contents (Elt F)),
    StableHlo.binary main_v62 main_v63 main_v64 (mulf : (⟨S1000000x6, .f32⟩ : BufTy).Contents (Elt F) → (⟨S1000000x6, .f32⟩ : BufTy).Contents (Elt F) → (⟨S1000000x6, .f32⟩ : BufTy).Contents (Elt F)),
    StableHlo.unary main_v64 main_v65 (Host.sin : (⟨S1000000x6, .f32⟩ : BufTy).Contents (Elt F) → (⟨S1000000x6, .f32⟩ : BufTy).Contents (Elt F)),
    StableHlo.binary main_v65 main_v64 main_v66 (Host.divf : (⟨S1000000x6, .f32⟩ : BufTy).Contents (Elt F) → (⟨S1000000x6, .f32⟩ : BufTy).Contents (Elt F) → (⟨S1000000x6, .f32⟩ : BufTy).Contents (Elt F)),
    StableHlo.unary main_v64 main_v67 (Host.sin : (⟨S1000000x6, .f32⟩ : BufTy).Contents (Elt F) → (⟨S1000000x6, .f32⟩ : BufTy).Contents (Elt F)),
    StableHlo.binary main_v64 main_v64 main_v68 (mulf : (⟨S1000000x6, .f32⟩ : BufTy).Contents (Elt F) → (⟨S1000000x6, .f32⟩ : BufTy).Contents (Elt F) → (⟨S1000000x6, .f32⟩ : BufTy).Contents (Elt F)),
    StableHlo.binary main_v67 main_v68 main_v69 (Host.divf : (⟨S1000000x6, .f32⟩ : BufTy).Contents (Elt F) → (⟨S1000000x6, .f32⟩ : BufTy).Contents (Elt F) → (⟨S1000000x6, .f32⟩ : BufTy).Contents (Elt F)),
    StableHlo.unary main_v64 main_v70 (Host.cos : (⟨S1000000x6, .f32⟩ : BufTy).Contents (Elt F) → (⟨S1000000x6, .f32⟩ : BufTy).Contents (Elt F)),
    StableHlo.binary main_v70 main_v64 main_v71 (Host.divf : (⟨S1000000x6, .f32⟩ : BufTy).Contents (Elt F) → (⟨S1000000x6, .f32⟩ : BufTy).Contents (Elt F) → (⟨S1000000x6, .f32⟩ : BufTy).Contents (Elt F)),
    StableHlo.binary main_v69 main_v71 main_v72 (subf : (⟨S1000000x6, .f32⟩ : BufTy).Contents (Elt F) → (⟨S1000000x6, .f32⟩ : BufTy).Contents (Elt F) → (⟨S1000000x6, .f32⟩ : BufTy).Contents (Elt F)),
    StableHlo.nullary main_cst_10 (constant S_ .f32 0x40400000#32),
    StableHlo.unary main_cst_10 main_v73 (broadcastInDim S1000000x6 ![] bcast_S_S1000000x6 : (⟨S_, .f32⟩ : BufTy).Contents (Elt F) → (⟨S1000000x6, .f32⟩ : BufTy).Contents (Elt F)),
    StableHlo.binary main_v73 main_v64 main_v74 (Host.divf : (⟨S1000000x6, .f32⟩ : BufTy).Contents (Elt F) → (⟨S1000000x6, .f32⟩ : BufTy).Contents (Elt F) → (⟨S1000000x6, .f32⟩ : BufTy).Contents (Elt F)),
    StableHlo.binary main_v74 main_v72 main_v75 (mulf : (⟨S1000000x6, .f32⟩ : BufTy).Contents (Elt F) → (⟨S1000000x6, .f32⟩ : BufTy).Contents (Elt F) → (⟨S1000000x6, .f32⟩ : BufTy).Contents (Elt F)),
    StableHlo.binary main_v75 main_v66 main_v76 (subf : (⟨S1000000x6, .f32⟩ : BufTy).Contents (Elt F) → (⟨S1000000x6, .f32⟩ : BufTy).Contents (Elt F) → (⟨S1000000x6, .f32⟩ : BufTy).Contents (Elt F)),
    StableHlo.unary main_v57 main_v77 (broadcastInDim S1x6 ![1] bcast_S6_S1x6_1 : (⟨S6, .f32⟩ : BufTy).Contents (Elt F) → (⟨S1x6, .f32⟩ : BufTy).Contents (Elt F)),
    StableHlo.unary main_v77 main_v78 (broadcastInDim S1000000x6 ![0, 1] bcast_S1x6_S1000000x6_0_1 : (⟨S1x6, .f32⟩ : BufTy).Contents (Elt F) → (⟨S1000000x6, .f32⟩ : BufTy).Contents (Elt F)),
    StableHlo.binary main_v78 main_v76 main_v79 (mulf : (⟨S1000000x6, .f32⟩ : BufTy).Contents (Elt F) → (⟨S1000000x6, .f32⟩ : BufTy).Contents (Elt F) → (⟨S1000000x6, .f32⟩ : BufTy).Contents (Elt F)),
    StableHlo.unary main_cst_0 main_v80 ((extractStridedSlice S1x6 ![3, 0] · slices_S7x6_S1x6_3_0) : (⟨S7x6, .f32⟩ : BufTy).Contents (Elt F) → (⟨S1x6, .f32⟩ : BufTy).Contents (Elt F)),
    StableHlo.reshape main_v80 main_v81 rfl shapeCasts_S1x6_S6,
    StableHlo.unary main_v1 main_v82 (broadcastInDim S1000000x1 ![0] bcast_S1000000_S1000000x1_0 : (⟨S1000000, .f32⟩ : BufTy).Contents (Elt F) → (⟨S1000000x1, .f32⟩ : BufTy).Contents (Elt F)),
    StableHlo.unary main_cst main_v83 ((extractStridedSlice S1x6 ![3, 0] · slices_S7x6_S1x6_3_0) : (⟨S7x6, .f32⟩ : BufTy).Contents (Elt F) → (⟨S1x6, .f32⟩ : BufTy).Contents (Elt F)),
    StableHlo.reshape main_v83 main_v84 rfl shapeCasts_S1x6_S6,
    StableHlo.unary main_v84 main_v85 (broadcastInDim S1x6 ![1] bcast_S6_S1x6_1 : (⟨S6, .f32⟩ : BufTy).Contents (Elt F) → (⟨S1x6, .f32⟩ : BufTy).Contents (Elt F)),
    StableHlo.unary main_v82 main_v86 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v85 main_v87 (broadcastInDim S1000000x6 ![0, 1] bcast_S1x6_S1000000x6_0_1 : (⟨S1x6, .f32⟩ : BufTy).Contents (Elt F) → (⟨S1000000x6, .f32⟩ : BufTy).Contents (Elt F)),
    StableHlo.binary main_v86 main_v87 main_v88 (mulf : (⟨S1000000x6, .f32⟩ : BufTy).Contents (Elt F) → (⟨S1000000x6, .f32⟩ : BufTy).Contents (Elt F) → (⟨S1000000x6, .f32⟩ : BufTy).Contents (Elt F)),
    StableHlo.unary main_v88 main_v89 (Host.sin : (⟨S1000000x6, .f32⟩ : BufTy).Contents (Elt F) → (⟨S1000000x6, .f32⟩ : BufTy).Contents (Elt F)),
    StableHlo.binary main_v89 main_v88 main_v90 (Host.divf : (⟨S1000000x6, .f32⟩ : BufTy).Contents (Elt F) → (⟨S1000000x6, .f32⟩ : BufTy).Contents (Elt F) → (⟨S1000000x6, .f32⟩ : BufTy).Contents (Elt F)),
    StableHlo.unary main_v88 main_v91 (Host.sin : (⟨S1000000x6, .f32⟩ : BufTy).Contents (Elt F) → (⟨S1000000x6, .f32⟩ : BufTy).Contents (Elt F)),
    StableHlo.binary main_v88 main_v88 main_v92 (mulf : (⟨S1000000x6, .f32⟩ : BufTy).Contents (Elt F) → (⟨S1000000x6, .f32⟩ : BufTy).Contents (Elt F) → (⟨S1000000x6, .f32⟩ : BufTy).Contents (Elt F)),
    StableHlo.binary main_v91 main_v92 main_v93 (Host.divf : (⟨S1000000x6, .f32⟩ : BufTy).Contents (Elt F) → (⟨S1000000x6, .f32⟩ : BufTy).Contents (Elt F) → (⟨S1000000x6, .f32⟩ : BufTy).Contents (Elt F)),
    StableHlo.unary main_v88 main_v94 (Host.cos : (⟨S1000000x6, .f32⟩ : BufTy).Contents (Elt F) → (⟨S1000000x6, .f32⟩ : BufTy).Contents (Elt F)),
    StableHlo.binary main_v94 main_v88 main_v95 (Host.divf : (⟨S1000000x6, .f32⟩ : BufTy).Contents (Elt F) → (⟨S1000000x6, .f32⟩ : BufTy).Contents (Elt F) → (⟨S1000000x6, .f32⟩ : BufTy).Contents (Elt F)),
    StableHlo.binary main_v93 main_v95 main_v96 (subf : (⟨S1000000x6, .f32⟩ : BufTy).Contents (Elt F) → (⟨S1000000x6, .f32⟩ : BufTy).Contents (Elt F) → (⟨S1000000x6, .f32⟩ : BufTy).Contents (Elt F)),
    StableHlo.nullary main_cst_11 (constant S_ .f32 0x40400000#32),
    StableHlo.unary main_cst_11 main_v97 (broadcastInDim S1000000x6 ![] bcast_S_S1000000x6 : (⟨S_, .f32⟩ : BufTy).Contents (Elt F) → (⟨S1000000x6, .f32⟩ : BufTy).Contents (Elt F)),
    StableHlo.binary main_v97 main_v88 main_v98 (Host.divf : (⟨S1000000x6, .f32⟩ : BufTy).Contents (Elt F) → (⟨S1000000x6, .f32⟩ : BufTy).Contents (Elt F) → (⟨S1000000x6, .f32⟩ : BufTy).Contents (Elt F)),
    StableHlo.binary main_v98 main_v96 main_v99 (mulf : (⟨S1000000x6, .f32⟩ : BufTy).Contents (Elt F) → (⟨S1000000x6, .f32⟩ : BufTy).Contents (Elt F) → (⟨S1000000x6, .f32⟩ : BufTy).Contents (Elt F)),
    StableHlo.binary main_v99 main_v90 main_v100 (subf : (⟨S1000000x6, .f32⟩ : BufTy).Contents (Elt F) → (⟨S1000000x6, .f32⟩ : BufTy).Contents (Elt F) → (⟨S1000000x6, .f32⟩ : BufTy).Contents (Elt F)),
    StableHlo.nullary main_cst_12 (constant S_ .f32 0x40A00000#32),
    StableHlo.unary main_cst_12 main_v101 (broadcastInDim S1000000x6 ![] bcast_S_S1000000x6 : (⟨S_, .f32⟩ : BufTy).Contents (Elt F) → (⟨S1000000x6, .f32⟩ : BufTy).Contents (Elt F)),
    StableHlo.binary main_v101 main_v88 main_v102 (Host.divf : (⟨S1000000x6, .f32⟩ : BufTy).Contents (Elt F) → (⟨S1000000x6, .f32⟩ : BufTy).Contents (Elt F) → (⟨S1000000x6, .f32⟩ : BufTy).Contents (Elt F)),
    StableHlo.binary main_v102 main_v100 main_v103 (mulf : (⟨S1000000x6, .f32⟩ : BufTy).Contents (Elt F) → (⟨S1000000x6, .f32⟩ : BufTy).Contents (Elt F) → (⟨S1000000x6, .f32⟩ : BufTy).Contents (Elt F)),
    StableHlo.binary main_v103 main_v96 main_v104 (subf : (⟨S1000000x6, .f32⟩ : BufTy).Contents (Elt F) → (⟨S1000000x6, .f32⟩ : BufTy).Contents (Elt F) → (⟨S1000000x6, .f32⟩ : BufTy).Contents (Elt F)),
    StableHlo.unary main_v81 main_v105 (broadcastInDim S1x6 ![1] bcast_S6_S1x6_1 : (⟨S6, .f32⟩ : BufTy).Contents (Elt F) → (⟨S1x6, .f32⟩ : BufTy).Contents (Elt F)) ]

set_option maxRecDepth 8192 in
theorem w1_sub : (w1 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub ..⟩

/-- Printed window 2 of @main: its 60 operations, in order. -/
abbrev w2 : List (HloOp τ sig (Elt F)) :=
  [ StableHlo.unary main_v105 main_v106 (broadcastInDim S1000000x6 ![0, 1] bcast_S1x6_S1000000x6_0_1 : (⟨S1x6, .f32⟩ : BufTy).Contents (Elt F) → (⟨S1000000x6, .f32⟩ : BufTy).Contents (Elt F)),
    StableHlo.binary main_v106 main_v104 main_v107 (mulf : (⟨S1000000x6, .f32⟩ : BufTy).Contents (Elt F) → (⟨S1000000x6, .f32⟩ : BufTy).Contents (Elt F) → (⟨S1000000x6, .f32⟩ : BufTy).Contents (Elt F)),
    StableHlo.unary main_cst_0 main_v108 ((extractStridedSlice S1x6 ![4, 0] · slices_S7x6_S1x6_4_0) : (⟨S7x6, .f32⟩ : BufTy).Contents (Elt F) → (⟨S1x6, .f32⟩ : BufTy).Contents (Elt F)),
    StableHlo.reshape main_v108 main_v109 rfl shapeCasts_S1x6_S6,
    StableHlo.unary main_v1 main_v110 (broadcastInDim S1000000x1 ![0] bcast_S1000000_S1000000x1_0 : (⟨S1000000, .f32⟩ : BufTy).Contents (Elt F) → (⟨S1000000x1, .f32⟩ : BufTy).Contents (Elt F)),
    StableHlo.unary main_cst main_v111 ((extractStridedSlice S1x6 ![4, 0] · slices_S7x6_S1x6_4_0) : (⟨S7x6, .f32⟩ : BufTy).Contents (Elt F) → (⟨S1x6, .f32⟩ : BufTy).Contents (Elt F)),
    StableHlo.reshape main_v111 main_v112 rfl shapeCasts_S1x6_S6,
    StableHlo.unary main_v112 main_v113 (broadcastInDim S1x6 ![1] bcast_S6_S1x6_1 : (⟨S6, .f32⟩ : BufTy).Contents (Elt F) → (⟨S1x6, .f32⟩ : BufTy).Contents (Elt F)),
    StableHlo.unary main_v110 main_v114 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v113 main_v115 (broadcastInDim S1000000x6 ![0, 1] bcast_S1x6_S1000000x6_0_1 : (⟨S1x6, .f32⟩ : BufTy).Contents (Elt F) → (⟨S1000000x6, .f32⟩ : BufTy).Contents (Elt F)),
    StableHlo.binary main_v114 main_v115 main_v116 (mulf : (⟨S1000000x6, .f32⟩ : BufTy).Contents (Elt F) → (⟨S1000000x6, .f32⟩ : BufTy).Contents (Elt F) → (⟨S1000000x6, .f32⟩ : BufTy).Contents (Elt F)),
    StableHlo.unary main_v116 main_v117 (Host.sin : (⟨S1000000x6, .f32⟩ : BufTy).Contents (Elt F) → (⟨S1000000x6, .f32⟩ : BufTy).Contents (Elt F)),
    StableHlo.binary main_v117 main_v116 main_v118 (Host.divf : (⟨S1000000x6, .f32⟩ : BufTy).Contents (Elt F) → (⟨S1000000x6, .f32⟩ : BufTy).Contents (Elt F) → (⟨S1000000x6, .f32⟩ : BufTy).Contents (Elt F)),
    StableHlo.unary main_v116 main_v119 (Host.sin : (⟨S1000000x6, .f32⟩ : BufTy).Contents (Elt F) → (⟨S1000000x6, .f32⟩ : BufTy).Contents (Elt F)),
    StableHlo.binary main_v116 main_v116 main_v120 (mulf : (⟨S1000000x6, .f32⟩ : BufTy).Contents (Elt F) → (⟨S1000000x6, .f32⟩ : BufTy).Contents (Elt F) → (⟨S1000000x6, .f32⟩ : BufTy).Contents (Elt F)),
    StableHlo.binary main_v119 main_v120 main_v121 (Host.divf : (⟨S1000000x6, .f32⟩ : BufTy).Contents (Elt F) → (⟨S1000000x6, .f32⟩ : BufTy).Contents (Elt F) → (⟨S1000000x6, .f32⟩ : BufTy).Contents (Elt F)),
    StableHlo.unary main_v116 main_v122 (Host.cos : (⟨S1000000x6, .f32⟩ : BufTy).Contents (Elt F) → (⟨S1000000x6, .f32⟩ : BufTy).Contents (Elt F)),
    StableHlo.binary main_v122 main_v116 main_v123 (Host.divf : (⟨S1000000x6, .f32⟩ : BufTy).Contents (Elt F) → (⟨S1000000x6, .f32⟩ : BufTy).Contents (Elt F) → (⟨S1000000x6, .f32⟩ : BufTy).Contents (Elt F)),
    StableHlo.binary main_v121 main_v123 main_v124 (subf : (⟨S1000000x6, .f32⟩ : BufTy).Contents (Elt F) → (⟨S1000000x6, .f32⟩ : BufTy).Contents (Elt F) → (⟨S1000000x6, .f32⟩ : BufTy).Contents (Elt F)),
    StableHlo.nullary main_cst_13 (constant S_ .f32 0x40400000#32),
    StableHlo.unary main_cst_13 main_v125 (broadcastInDim S1000000x6 ![] bcast_S_S1000000x6 : (⟨S_, .f32⟩ : BufTy).Contents (Elt F) → (⟨S1000000x6, .f32⟩ : BufTy).Contents (Elt F)),
    StableHlo.binary main_v125 main_v116 main_v126 (Host.divf : (⟨S1000000x6, .f32⟩ : BufTy).Contents (Elt F) → (⟨S1000000x6, .f32⟩ : BufTy).Contents (Elt F) → (⟨S1000000x6, .f32⟩ : BufTy).Contents (Elt F)),
    StableHlo.binary main_v126 main_v124 main_v127 (mulf : (⟨S1000000x6, .f32⟩ : BufTy).Contents (Elt F) → (⟨S1000000x6, .f32⟩ : BufTy).Contents (Elt F) → (⟨S1000000x6, .f32⟩ : BufTy).Contents (Elt F)),
    StableHlo.binary main_v127 main_v118 main_v128 (subf : (⟨S1000000x6, .f32⟩ : BufTy).Contents (Elt F) → (⟨S1000000x6, .f32⟩ : BufTy).Contents (Elt F) → (⟨S1000000x6, .f32⟩ : BufTy).Contents (Elt F)),
    StableHlo.nullary main_cst_14 (constant S_ .f32 0x40A00000#32),
    StableHlo.unary main_cst_14 main_v129 (broadcastInDim S1000000x6 ![] bcast_S_S1000000x6 : (⟨S_, .f32⟩ : BufTy).Contents (Elt F) → (⟨S1000000x6, .f32⟩ : BufTy).Contents (Elt F)),
    StableHlo.binary main_v129 main_v116 main_v130 (Host.divf : (⟨S1000000x6, .f32⟩ : BufTy).Contents (Elt F) → (⟨S1000000x6, .f32⟩ : BufTy).Contents (Elt F) → (⟨S1000000x6, .f32⟩ : BufTy).Contents (Elt F)),
    StableHlo.binary main_v130 main_v128 main_v131 (mulf : (⟨S1000000x6, .f32⟩ : BufTy).Contents (Elt F) → (⟨S1000000x6, .f32⟩ : BufTy).Contents (Elt F) → (⟨S1000000x6, .f32⟩ : BufTy).Contents (Elt F)),
    StableHlo.binary main_v131 main_v124 main_v132 (subf : (⟨S1000000x6, .f32⟩ : BufTy).Contents (Elt F) → (⟨S1000000x6, .f32⟩ : BufTy).Contents (Elt F) → (⟨S1000000x6, .f32⟩ : BufTy).Contents (Elt F)),
    StableHlo.nullary main_cst_15 (constant S_ .f32 0x40E00000#32),
    StableHlo.unary main_cst_15 main_v133 (broadcastInDim S1000000x6 ![] bcast_S_S1000000x6 : (⟨S_, .f32⟩ : BufTy).Contents (Elt F) → (⟨S1000000x6, .f32⟩ : BufTy).Contents (Elt F)),
    StableHlo.binary main_v133 main_v116 main_v134 (Host.divf : (⟨S1000000x6, .f32⟩ : BufTy).Contents (Elt F) → (⟨S1000000x6, .f32⟩ : BufTy).Contents (Elt F) → (⟨S1000000x6, .f32⟩ : BufTy).Contents (Elt F)),
    StableHlo.binary main_v134 main_v132 main_v135 (mulf : (⟨S1000000x6, .f32⟩ : BufTy).Contents (Elt F) → (⟨S1000000x6, .f32⟩ : BufTy).Contents (Elt F) → (⟨S1000000x6, .f32⟩ : BufTy).Contents (Elt F)),
    StableHlo.binary main_v135 main_v128 main_v136 (subf : (⟨S1000000x6, .f32⟩ : BufTy).Contents (Elt F) → (⟨S1000000x6, .f32⟩ : BufTy).Contents (Elt F) → (⟨S1000000x6, .f32⟩ : BufTy).Contents (Elt F)),
    StableHlo.unary main_v109 main_v137 (broadcastInDim S1x6 ![1] bcast_S6_S1x6_1 : (⟨S6, .f32⟩ : BufTy).Contents (Elt F) → (⟨S1x6, .f32⟩ : BufTy).Contents (Elt F)),
    StableHlo.unary main_v137 main_v138 (broadcastInDim S1000000x6 ![0, 1] bcast_S1x6_S1000000x6_0_1 : (⟨S1x6, .f32⟩ : BufTy).Contents (Elt F) → (⟨S1000000x6, .f32⟩ : BufTy).Contents (Elt F)),
    StableHlo.binary main_v138 main_v136 main_v139 (mulf : (⟨S1000000x6, .f32⟩ : BufTy).Contents (Elt F) → (⟨S1000000x6, .f32⟩ : BufTy).Contents (Elt F) → (⟨S1000000x6, .f32⟩ : BufTy).Contents (Elt F)),
    StableHlo.unary main_cst_0 main_v140 ((extractStridedSlice S1x6 ![5, 0] · slices_S7x6_S1x6_5_0) : (⟨S7x6, .f32⟩ : BufTy).Contents (Elt F) → (⟨S1x6, .f32⟩ : BufTy).Contents (Elt F)),
    StableHlo.reshape main_v140 main_v141 rfl shapeCasts_S1x6_S6,
    StableHlo.unary main_v1 main_v142 (broadcastInDim S1000000x1 ![0] bcast_S1000000_S1000000x1_0 : (⟨S1000000, .f32⟩ : BufTy).Contents (Elt F) → (⟨S1000000x1, .f32⟩ : BufTy).Contents (Elt F)),
    StableHlo.unary main_cst main_v143 ((extractStridedSlice S1x6 ![5, 0] · slices_S7x6_S1x6_5_0) : (⟨S7x6, .f32⟩ : BufTy).Contents (Elt F) → (⟨S1x6, .f32⟩ : BufTy).Contents (Elt F)),
    StableHlo.reshape main_v143 main_v144 rfl shapeCasts_S1x6_S6,
    StableHlo.unary main_v144 main_v145 (broadcastInDim S1x6 ![1] bcast_S6_S1x6_1 : (⟨S6, .f32⟩ : BufTy).Contents (Elt F) → (⟨S1x6, .f32⟩ : BufTy).Contents (Elt F)),
    StableHlo.unary main_v142 main_v146 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v145 main_v147 (broadcastInDim S1000000x6 ![0, 1] bcast_S1x6_S1000000x6_0_1 : (⟨S1x6, .f32⟩ : BufTy).Contents (Elt F) → (⟨S1000000x6, .f32⟩ : BufTy).Contents (Elt F)),
    StableHlo.binary main_v146 main_v147 main_v148 (mulf : (⟨S1000000x6, .f32⟩ : BufTy).Contents (Elt F) → (⟨S1000000x6, .f32⟩ : BufTy).Contents (Elt F) → (⟨S1000000x6, .f32⟩ : BufTy).Contents (Elt F)),
    StableHlo.unary main_v148 main_v149 (Host.sin : (⟨S1000000x6, .f32⟩ : BufTy).Contents (Elt F) → (⟨S1000000x6, .f32⟩ : BufTy).Contents (Elt F)),
    StableHlo.binary main_v149 main_v148 main_v150 (Host.divf : (⟨S1000000x6, .f32⟩ : BufTy).Contents (Elt F) → (⟨S1000000x6, .f32⟩ : BufTy).Contents (Elt F) → (⟨S1000000x6, .f32⟩ : BufTy).Contents (Elt F)),
    StableHlo.unary main_v148 main_v151 (Host.sin : (⟨S1000000x6, .f32⟩ : BufTy).Contents (Elt F) → (⟨S1000000x6, .f32⟩ : BufTy).Contents (Elt F)),
    StableHlo.binary main_v148 main_v148 main_v152 (mulf : (⟨S1000000x6, .f32⟩ : BufTy).Contents (Elt F) → (⟨S1000000x6, .f32⟩ : BufTy).Contents (Elt F) → (⟨S1000000x6, .f32⟩ : BufTy).Contents (Elt F)),
    StableHlo.binary main_v151 main_v152 main_v153 (Host.divf : (⟨S1000000x6, .f32⟩ : BufTy).Contents (Elt F) → (⟨S1000000x6, .f32⟩ : BufTy).Contents (Elt F) → (⟨S1000000x6, .f32⟩ : BufTy).Contents (Elt F)),
    StableHlo.unary main_v148 main_v154 (Host.cos : (⟨S1000000x6, .f32⟩ : BufTy).Contents (Elt F) → (⟨S1000000x6, .f32⟩ : BufTy).Contents (Elt F)),
    StableHlo.binary main_v154 main_v148 main_v155 (Host.divf : (⟨S1000000x6, .f32⟩ : BufTy).Contents (Elt F) → (⟨S1000000x6, .f32⟩ : BufTy).Contents (Elt F) → (⟨S1000000x6, .f32⟩ : BufTy).Contents (Elt F)),
    StableHlo.binary main_v153 main_v155 main_v156 (subf : (⟨S1000000x6, .f32⟩ : BufTy).Contents (Elt F) → (⟨S1000000x6, .f32⟩ : BufTy).Contents (Elt F) → (⟨S1000000x6, .f32⟩ : BufTy).Contents (Elt F)),
    StableHlo.nullary main_cst_16 (constant S_ .f32 0x40400000#32),
    StableHlo.unary main_cst_16 main_v157 (broadcastInDim S1000000x6 ![] bcast_S_S1000000x6 : (⟨S_, .f32⟩ : BufTy).Contents (Elt F) → (⟨S1000000x6, .f32⟩ : BufTy).Contents (Elt F)),
    StableHlo.binary main_v157 main_v148 main_v158 (Host.divf : (⟨S1000000x6, .f32⟩ : BufTy).Contents (Elt F) → (⟨S1000000x6, .f32⟩ : BufTy).Contents (Elt F) → (⟨S1000000x6, .f32⟩ : BufTy).Contents (Elt F)),
    StableHlo.binary main_v158 main_v156 main_v159 (mulf : (⟨S1000000x6, .f32⟩ : BufTy).Contents (Elt F) → (⟨S1000000x6, .f32⟩ : BufTy).Contents (Elt F) → (⟨S1000000x6, .f32⟩ : BufTy).Contents (Elt F)),
    StableHlo.binary main_v159 main_v150 main_v160 (subf : (⟨S1000000x6, .f32⟩ : BufTy).Contents (Elt F) → (⟨S1000000x6, .f32⟩ : BufTy).Contents (Elt F) → (⟨S1000000x6, .f32⟩ : BufTy).Contents (Elt F)),
    StableHlo.nullary main_cst_17 (constant S_ .f32 0x40A00000#32) ]

set_option maxRecDepth 8192 in
theorem w2_sub : (w2 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub ..⟩

/-- Printed window 3 of @main: its 60 operations, in order. -/
abbrev w3 : List (HloOp τ sig (Elt F)) :=
  [ StableHlo.unary main_cst_17 main_v161 (broadcastInDim S1000000x6 ![] bcast_S_S1000000x6 : (⟨S_, .f32⟩ : BufTy).Contents (Elt F) → (⟨S1000000x6, .f32⟩ : BufTy).Contents (Elt F)),
    StableHlo.binary main_v161 main_v148 main_v162 (Host.divf : (⟨S1000000x6, .f32⟩ : BufTy).Contents (Elt F) → (⟨S1000000x6, .f32⟩ : BufTy).Contents (Elt F) → (⟨S1000000x6, .f32⟩ : BufTy).Contents (Elt F)),
    StableHlo.binary main_v162 main_v160 main_v163 (mulf : (⟨S1000000x6, .f32⟩ : BufTy).Contents (Elt F) → (⟨S1000000x6, .f32⟩ : BufTy).Contents (Elt F) → (⟨S1000000x6, .f32⟩ : BufTy).Contents (Elt F)),
    StableHlo.binary main_v163 main_v156 main_v164 (subf : (⟨S1000000x6, .f32⟩ : BufTy).Contents (Elt F) → (⟨S1000000x6, .f32⟩ : BufTy).Contents (Elt F) → (⟨S1000000x6, .f32⟩ : BufTy).Contents (Elt F)),
    StableHlo.nullary main_cst_18 (constant S_ .f32 0x40E00000#32),
    StableHlo.unary main_cst_18 main_v165 (broadcastInDim S1000000x6 ![] bcast_S_S1000000x6 : (⟨S_, .f32⟩ : BufTy).Contents (Elt F) → (⟨S1000000x6, .f32⟩ : BufTy).Contents (Elt F)),
    StableHlo.binary main_v165 main_v148 main_v166 (Host.divf : (⟨S1000000x6, .f32⟩ : BufTy).Contents (Elt F) → (⟨S1000000x6, .f32⟩ : BufTy).Contents (Elt F) → (⟨S1000000x6, .f32⟩ : BufTy).Contents (Elt F)),
    StableHlo.binary main_v166 main_v164 main_v167 (mulf : (⟨S1000000x6, .f32⟩ : BufTy).Contents (Elt F) → (⟨S1000000x6, .f32⟩ : BufTy).Contents (Elt F) → (⟨S1000000x6, .f32⟩ : BufTy).Contents (Elt F)),
    StableHlo.binary main_v167 main_v160 main_v168 (subf : (⟨S1000000x6, .f32⟩ : BufTy).Contents (Elt F) → (⟨S1000000x6, .f32⟩ : BufTy).Contents (Elt F) → (⟨S1000000x6, .f32⟩ : BufTy).Contents (Elt F)),
    StableHlo.nullary main_cst_19 (constant S_ .f32 0x41100000#32),
    StableHlo.unary main_cst_19 main_v169 (broadcastInDim S1000000x6 ![] bcast_S_S1000000x6 : (⟨S_, .f32⟩ : BufTy).Contents (Elt F) → (⟨S1000000x6, .f32⟩ : BufTy).Contents (Elt F)),
    StableHlo.binary main_v169 main_v148 main_v170 (Host.divf : (⟨S1000000x6, .f32⟩ : BufTy).Contents (Elt F) → (⟨S1000000x6, .f32⟩ : BufTy).Contents (Elt F) → (⟨S1000000x6, .f32⟩ : BufTy).Contents (Elt F)),
    StableHlo.binary main_v170 main_v168 main_v171 (mulf : (⟨S1000000x6, .f32⟩ : BufTy).Contents (Elt F) → (⟨S1000000x6, .f32⟩ : BufTy).Contents (Elt F) → (⟨S1000000x6, .f32⟩ : BufTy).Contents (Elt F)),
    StableHlo.binary main_v171 main_v164 main_v172 (subf : (⟨S1000000x6, .f32⟩ : BufTy).Contents (Elt F) → (⟨S1000000x6, .f32⟩ : BufTy).Contents (Elt F) → (⟨S1000000x6, .f32⟩ : BufTy).Contents (Elt F)),
    StableHlo.unary main_v141 main_v173 (broadcastInDim S1x6 ![1] bcast_S6_S1x6_1 : (⟨S6, .f32⟩ : BufTy).Contents (Elt F) → (⟨S1x6, .f32⟩ : BufTy).Contents (Elt F)),
    StableHlo.unary main_v173 main_v174 (broadcastInDim S1000000x6 ![0, 1] bcast_S1x6_S1000000x6_0_1 : (⟨S1x6, .f32⟩ : BufTy).Contents (Elt F) → (⟨S1000000x6, .f32⟩ : BufTy).Contents (Elt F)),
    StableHlo.binary main_v174 main_v172 main_v175 (mulf : (⟨S1000000x6, .f32⟩ : BufTy).Contents (Elt F) → (⟨S1000000x6, .f32⟩ : BufTy).Contents (Elt F) → (⟨S1000000x6, .f32⟩ : BufTy).Contents (Elt F)),
    StableHlo.unary main_cst_0 main_v176 ((extractStridedSlice S1x6 ![6, 0] · slices_S7x6_S1x6_6_0) : (⟨S7x6, .f32⟩ : BufTy).Contents (Elt F) → (⟨S1x6, .f32⟩ : BufTy).Contents (Elt F)),
    StableHlo.reshape main_v176 main_v177 rfl shapeCasts_S1x6_S6,
    StableHlo.unary main_v1 main_v178 (broadcastInDim S1000000x1 ![0] bcast_S1000000_S1000000x1_0 : (⟨S1000000, .f32⟩ : BufTy).Contents (Elt F) → (⟨S1000000x1, .f32⟩ : BufTy).Contents (Elt F)),
    StableHlo.unary main_cst main_v179 ((extractStridedSlice S1x6 ![6, 0] · slices_S7x6_S1x6_6_0) : (⟨S7x6, .f32⟩ : BufTy).Contents (Elt F) → (⟨S1x6, .f32⟩ : BufTy).Contents (Elt F)),
    StableHlo.reshape main_v179 main_v180 rfl shapeCasts_S1x6_S6,
    StableHlo.unary main_v180 main_v181 (broadcastInDim S1x6 ![1] bcast_S6_S1x6_1 : (⟨S6, .f32⟩ : BufTy).Contents (Elt F) → (⟨S1x6, .f32⟩ : BufTy).Contents (Elt F)),
    StableHlo.unary main_v178 main_v182 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v181 main_v183 (broadcastInDim S1000000x6 ![0, 1] bcast_S1x6_S1000000x6_0_1 : (⟨S1x6, .f32⟩ : BufTy).Contents (Elt F) → (⟨S1000000x6, .f32⟩ : BufTy).Contents (Elt F)),
    StableHlo.binary main_v182 main_v183 main_v184 (mulf : (⟨S1000000x6, .f32⟩ : BufTy).Contents (Elt F) → (⟨S1000000x6, .f32⟩ : BufTy).Contents (Elt F) → (⟨S1000000x6, .f32⟩ : BufTy).Contents (Elt F)),
    StableHlo.unary main_v184 main_v185 (Host.sin : (⟨S1000000x6, .f32⟩ : BufTy).Contents (Elt F) → (⟨S1000000x6, .f32⟩ : BufTy).Contents (Elt F)),
    StableHlo.binary main_v185 main_v184 main_v186 (Host.divf : (⟨S1000000x6, .f32⟩ : BufTy).Contents (Elt F) → (⟨S1000000x6, .f32⟩ : BufTy).Contents (Elt F) → (⟨S1000000x6, .f32⟩ : BufTy).Contents (Elt F)),
    StableHlo.unary main_v184 main_v187 (Host.sin : (⟨S1000000x6, .f32⟩ : BufTy).Contents (Elt F) → (⟨S1000000x6, .f32⟩ : BufTy).Contents (Elt F)),
    StableHlo.binary main_v184 main_v184 main_v188 (mulf : (⟨S1000000x6, .f32⟩ : BufTy).Contents (Elt F) → (⟨S1000000x6, .f32⟩ : BufTy).Contents (Elt F) → (⟨S1000000x6, .f32⟩ : BufTy).Contents (Elt F)),
    StableHlo.binary main_v187 main_v188 main_v189 (Host.divf : (⟨S1000000x6, .f32⟩ : BufTy).Contents (Elt F) → (⟨S1000000x6, .f32⟩ : BufTy).Contents (Elt F) → (⟨S1000000x6, .f32⟩ : BufTy).Contents (Elt F)),
    StableHlo.unary main_v184 main_v190 (Host.cos : (⟨S1000000x6, .f32⟩ : BufTy).Contents (Elt F) → (⟨S1000000x6, .f32⟩ : BufTy).Contents (Elt F)),
    StableHlo.binary main_v190 main_v184 main_v191 (Host.divf : (⟨S1000000x6, .f32⟩ : BufTy).Contents (Elt F) → (⟨S1000000x6, .f32⟩ : BufTy).Contents (Elt F) → (⟨S1000000x6, .f32⟩ : BufTy).Contents (Elt F)),
    StableHlo.binary main_v189 main_v191 main_v192 (subf : (⟨S1000000x6, .f32⟩ : BufTy).Contents (Elt F) → (⟨S1000000x6, .f32⟩ : BufTy).Contents (Elt F) → (⟨S1000000x6, .f32⟩ : BufTy).Contents (Elt F)),
    StableHlo.nullary main_cst_20 (constant S_ .f32 0x40400000#32),
    StableHlo.unary main_cst_20 main_v193 (broadcastInDim S1000000x6 ![] bcast_S_S1000000x6 : (⟨S_, .f32⟩ : BufTy).Contents (Elt F) → (⟨S1000000x6, .f32⟩ : BufTy).Contents (Elt F)),
    StableHlo.binary main_v193 main_v184 main_v194 (Host.divf : (⟨S1000000x6, .f32⟩ : BufTy).Contents (Elt F) → (⟨S1000000x6, .f32⟩ : BufTy).Contents (Elt F) → (⟨S1000000x6, .f32⟩ : BufTy).Contents (Elt F)),
    StableHlo.binary main_v194 main_v192 main_v195 (mulf : (⟨S1000000x6, .f32⟩ : BufTy).Contents (Elt F) → (⟨S1000000x6, .f32⟩ : BufTy).Contents (Elt F) → (⟨S1000000x6, .f32⟩ : BufTy).Contents (Elt F)),
    StableHlo.binary main_v195 main_v186 main_v196 (subf : (⟨S1000000x6, .f32⟩ : BufTy).Contents (Elt F) → (⟨S1000000x6, .f32⟩ : BufTy).Contents (Elt F) → (⟨S1000000x6, .f32⟩ : BufTy).Contents (Elt F)),
    StableHlo.nullary main_cst_21 (constant S_ .f32 0x40A00000#32),
    StableHlo.unary main_cst_21 main_v197 (broadcastInDim S1000000x6 ![] bcast_S_S1000000x6 : (⟨S_, .f32⟩ : BufTy).Contents (Elt F) → (⟨S1000000x6, .f32⟩ : BufTy).Contents (Elt F)),
    StableHlo.binary main_v197 main_v184 main_v198 (Host.divf : (⟨S1000000x6, .f32⟩ : BufTy).Contents (Elt F) → (⟨S1000000x6, .f32⟩ : BufTy).Contents (Elt F) → (⟨S1000000x6, .f32⟩ : BufTy).Contents (Elt F)),
    StableHlo.binary main_v198 main_v196 main_v199 (mulf : (⟨S1000000x6, .f32⟩ : BufTy).Contents (Elt F) → (⟨S1000000x6, .f32⟩ : BufTy).Contents (Elt F) → (⟨S1000000x6, .f32⟩ : BufTy).Contents (Elt F)),
    StableHlo.binary main_v199 main_v192 main_v200 (subf : (⟨S1000000x6, .f32⟩ : BufTy).Contents (Elt F) → (⟨S1000000x6, .f32⟩ : BufTy).Contents (Elt F) → (⟨S1000000x6, .f32⟩ : BufTy).Contents (Elt F)),
    StableHlo.nullary main_cst_22 (constant S_ .f32 0x40E00000#32),
    StableHlo.unary main_cst_22 main_v201 (broadcastInDim S1000000x6 ![] bcast_S_S1000000x6 : (⟨S_, .f32⟩ : BufTy).Contents (Elt F) → (⟨S1000000x6, .f32⟩ : BufTy).Contents (Elt F)),
    StableHlo.binary main_v201 main_v184 main_v202 (Host.divf : (⟨S1000000x6, .f32⟩ : BufTy).Contents (Elt F) → (⟨S1000000x6, .f32⟩ : BufTy).Contents (Elt F) → (⟨S1000000x6, .f32⟩ : BufTy).Contents (Elt F)),
    StableHlo.binary main_v202 main_v200 main_v203 (mulf : (⟨S1000000x6, .f32⟩ : BufTy).Contents (Elt F) → (⟨S1000000x6, .f32⟩ : BufTy).Contents (Elt F) → (⟨S1000000x6, .f32⟩ : BufTy).Contents (Elt F)),
    StableHlo.binary main_v203 main_v196 main_v204 (subf : (⟨S1000000x6, .f32⟩ : BufTy).Contents (Elt F) → (⟨S1000000x6, .f32⟩ : BufTy).Contents (Elt F) → (⟨S1000000x6, .f32⟩ : BufTy).Contents (Elt F)),
    StableHlo.nullary main_cst_23 (constant S_ .f32 0x41100000#32),
    StableHlo.unary main_cst_23 main_v205 (broadcastInDim S1000000x6 ![] bcast_S_S1000000x6 : (⟨S_, .f32⟩ : BufTy).Contents (Elt F) → (⟨S1000000x6, .f32⟩ : BufTy).Contents (Elt F)),
    StableHlo.binary main_v205 main_v184 main_v206 (Host.divf : (⟨S1000000x6, .f32⟩ : BufTy).Contents (Elt F) → (⟨S1000000x6, .f32⟩ : BufTy).Contents (Elt F) → (⟨S1000000x6, .f32⟩ : BufTy).Contents (Elt F)),
    StableHlo.binary main_v206 main_v204 main_v207 (mulf : (⟨S1000000x6, .f32⟩ : BufTy).Contents (Elt F) → (⟨S1000000x6, .f32⟩ : BufTy).Contents (Elt F) → (⟨S1000000x6, .f32⟩ : BufTy).Contents (Elt F)),
    StableHlo.binary main_v207 main_v200 main_v208 (subf : (⟨S1000000x6, .f32⟩ : BufTy).Contents (Elt F) → (⟨S1000000x6, .f32⟩ : BufTy).Contents (Elt F) → (⟨S1000000x6, .f32⟩ : BufTy).Contents (Elt F)),
    StableHlo.nullary main_cst_24 (constant S_ .f32 0x41300000#32),
    StableHlo.unary main_cst_24 main_v209 (broadcastInDim S1000000x6 ![] bcast_S_S1000000x6 : (⟨S_, .f32⟩ : BufTy).Contents (Elt F) → (⟨S1000000x6, .f32⟩ : BufTy).Contents (Elt F)),
    StableHlo.binary main_v209 main_v184 main_v210 (Host.divf : (⟨S1000000x6, .f32⟩ : BufTy).Contents (Elt F) → (⟨S1000000x6, .f32⟩ : BufTy).Contents (Elt F) → (⟨S1000000x6, .f32⟩ : BufTy).Contents (Elt F)),
    StableHlo.binary main_v210 main_v208 main_v211 (mulf : (⟨S1000000x6, .f32⟩ : BufTy).Contents (Elt F) → (⟨S1000000x6, .f32⟩ : BufTy).Contents (Elt F) → (⟨S1000000x6, .f32⟩ : BufTy).Contents (Elt F)),
    StableHlo.binary main_v211 main_v204 main_v212 (subf : (⟨S1000000x6, .f32⟩ : BufTy).Contents (Elt F) → (⟨S1000000x6, .f32⟩ : BufTy).Contents (Elt F) → (⟨S1000000x6, .f32⟩ : BufTy).Contents (Elt F)),
    StableHlo.unary main_v177 main_v213 (broadcastInDim S1x6 ![1] bcast_S6_S1x6_1 : (⟨S6, .f32⟩ : BufTy).Contents (Elt F) → (⟨S1x6, .f32⟩ : BufTy).Contents (Elt F)) ]

set_option maxRecDepth 8192 in
theorem w3_sub : (w3 : List (HloOp τ sig (Elt F))).Forall fun op => op.bufs ⊆ StableHlo.tcRefs τ sig :=
  ⟨StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub ..⟩

/-- Printed window 4 of @main: its 60 operations, in order. -/
abbrev w4 : List (HloOp τ sig (Elt F)) :=
  [ StableHlo.unary main_v213 main_v214 (broadcastInDim S1000000x6 ![0, 1] bcast_S1x6_S1000000x6_0_1 : (⟨S1x6, .f32⟩ : BufTy).Contents (Elt F) → (⟨S1000000x6, .f32⟩ : BufTy).Contents (Elt F)),
    StableHlo.binary main_v214 main_v212 main_v215 (mulf : (⟨S1000000x6, .f32⟩ : BufTy).Contents (Elt F) → (⟨S1000000x6, .f32⟩ : BufTy).Contents (Elt F) → (⟨S1000000x6, .f32⟩ : BufTy).Contents (Elt F)),
    StableHlo.nary ![main_v35, main_v55, main_v79, main_v107, main_v139, main_v175, main_v215] main_v216 (fun u => concatenate S1000000x42 1 [⟨S1000000x6, u 0⟩, ⟨S1000000x6, u 1⟩, ⟨S1000000x6, u 2⟩, ⟨S1000000x6, u 3⟩, ⟨S1000000x6, u 4⟩, ⟨S1000000x6, u 5⟩, ⟨S1000000x6, u 6⟩] concatenates_S1000000x6_S1000000x6_S1000000x6_S1000000x6_S1000000x6_S1000000x6_S1000000x6_S1000000x42_d1),
    StableHlo.unary main_v21 main_v217 (broadcastInDim S1000000x1 ![0] bcast_S1000000_S1000000x1_0 : (⟨S1000000, .f32⟩ : BufTy).Contents (Elt F) → (⟨S1000000x1, .f32⟩ : BufTy).Contents (Elt F)),
    StableHlo.unary main_v217 main_v218 (broadcastInDim S1000000x42 ![0, 1] bcast_S1000000x1_S1000000x42_0_1 : (⟨S1000000x1, .f32⟩ : BufTy).Contents (Elt F) → (⟨S1000000x42, .f32⟩ : BufTy).Contents (Elt F)),
    StableHlo.binary main_v216 main_v218 main_v219 (mulf : (⟨S1000000x42, .f32⟩ : BufTy).Contents (Elt F) → (⟨S1000000x42, .f32⟩ : BufTy).Contents (Elt F) → (⟨S1000000x42, .f32⟩ : BufTy).Contents (Elt F)),
    StableHlo.nullary main_c (constantI S_ 32 0#32),
    StableHlo.unary main_c main_v220 (broadcastInDim S3000000 ![] bcast_S_S3000000 : (⟨S_, .i32⟩ : BufTy).Contents (Elt F) → (⟨S3000000, .i32⟩ : BufTy).Contents (Elt F)),
    StableHlo.binary main_arg4 main_v220 main_v221 (cmpi .slt : (⟨S3000000, .i32⟩ : BufTy).Contents (Elt F) → (⟨S3000000, .i32⟩ : BufTy).Contents (Elt F) → (⟨S3000000, .i1⟩ : BufTy).Contents (Elt F)),
    StableHlo.nullary main_c_25 (constantI S_ 32 1000000#32),
    StableHlo.unary main_c_25 main_v222 (broadcastInDim S3000000 ![] bcast_S_S3000000 : (⟨S_, .i32⟩ : BufTy).Contents (Elt F) → (⟨S3000000, .i32⟩ : BufTy).Contents (Elt F)),
    StableHlo.binary main_arg4 main_v222 main_v223 (addi : (⟨S3000000, .i32⟩ : BufTy).Contents (Elt F) → (⟨S3000000, .i32⟩ : BufTy).Contents (Elt F) → (⟨S3000000, .i32⟩ : BufTy).Contents (Elt F)),
    StableHlo.ternary main_v221 main_v223 main_arg4 main_v224 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    StableHlo.unary main_v224 main_v225 (broadcastInDim S3000000x1 ![0] bcast_S3000000_S3000000x1_0 : (⟨S3000000, .i32⟩ : BufTy).Contents (Elt F) → (⟨S3000000x1, .i32⟩ : BufTy).Contents (Elt F)),
    StableHlo.binary main_v219 main_v225 main_v226 ((fun x i => Host.gather gather_S1000000x42_S3000000x1_S3000000x42_1_0_n_n_0_1_142 x i) : (⟨S1000000x42, .f32⟩ : BufTy).Contents (Elt F) → (⟨S3000000x1, .i32⟩ : BufTy).Contents (Elt F) → (⟨S3000000x42, .f32⟩ : BufTy).Contents (Elt F)),
    StableHlo.unary main_arg1 main_v227 (Host.cos : (⟨S3000000, .f32⟩ : BufTy).Contents (Elt F) → (⟨S3000000, .f32⟩ : BufTy).Contents (Elt F)),
    StableHlo.nullary main_cst_26 (constant S_ .f32 0x3F800000#32),
    StableHlo.unary main_cst_26 main_v228 (broadcastInDim S3000000 ![] bcast_S_S3000000 : (⟨S_, .f32⟩ : BufTy).Contents (Elt F) → (⟨S3000000, .f32⟩ : BufTy).Contents (Elt F)),
    StableHlo.nullary main_cst_27 (constant S_ .f32 0x40400000#32),
    StableHlo.unary main_cst_27 main_v229 (broadcastInDim S3000000 ![] bcast_S_S3000000 : (⟨S_, .f32⟩ : BufTy).Contents (Elt F) → (⟨S3000000, .f32⟩ : BufTy).Contents (Elt F)),
    StableHlo.binary main_v229 main_v227 main_v230 (mulf : (⟨S3000000, .f32⟩ : BufTy).Contents (Elt F) → (⟨S3000000, .f32⟩ : BufTy).Contents (Elt F) → (⟨S3000000, .f32⟩ : BufTy).Contents (Elt F)),
    StableHlo.binary main_v230 main_v227 main_v231 (mulf : (⟨S3000000, .f32⟩ : BufTy).Contents (Elt F) → (⟨S3000000, .f32⟩ : BufTy).Contents (Elt F) → (⟨S3000000, .f32⟩ : BufTy).Contents (Elt F)),
    StableHlo.nullary main_cst_28 (constant S_ .f32 0x3F800000#32),
    StableHlo.unary main_cst_28 main_v232 (broadcastInDim S3000000 ![] bcast_S_S3000000 : (⟨S_, .f32⟩ : BufTy).Contents (Elt F) → (⟨S3000000, .f32⟩ : BufTy).Contents (Elt F)),
    StableHlo.binary main_v232 main_v228 main_v233 (mulf : (⟨S3000000, .f32⟩ : BufTy).Contents (Elt F) → (⟨S3000000, .f32⟩ : BufTy).Contents (Elt F) → (⟨S3000000, .f32⟩ : BufTy).Contents (Elt F)),
    StableHlo.binary main_v231 main_v233 main_v234 (subf : (⟨S3000000, .f32⟩ : BufTy).Contents (Elt F) → (⟨S3000000, .f32⟩ : BufTy).Contents (Elt F) → (⟨S3000000, .f32⟩ : BufTy).Contents (Elt F)),
    StableHlo.nullary main_cst_29 (constant S_ .f32 0x40000000#32),
    StableHlo.unary main_cst_29 main_v235 (broadcastInDim S3000000 ![] bcast_S_S3000000 : (⟨S_, .f32⟩ : BufTy).Contents (Elt F) → (⟨S3000000, .f32⟩ : BufTy).Contents (Elt F)),
    StableHlo.binary main_v234 main_v235 main_v236 (Host.divf : (⟨S3000000, .f32⟩ : BufTy).Contents (Elt F) → (⟨S3000000, .f32⟩ : BufTy).Contents (Elt F) → (⟨S3000000, .f32⟩ : BufTy).Contents (Elt F)),
    StableHlo.nullary main_cst_30 (constant S_ .f32 0x40A00000#32),
    StableHlo.unary main_cst_30 main_v237 (broadcastInDim S3000000 ![] bcast_S_S3000000 : (⟨S_, .f32⟩ : BufTy).Contents (Elt F) → (⟨S3000000, .f32⟩ : BufTy).Contents (Elt F)),
    StableHlo.binary main_v237 main_v227 main_v238 (mulf : (⟨S3000000, .f32⟩ : BufTy).Contents (Elt F) → (⟨S3000000, .f32⟩ : BufTy).Contents (Elt F) → (⟨S3000000, .f32⟩ : BufTy).Contents (Elt F)),
    StableHlo.binary main_v238 main_v236 main_v239 (mulf : (⟨S3000000, .f32⟩ : BufTy).Contents (Elt F) → (⟨S3000000, .f32⟩ : BufTy).Contents (Elt F) → (⟨S3000000, .f32⟩ : BufTy).Contents (Elt F)),
    StableHlo.nullary main_cst_31 (constant S_ .f32 0x40000000#32),
    StableHlo.unary main_cst_31 main_v240 (broadcastInDim S3000000 ![] bcast_S_S3000000 : (⟨S_, .f32⟩ : BufTy).Contents (Elt F) → (⟨S3000000, .f32⟩ : BufTy).Contents (Elt F)),
    StableHlo.binary main_v240 main_v227 main_v241 (mulf : (⟨S3000000, .f32⟩ : BufTy).Contents (Elt F) → (⟨S3000000, .f32⟩ : BufTy).Contents (Elt F) → (⟨S3000000, .f32⟩ : BufTy).Contents (Elt F)),
    StableHlo.binary main_v239 main_v241 main_v242 (subf : (⟨S3000000, .f32⟩ : BufTy).Contents (Elt F) → (⟨S3000000, .f32⟩ : BufTy).Contents (Elt F) → (⟨S3000000, .f32⟩ : BufTy).Contents (Elt F)),
    StableHlo.nullary main_cst_32 (constant S_ .f32 0x40400000#32),
    StableHlo.unary main_cst_32 main_v243 (broadcastInDim S3000000 ![] bcast_S_S3000000 : (⟨S_, .f32⟩ : BufTy).Contents (Elt F) → (⟨S3000000, .f32⟩ : BufTy).Contents (Elt F)),
    StableHlo.binary main_v242 main_v243 main_v244 (Host.divf : (⟨S3000000, .f32⟩ : BufTy).Contents (Elt F) → (⟨S3000000, .f32⟩ : BufTy).Contents (Elt F) → (⟨S3000000, .f32⟩ : BufTy).Contents (Elt F)),
    StableHlo.nullary main_cst_33 (constant S_ .f32 0x40E00000#32),
    StableHlo.unary main_cst_33 main_v245 (broadcastInDim S3000000 ![] bcast_S_S3000000 : (⟨S_, .f32⟩ : BufTy).Contents (Elt F) → (⟨S3000000, .f32⟩ : BufTy).Contents (Elt F)),
    StableHlo.binary main_v245 main_v227 main_v246 (mulf : (⟨S3000000, .f32⟩ : BufTy).Contents (Elt F) → (⟨S3000000, .f32⟩ : BufTy).Contents (Elt F) → (⟨S3000000, .f32⟩ : BufTy).Contents (Elt F)),
    StableHlo.binary main_v246 main_v244 main_v247 (mulf : (⟨S3000000, .f32⟩ : BufTy).Contents (Elt F) → (⟨S3000000, .f32⟩ : BufTy).Contents (Elt F) → (⟨S3000000, .f32⟩ : BufTy).Contents (Elt F)),
    StableHlo.nullary main_cst_34 (constant S_ .f32 0x40400000#32),
    StableHlo.unary main_cst_34 main_v248 (broadcastInDim S3000000 ![] bcast_S_S3000000 : (⟨S_, .f32⟩ : BufTy).Contents (Elt F) → (⟨S3000000, .f32⟩ : BufTy).Contents (Elt F)),
    StableHlo.binary main_v248 main_v236 main_v249 (mulf : (⟨S3000000, .f32⟩ : BufTy).Contents (Elt F) → (⟨S3000000, .f32⟩ : BufTy).Contents (Elt F) → (⟨S3000000, .f32⟩ : BufTy).Contents (Elt F)),
    StableHlo.binary main_v247 main_v249 main_v250 (subf : (⟨S3000000, .f32⟩ : BufTy).Contents (Elt F) → (⟨S3000000, .f32⟩ : BufTy).Contents (Elt F) → (⟨S3000000, .f32⟩ : BufTy).Contents (Elt F)),
    StableHlo.nullary main_cst_35 (constant S_ .f32 0x40800000#32),
    StableHlo.unary main_cst_35 main_v251 (broadcastInDim S3000000 ![] bcast_S_S3000000 : (⟨S_, .f32⟩ : BufTy).Contents (Elt F) → (⟨S3000000, .f32⟩ : BufTy).Contents (Elt F)),
    StableHlo.binary main_v250 main_v251 main_v252 (Host.divf : (⟨S3000000, .f32⟩ : BufTy).Contents (Elt F) → (⟨S3000000, .f32⟩ : BufTy).Contents (Elt F) → (⟨S3000000, .f32⟩ : BufTy).Contents (Elt F)),
    StableHlo.nullary main_cst_36 (constant S_ .f32 0x41100000#32),
    StableHlo.unary main_cst_36 main_v253 (broadcastInDim S3000000 ![] bcast_S_S3000000 : (⟨S_, .f32⟩ : BufTy).Contents (Elt F) → (⟨S3000000, .f32⟩ : BufTy).Contents (Elt F)),
    StableHlo.binary main_v253 main_v227 main_v254 (mulf : (⟨S3000000, .f32⟩ : BufTy).Contents (Elt F) → (⟨S3000000, .f32⟩ : BufTy).Contents (Elt F) → (⟨S3000000, .f32⟩ : BufTy).Contents (Elt F)),
    StableHlo.binary main_v254 main_v252 main_v255 (mulf : (⟨S3000000, .f32⟩ : BufTy).Contents (Elt F) → (⟨S3000000, .f32⟩ : BufTy).Contents (Elt F) → (⟨S3000000, .f32⟩ : BufTy).Contents (Elt F)),
    StableHlo.nullary main_cst_37 (constant S_ .f32 0x40800000#32),
    StableHlo.unary main_cst_37 main_v256 (broadcastInDim S3000000 ![] bcast_S_S3000000 : (⟨S_, .f32⟩ : BufTy).Contents (Elt F) → (⟨S3000000, .f32⟩ : BufTy).Contents (Elt F)),
    StableHlo.binary main_v256 main_v244 main_v257 (mulf : (⟨S3000000, .f32⟩ : BufTy).Contents (Elt F) → (⟨S3000000, .f32⟩ : BufTy).Contents (Elt F) → (⟨S3000000, .f32⟩ : BufTy).Contents (Elt F)),
    StableHlo.binary main_v255 main_v257 main_v258 (subf : (⟨S3000000, .f32⟩ : BufTy).Contents (Elt F) → (⟨S3000000, .f32⟩ : BufTy).Contents (Elt F) → (⟨S3000000, .f32⟩ : BufTy).Contents (Elt F)),
    StableHlo.nullary main_cst_38 (constant S_ .f32 0x40A00000#32) ]

set_option maxRecDepth 8192 in
theorem w4_sub : (w4 : List (HloOp τ sig (Elt F))).Forall fun op => op.bufs ⊆ StableHlo.tcRefs τ sig :=
  ⟨StableHlo.unary_bufs_sub .., StableHlo.binary_bufs_sub .., StableHlo.nary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩

/-- Printed window 5 of @main: its 47 operations, in order. -/
abbrev w5 : List (HloOp τ sig (Elt F)) :=
  [ StableHlo.unary main_cst_38 main_v259 (broadcastInDim S3000000 ![] bcast_S_S3000000 : (⟨S_, .f32⟩ : BufTy).Contents (Elt F) → (⟨S3000000, .f32⟩ : BufTy).Contents (Elt F)),
    StableHlo.binary main_v258 main_v259 main_v260 (Host.divf : (⟨S3000000, .f32⟩ : BufTy).Contents (Elt F) → (⟨S3000000, .f32⟩ : BufTy).Contents (Elt F) → (⟨S3000000, .f32⟩ : BufTy).Contents (Elt F)),
    StableHlo.nullary main_cst_39 (constant S_ .f32 0x41300000#32),
    StableHlo.unary main_cst_39 main_v261 (broadcastInDim S3000000 ![] bcast_S_S3000000 : (⟨S_, .f32⟩ : BufTy).Contents (Elt F) → (⟨S3000000, .f32⟩ : BufTy).Contents (Elt F)),
    StableHlo.binary main_v261 main_v227 main_v262 (mulf : (⟨S3000000, .f32⟩ : BufTy).Contents (Elt F) → (⟨S3000000, .f32⟩ : BufTy).Contents (Elt F) → (⟨S3000000, .f32⟩ : BufTy).Contents (Elt F)),
    StableHlo.binary main_v262 main_v260 main_v263 (mulf : (⟨S3000000, .f32⟩ : BufTy).Contents (Elt F) → (⟨S3000000, .f32⟩ : BufTy).Contents (Elt F) → (⟨S3000000, .f32⟩ : BufTy).Contents (Elt F)),
    StableHlo.nullary main_cst_40 (constant S_ .f32 0x40A00000#32),
    StableHlo.unary main_cst_40 main_v264 (broadcastInDim S3000000 ![] bcast_S_S3000000 : (⟨S_, .f32⟩ : BufTy).Contents (Elt F) → (⟨S3000000, .f32⟩ : BufTy).Contents (Elt F)),
    StableHlo.binary main_v264 main_v252 main_v265 (mulf : (⟨S3000000, .f32⟩ : BufTy).Contents (Elt F) → (⟨S3000000, .f32⟩ : BufTy).Contents (Elt F) → (⟨S3000000, .f32⟩ : BufTy).Contents (Elt F)),
    StableHlo.binary main_v263 main_v265 main_v266 (subf : (⟨S3000000, .f32⟩ : BufTy).Contents (Elt F) → (⟨S3000000, .f32⟩ : BufTy).Contents (Elt F) → (⟨S3000000, .f32⟩ : BufTy).Contents (Elt F)),
    StableHlo.nullary main_cst_41 (constant S_ .f32 0x40C00000#32),
    StableHlo.unary main_cst_41 main_v267 (broadcastInDim S3000000 ![] bcast_S_S3000000 : (⟨S_, .f32⟩ : BufTy).Contents (Elt F) → (⟨S3000000, .f32⟩ : BufTy).Contents (Elt F)),
    StableHlo.binary main_v266 main_v267 main_v268 (Host.divf : (⟨S3000000, .f32⟩ : BufTy).Contents (Elt F) → (⟨S3000000, .f32⟩ : BufTy).Contents (Elt F) → (⟨S3000000, .f32⟩ : BufTy).Contents (Elt F)),
    StableHlo.nullary main_cst_42 (constant S_ .f32 0x3E906EBB#32),
    StableHlo.unary main_cst_42 main_v269 (broadcastInDim S3000000 ![] bcast_S_S3000000 : (⟨S_, .f32⟩ : BufTy).Contents (Elt F) → (⟨S3000000, .f32⟩ : BufTy).Contents (Elt F)),
    StableHlo.binary main_v269 main_v228 main_v270 (mulf : (⟨S3000000, .f32⟩ : BufTy).Contents (Elt F) → (⟨S3000000, .f32⟩ : BufTy).Contents (Elt F) → (⟨S3000000, .f32⟩ : BufTy).Contents (Elt F)),
    StableHlo.nullary main_cst_43 (constant S_ .f32 0x3EFA2A1C#32),
    StableHlo.unary main_cst_43 main_v271 (broadcastInDim S3000000 ![] bcast_S_S3000000 : (⟨S_, .f32⟩ : BufTy).Contents (Elt F) → (⟨S3000000, .f32⟩ : BufTy).Contents (Elt F)),
    StableHlo.binary main_v271 main_v227 main_v272 (mulf : (⟨S3000000, .f32⟩ : BufTy).Contents (Elt F) → (⟨S3000000, .f32⟩ : BufTy).Contents (Elt F) → (⟨S3000000, .f32⟩ : BufTy).Contents (Elt F)),
    StableHlo.nullary main_cst_44 (constant S_ .f32 0x3F217B01#32),
    StableHlo.unary main_cst_44 main_v273 (broadcastInDim S3000000 ![] bcast_S_S3000000 : (⟨S_, .f32⟩ : BufTy).Contents (Elt F) → (⟨S3000000, .f32⟩ : BufTy).Contents (Elt F)),
    StableHlo.binary main_v273 main_v236 main_v274 (mulf : (⟨S3000000, .f32⟩ : BufTy).Contents (Elt F) → (⟨S3000000, .f32⟩ : BufTy).Contents (Elt F) → (⟨S3000000, .f32⟩ : BufTy).Contents (Elt F)),
    StableHlo.nullary main_cst_45 (constant S_ .f32 0x3F3F10F8#32),
    StableHlo.unary main_cst_45 main_v275 (broadcastInDim S3000000 ![] bcast_S_S3000000 : (⟨S_, .f32⟩ : BufTy).Contents (Elt F) → (⟨S3000000, .f32⟩ : BufTy).Contents (Elt F)),
    StableHlo.binary main_v275 main_v244 main_v276 (mulf : (⟨S3000000, .f32⟩ : BufTy).Contents (Elt F) → (⟨S3000000, .f32⟩ : BufTy).Contents (Elt F) → (⟨S3000000, .f32⟩ : BufTy).Contents (Elt F)),
    StableHlo.nullary main_cst_46 (constant S_ .f32 0x3F58A618#32),
    StableHlo.unary main_cst_46 main_v277 (broadcastInDim S3000000 ![] bcast_S_S3000000 : (⟨S_, .f32⟩ : BufTy).Contents (Elt F) → (⟨S3000000, .f32⟩ : BufTy).Contents (Elt F)),
    StableHlo.binary main_v277 main_v252 main_v278 (mulf : (⟨S3000000, .f32⟩ : BufTy).Contents (Elt F) → (⟨S3000000, .f32⟩ : BufTy).Contents (Elt F) → (⟨S3000000, .f32⟩ : BufTy).Contents (Elt F)),
    StableHlo.nullary main_cst_47 (constant S_ .f32 0x3F6F83A7#32),
    StableHlo.unary main_cst_47 main_v279 (broadcastInDim S3000000 ![] bcast_S_S3000000 : (⟨S_, .f32⟩ : BufTy).Contents (Elt F) → (⟨S3000000, .f32⟩ : BufTy).Contents (Elt F)),
    StableHlo.binary main_v279 main_v260 main_v280 (mulf : (⟨S3000000, .f32⟩ : BufTy).Contents (Elt F) → (⟨S3000000, .f32⟩ : BufTy).Contents (Elt F) → (⟨S3000000, .f32⟩ : BufTy).Contents (Elt F)),
    StableHlo.nullary main_cst_48 (constant S_ .f32 0x3F823092#32),
    StableHlo.unary main_cst_48 main_v281 (broadcastInDim S3000000 ![] bcast_S_S3000000 : (⟨S_, .f32⟩ : BufTy).Contents (Elt F) → (⟨S3000000, .f32⟩ : BufTy).Contents (Elt F)),
    StableHlo.binary main_v281 main_v268 main_v282 (mulf : (⟨S3000000, .f32⟩ : BufTy).Contents (Elt F) → (⟨S3000000, .f32⟩ : BufTy).Contents (Elt F) → (⟨S3000000, .f32⟩ : BufTy).Contents (Elt F)),
    StableHlo.unary main_v270 main_v283 (broadcastInDim S3000000x1 ![0] bcast_S3000000_S3000000x1_0 : (⟨S3000000, .f32⟩ : BufTy).Contents (Elt F) → (⟨S3000000x1, .f32⟩ : BufTy).Contents (Elt F)),
    StableHlo.unary main_v272 main_v284 (broadcastInDim S3000000x1 ![0] bcast_S3000000_S3000000x1_0 : (⟨S3000000, .f32⟩ : BufTy).Contents (Elt F) → (⟨S3000000x1, .f32⟩ : BufTy).Contents (Elt F)),
    StableHlo.unary main_v274 main_v285 (broadcastInDim S3000000x1 ![0] bcast_S3000000_S3000000x1_0 : (⟨S3000000, .f32⟩ : BufTy).Contents (Elt F) → (⟨S3000000x1, .f32⟩ : BufTy).Contents (Elt F)),
    StableHlo.unary main_v276 main_v286 (broadcastInDim S3000000x1 ![0] bcast_S3000000_S3000000x1_0 : (⟨S3000000, .f32⟩ : BufTy).Contents (Elt F) → (⟨S3000000x1, .f32⟩ : BufTy).Contents (Elt F)),
    StableHlo.unary main_v278 main_v287 (broadcastInDim S3000000x1 ![0] bcast_S3000000_S3000000x1_0 : (⟨S3000000, .f32⟩ : BufTy).Contents (Elt F) → (⟨S3000000x1, .f32⟩ : BufTy).Contents (Elt F)),
    StableHlo.unary main_v280 main_v288 (broadcastInDim S3000000x1 ![0] bcast_S3000000_S3000000x1_0 : (⟨S3000000, .f32⟩ : BufTy).Contents (Elt F) → (⟨S3000000x1, .f32⟩ : BufTy).Contents (Elt F)),
    StableHlo.unary main_v282 main_v289 (broadcastInDim S3000000x1 ![0] bcast_S3000000_S3000000x1_0 : (⟨S3000000, .f32⟩ : BufTy).Contents (Elt F) → (⟨S3000000x1, .f32⟩ : BufTy).Contents (Elt F)),
    StableHlo.nary ![main_v283, main_v284, main_v285, main_v286, main_v287, main_v288, main_v289] main_v290 (fun u => concatenate S3000000x7 1 [⟨S3000000x1, u 0⟩, ⟨S3000000x1, u 1⟩, ⟨S3000000x1, u 2⟩, ⟨S3000000x1, u 3⟩, ⟨S3000000x1, u 4⟩, ⟨S3000000x1, u 5⟩, ⟨S3000000x1, u 6⟩] concatenates_S3000000x1_S3000000x1_S3000000x1_S3000000x1_S3000000x1_S3000000x1_S3000000x1_S3000000x7_d1),
    StableHlo.unary main_v290 main_v291 (broadcastInDim S3000000x7x6 ![0, 1] bcast_S3000000x7_S3000000x7x6_0_1 : (⟨S3000000x7, .f32⟩ : BufTy).Contents (Elt F) → (⟨S3000000x7x6, .f32⟩ : BufTy).Contents (Elt F)),
    StableHlo.reshape main_v291 main_v292 rfl shapeCasts_S3000000x7x6_S3000000x42,
    StableHlo.unary main_arg2 main_v293 (broadcastInDim S3000000x42 ![0, 1] bcast_S3000000x1_S3000000x42_0_1 : (⟨S3000000x1, .f32⟩ : BufTy).Contents (Elt F) → (⟨S3000000x42, .f32⟩ : BufTy).Contents (Elt F)),
    StableHlo.binary main_v292 main_v293 main_v294 (mulf : (⟨S3000000x42, .f32⟩ : BufTy).Contents (Elt F) → (⟨S3000000x42, .f32⟩ : BufTy).Contents (Elt F) → (⟨S3000000x42, .f32⟩ : BufTy).Contents (Elt F)),
    StableHlo.binary main_v226 main_v294 main_v295 (mulf : (⟨S3000000x42, .f32⟩ : BufTy).Contents (Elt F) → (⟨S3000000x42, .f32⟩ : BufTy).Contents (Elt F) → (⟨S3000000x42, .f32⟩ : BufTy).Contents (Elt F)) ]

set_option maxRecDepth 8192 in
theorem w5_sub : (w5 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.binary_bufs_sub .., StableHlo.binary_bufs_sub ..⟩

/-- Statements 1 to 33 of @main: 35 operations. -/
abbrev sA : List (HloOp τ sig (Elt F)) :=
  [ StableHlo.nullary main_cst (fun i => FloatOps.ofBits .f32 (lit0 (S7x6.rowMajor i))),
    StableHlo.nullary main_cst_0 (fun i => FloatOps.ofBits .f32 (lit1 (S7x6.rowMajor i))),
    StableHlo.nullary main_cst_1 (constant S_ .f32 0x3E4CCCCD#32),
    StableHlo.unary main_cst_1 main_v0 (broadcastInDim S1000000 ![] bcast_S_S1000000 : (⟨S_, .f32⟩ : BufTy).Contents (Elt F) → (⟨S1000000, .f32⟩ : BufTy).Contents (Elt F)),
    StableHlo.binary main_arg0 main_v0 main_v1 (mulf : (⟨S1000000, .f32⟩ : BufTy).Contents (Elt F) → (⟨S1000000, .f32⟩ : BufTy).Contents (Elt F) → (⟨S1000000, .f32⟩ : BufTy).Contents (Elt F)),
    StableHlo.binary main_v1 main_v1 main_v2 (mulf : (⟨S1000000, .f32⟩ : BufTy).Contents (Elt F) → (⟨S1000000, .f32⟩ : BufTy).Contents (Elt F) → (⟨S1000000, .f32⟩ : BufTy).Contents (Elt F)),
    StableHlo.binary main_v2 main_v2 main_v3 (mulf : (⟨S1000000, .f32⟩ : BufTy).Contents (Elt F) → (⟨S1000000, .f32⟩ : BufTy).Contents (Elt F) → (⟨S1000000, .f32⟩ : BufTy).Contents (Elt F)),
    StableHlo.binary main_v2 main_v3 main_v4 (mulf : (⟨S1000000, .f32⟩ : BufTy).Contents (Elt F) → (⟨S1000000, .f32⟩ : BufTy).Contents (Elt F) → (⟨S1000000, .f32⟩ : BufTy).Contents (Elt F)),
    StableHlo.nullary main_cst_2 (constant S_ .f32 0xC1E00000#32),
    StableHlo.unary main_cst_2 main_v5 (broadcastInDim S1000000 ![] bcast_S_S1000000 : (⟨S_, .f32⟩ : BufTy).Contents (Elt F) → (⟨S1000000, .f32⟩ : BufTy).Contents (Elt F)),
    StableHlo.binary main_v5 main_v4 main_v6 (mulf : (⟨S1000000, .f32⟩ : BufTy).Contents (Elt F) → (⟨S1000000, .f32⟩ : BufTy).Contents (Elt F) → (⟨S1000000, .f32⟩ : BufTy).Contents (Elt F)),
    StableHlo.nullary main_cst_3 (constant S_ .f32 0x3F800000#32),
    StableHlo.unary main_cst_3 main_v7 (broadcastInDim S1000000 ![] bcast_S_S1000000 : (⟨S_, .f32⟩ : BufTy).Contents (Elt F) → (⟨S1000000, .f32⟩ : BufTy).Contents (Elt F)),
    StableHlo.binary main_v7 main_v6 main_v8 (addf : (⟨S1000000, .f32⟩ : BufTy).Contents (Elt F) → (⟨S1000000, .f32⟩ : BufTy).Contents (Elt F) → (⟨S1000000, .f32⟩ : BufTy).Contents (Elt F)),
    StableHlo.nullary main_cst_4 (constant S_ .f32 0x40E00000#32),
    StableHlo.unary main_cst_4 main_v9 (broadcastInDim S1000000 ![] bcast_S_S1000000 : (⟨S_, .f32⟩ : BufTy).Contents (Elt F) → (⟨S1000000, .f32⟩ : BufTy).Contents (Elt F)),
    StableHlo.binary main_v1 main_v9 main_v10 (Host.powf : (⟨S1000000, .f32⟩ : BufTy).Contents (Elt F) → (⟨S1000000, .f32⟩ : BufTy).Contents (Elt F) → (⟨S1000000, .f32⟩ : BufTy).Contents (Elt F)),
    StableHlo.nullary main_cst_5 (constant S_ .f32 0x42400000#32),
    StableHlo.unary main_cst_5 main_v11 (broadcastInDim S1000000 ![] bcast_S_S1000000 : (⟨S_, .f32⟩ : BufTy).Contents (Elt F) → (⟨S1000000, .f32⟩ : BufTy).Contents (Elt F)),
    StableHlo.binary main_v11 main_v10 main_v12 (mulf : (⟨S1000000, .f32⟩ : BufTy).Contents (Elt F) → (⟨S1000000, .f32⟩ : BufTy).Contents (Elt F) → (⟨S1000000, .f32⟩ : BufTy).Contents (Elt F)),
    StableHlo.binary main_v8 main_v12 main_v13 (addf : (⟨S1000000, .f32⟩ : BufTy).Contents (Elt F) → (⟨S1000000, .f32⟩ : BufTy).Contents (Elt F) → (⟨S1000000, .f32⟩ : BufTy).Contents (Elt F)),
    StableHlo.nullary main_cst_6 (constant S_ .f32 0x41000000#32),
    StableHlo.unary main_cst_6 main_v14 (broadcastInDim S1000000 ![] bcast_S_S1000000 : (⟨S_, .f32⟩ : BufTy).Contents (Elt F) → (⟨S1000000, .f32⟩ : BufTy).Contents (Elt F)),
    StableHlo.binary main_v1 main_v14 main_v15 (Host.powf : (⟨S1000000, .f32⟩ : BufTy).Contents (Elt F) → (⟨S1000000, .f32⟩ : BufTy).Contents (Elt F) → (⟨S1000000, .f32⟩ : BufTy).Contents (Elt F)),
    StableHlo.nullary main_cst_7 (constant S_ .f32 0xC1A80000#32),
    StableHlo.unary main_cst_7 main_v16 (broadcastInDim S1000000 ![] bcast_S_S1000000 : (⟨S_, .f32⟩ : BufTy).Contents (Elt F) → (⟨S1000000, .f32⟩ : BufTy).Contents (Elt F)),
    StableHlo.binary main_v16 main_v15 main_v17 (mulf : (⟨S1000000, .f32⟩ : BufTy).Contents (Elt F) → (⟨S1000000, .f32⟩ : BufTy).Contents (Elt F) → (⟨S1000000, .f32⟩ : BufTy).Contents (Elt F)),
    StableHlo.binary main_v13 main_v17 main_v18 (addf : (⟨S1000000, .f32⟩ : BufTy).Contents (Elt F) → (⟨S1000000, .f32⟩ : BufTy).Contents (Elt F) → (⟨S1000000, .f32⟩ : BufTy).Contents (Elt F)),
    StableHlo.nullary main_cst_8 (constant S_ .f32 0x3F800000#32),
    StableHlo.unary main_cst_8 main_v19 (broadcastInDim S1000000 ![] bcast_S_S1000000 : (⟨S_, .f32⟩ : BufTy).Contents (Elt F) → (⟨S1000000, .f32⟩ : BufTy).Contents (Elt F)),
    StableHlo.binary main_v1 main_v19 main_v20 (cmpf .olt : (⟨S1000000, .f32⟩ : BufTy).Contents (Elt F) → (⟨S1000000, .f32⟩ : BufTy).Contents (Elt F) → (⟨S1000000, .i1⟩ : BufTy).Contents (Elt F)),
    StableHlo.nullary main_cst_9 (constant S_ .f32 0x00000000#32),
    StableHlo.TRef.unary (StableHlo.TRef.of (T := ⟨S_, .f32⟩) main_cst_9) main_call0.v0 id,
    StableHlo.TRef.unary main_call0.v0 main_call0.v1 (broadcastInDim S1000000 ![] bcast_S_S1000000),
    StableHlo.TRef.ternary (StableHlo.TRef.of (T := ⟨S1000000, .i1⟩) main_v20) (StableHlo.TRef.of (T := ⟨S1000000, .f32⟩) main_v18) main_call0.v1 main_call0.v2 select ]

set_option maxRecDepth 8192 in
theorem sA_sub : (sA : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

/-- The buffers stretch sA writes, in order. -/
abbrev sA_W : List (Ref sig .tc) :=
  [main_cst, main_cst_0, main_cst_1, main_v0, main_v1, main_v2, main_v3, main_v4, main_cst_2, main_v5, main_v6, main_cst_3, main_v7, main_v8, main_cst_4, main_v9, main_v10, main_cst_5, main_v11, main_v12, main_v13, main_cst_6, main_v14, main_v15, main_cst_7, main_v16, main_v17, main_v18, main_cst_8, main_v19, main_v20, main_cst_9, main_call0_v0, main_call0_v1, main_v21]

/-- Statements 34 to 47 of @main: 14 operations. -/
abbrev sB0 : List (HloOp τ sig (Elt F)) :=
  [ StableHlo.unary main_cst_0 main_v22 ((extractStridedSlice S1x6 ![0, 0] · slices_S7x6_S1x6_0_0) : (⟨S7x6, .f32⟩ : BufTy).Contents (Elt F) → (⟨S1x6, .f32⟩ : BufTy).Contents (Elt F)),
    StableHlo.reshape main_v22 main_v23 rfl shapeCasts_S1x6_S6,
    StableHlo.unary main_v1 main_v24 (broadcastInDim S1000000x1 ![0] bcast_S1000000_S1000000x1_0 : (⟨S1000000, .f32⟩ : BufTy).Contents (Elt F) → (⟨S1000000x1, .f32⟩ : BufTy).Contents (Elt F)),
    StableHlo.unary main_cst main_v25 ((extractStridedSlice S1x6 ![0, 0] · slices_S7x6_S1x6_0_0) : (⟨S7x6, .f32⟩ : BufTy).Contents (Elt F) → (⟨S1x6, .f32⟩ : BufTy).Contents (Elt F)),
    StableHlo.reshape main_v25 main_v26 rfl shapeCasts_S1x6_S6,
    StableHlo.unary main_v26 main_v27 (broadcastInDim S1x6 ![1] bcast_S6_S1x6_1 : (⟨S6, .f32⟩ : BufTy).Contents (Elt F) → (⟨S1x6, .f32⟩ : BufTy).Contents (Elt F)),
    StableHlo.unary main_v24 main_v28 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v27 main_v29 (broadcastInDim S1000000x6 ![0, 1] bcast_S1x6_S1000000x6_0_1 : (⟨S1x6, .f32⟩ : BufTy).Contents (Elt F) → (⟨S1000000x6, .f32⟩ : BufTy).Contents (Elt F)),
    StableHlo.binary main_v28 main_v29 main_v30 (mulf : (⟨S1000000x6, .f32⟩ : BufTy).Contents (Elt F) → (⟨S1000000x6, .f32⟩ : BufTy).Contents (Elt F) → (⟨S1000000x6, .f32⟩ : BufTy).Contents (Elt F)),
    StableHlo.unary main_v30 main_v31 (Host.sin : (⟨S1000000x6, .f32⟩ : BufTy).Contents (Elt F) → (⟨S1000000x6, .f32⟩ : BufTy).Contents (Elt F)),
    StableHlo.binary main_v31 main_v30 main_v32 (Host.divf : (⟨S1000000x6, .f32⟩ : BufTy).Contents (Elt F) → (⟨S1000000x6, .f32⟩ : BufTy).Contents (Elt F) → (⟨S1000000x6, .f32⟩ : BufTy).Contents (Elt F)),
    StableHlo.unary main_v23 main_v33 (broadcastInDim S1x6 ![1] bcast_S6_S1x6_1 : (⟨S6, .f32⟩ : BufTy).Contents (Elt F) → (⟨S1x6, .f32⟩ : BufTy).Contents (Elt F)),
    StableHlo.unary main_v33 main_v34 (broadcastInDim S1000000x6 ![0, 1] bcast_S1x6_S1000000x6_0_1 : (⟨S1x6, .f32⟩ : BufTy).Contents (Elt F) → (⟨S1000000x6, .f32⟩ : BufTy).Contents (Elt F)),
    StableHlo.binary main_v34 main_v32 main_v35 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem sB0_sub : (sB0 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- The buffers stretch sB0 writes, in order. -/
abbrev sB0_W : List (Ref sig .tc) :=
  [main_v22, main_v23, main_v24, main_v25, main_v26, main_v27, main_v28, main_v29, main_v30, main_v31, main_v32, main_v33, main_v34, main_v35]

/-- Statements 48 to 67 of @main: 20 operations. -/
abbrev sB1 : List (HloOp τ sig (Elt F)) :=
  [ StableHlo.unary main_cst_0 main_v36 ((extractStridedSlice S1x6 ![1, 0] · slices_S7x6_S1x6_1_0) : (⟨S7x6, .f32⟩ : BufTy).Contents (Elt F) → (⟨S1x6, .f32⟩ : BufTy).Contents (Elt F)),
    StableHlo.reshape main_v36 main_v37 rfl shapeCasts_S1x6_S6,
    StableHlo.unary main_v1 main_v38 (broadcastInDim S1000000x1 ![0] bcast_S1000000_S1000000x1_0 : (⟨S1000000, .f32⟩ : BufTy).Contents (Elt F) → (⟨S1000000x1, .f32⟩ : BufTy).Contents (Elt F)),
    StableHlo.unary main_cst main_v39 ((extractStridedSlice S1x6 ![1, 0] · slices_S7x6_S1x6_1_0) : (⟨S7x6, .f32⟩ : BufTy).Contents (Elt F) → (⟨S1x6, .f32⟩ : BufTy).Contents (Elt F)),
    StableHlo.reshape main_v39 main_v40 rfl shapeCasts_S1x6_S6,
    StableHlo.unary main_v40 main_v41 (broadcastInDim S1x6 ![1] bcast_S6_S1x6_1 : (⟨S6, .f32⟩ : BufTy).Contents (Elt F) → (⟨S1x6, .f32⟩ : BufTy).Contents (Elt F)),
    StableHlo.unary main_v38 main_v42 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v41 main_v43 (broadcastInDim S1000000x6 ![0, 1] bcast_S1x6_S1000000x6_0_1 : (⟨S1x6, .f32⟩ : BufTy).Contents (Elt F) → (⟨S1000000x6, .f32⟩ : BufTy).Contents (Elt F)),
    StableHlo.binary main_v42 main_v43 main_v44 (mulf : (⟨S1000000x6, .f32⟩ : BufTy).Contents (Elt F) → (⟨S1000000x6, .f32⟩ : BufTy).Contents (Elt F) → (⟨S1000000x6, .f32⟩ : BufTy).Contents (Elt F)),
    StableHlo.unary main_v44 main_v45 (Host.sin : (⟨S1000000x6, .f32⟩ : BufTy).Contents (Elt F) → (⟨S1000000x6, .f32⟩ : BufTy).Contents (Elt F)),
    StableHlo.binary main_v45 main_v44 main_v46 (Host.divf : (⟨S1000000x6, .f32⟩ : BufTy).Contents (Elt F) → (⟨S1000000x6, .f32⟩ : BufTy).Contents (Elt F) → (⟨S1000000x6, .f32⟩ : BufTy).Contents (Elt F)),
    StableHlo.unary main_v44 main_v47 (Host.sin : (⟨S1000000x6, .f32⟩ : BufTy).Contents (Elt F) → (⟨S1000000x6, .f32⟩ : BufTy).Contents (Elt F)),
    StableHlo.binary main_v44 main_v44 main_v48 (mulf : (⟨S1000000x6, .f32⟩ : BufTy).Contents (Elt F) → (⟨S1000000x6, .f32⟩ : BufTy).Contents (Elt F) → (⟨S1000000x6, .f32⟩ : BufTy).Contents (Elt F)),
    StableHlo.binary main_v47 main_v48 main_v49 (Host.divf : (⟨S1000000x6, .f32⟩ : BufTy).Contents (Elt F) → (⟨S1000000x6, .f32⟩ : BufTy).Contents (Elt F) → (⟨S1000000x6, .f32⟩ : BufTy).Contents (Elt F)),
    StableHlo.unary main_v44 main_v50 (Host.cos : (⟨S1000000x6, .f32⟩ : BufTy).Contents (Elt F) → (⟨S1000000x6, .f32⟩ : BufTy).Contents (Elt F)),
    StableHlo.binary main_v50 main_v44 main_v51 (Host.divf : (⟨S1000000x6, .f32⟩ : BufTy).Contents (Elt F) → (⟨S1000000x6, .f32⟩ : BufTy).Contents (Elt F) → (⟨S1000000x6, .f32⟩ : BufTy).Contents (Elt F)),
    StableHlo.binary main_v49 main_v51 main_v52 (subf : (⟨S1000000x6, .f32⟩ : BufTy).Contents (Elt F) → (⟨S1000000x6, .f32⟩ : BufTy).Contents (Elt F) → (⟨S1000000x6, .f32⟩ : BufTy).Contents (Elt F)),
    StableHlo.unary main_v37 main_v53 (broadcastInDim S1x6 ![1] bcast_S6_S1x6_1 : (⟨S6, .f32⟩ : BufTy).Contents (Elt F) → (⟨S1x6, .f32⟩ : BufTy).Contents (Elt F)),
    StableHlo.unary main_v53 main_v54 (broadcastInDim S1000000x6 ![0, 1] bcast_S1x6_S1000000x6_0_1 : (⟨S1x6, .f32⟩ : BufTy).Contents (Elt F) → (⟨S1000000x6, .f32⟩ : BufTy).Contents (Elt F)),
    StableHlo.binary main_v54 main_v52 main_v55 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem sB1_sub : (sB1 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩

/-- The buffers stretch sB1 writes, in order. -/
abbrev sB1_W : List (Ref sig .tc) :=
  [main_v36, main_v37, main_v38, main_v39, main_v40, main_v41, main_v42, main_v43, main_v44, main_v45, main_v46, main_v47, main_v48, main_v49, main_v50, main_v51, main_v52, main_v53, main_v54, main_v55]

/-- Statements 68 to 92 of @main: 25 operations. -/
abbrev sB2 : List (HloOp τ sig (Elt F)) :=
  [ StableHlo.unary main_cst_0 main_v56 ((extractStridedSlice S1x6 ![2, 0] · slices_S7x6_S1x6_2_0) : (⟨S7x6, .f32⟩ : BufTy).Contents (Elt F) → (⟨S1x6, .f32⟩ : BufTy).Contents (Elt F)),
    StableHlo.reshape main_v56 main_v57 rfl shapeCasts_S1x6_S6,
    StableHlo.unary main_v1 main_v58 (broadcastInDim S1000000x1 ![0] bcast_S1000000_S1000000x1_0 : (⟨S1000000, .f32⟩ : BufTy).Contents (Elt F) → (⟨S1000000x1, .f32⟩ : BufTy).Contents (Elt F)),
    StableHlo.unary main_cst main_v59 ((extractStridedSlice S1x6 ![2, 0] · slices_S7x6_S1x6_2_0) : (⟨S7x6, .f32⟩ : BufTy).Contents (Elt F) → (⟨S1x6, .f32⟩ : BufTy).Contents (Elt F)),
    StableHlo.reshape main_v59 main_v60 rfl shapeCasts_S1x6_S6,
    StableHlo.unary main_v60 main_v61 (broadcastInDim S1x6 ![1] bcast_S6_S1x6_1 : (⟨S6, .f32⟩ : BufTy).Contents (Elt F) → (⟨S1x6, .f32⟩ : BufTy).Contents (Elt F)),
    StableHlo.unary main_v58 main_v62 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v61 main_v63 (broadcastInDim S1000000x6 ![0, 1] bcast_S1x6_S1000000x6_0_1 : (⟨S1x6, .f32⟩ : BufTy).Contents (Elt F) → (⟨S1000000x6, .f32⟩ : BufTy).Contents (Elt F)),
    StableHlo.binary main_v62 main_v63 main_v64 (mulf : (⟨S1000000x6, .f32⟩ : BufTy).Contents (Elt F) → (⟨S1000000x6, .f32⟩ : BufTy).Contents (Elt F) → (⟨S1000000x6, .f32⟩ : BufTy).Contents (Elt F)),
    StableHlo.unary main_v64 main_v65 (Host.sin : (⟨S1000000x6, .f32⟩ : BufTy).Contents (Elt F) → (⟨S1000000x6, .f32⟩ : BufTy).Contents (Elt F)),
    StableHlo.binary main_v65 main_v64 main_v66 (Host.divf : (⟨S1000000x6, .f32⟩ : BufTy).Contents (Elt F) → (⟨S1000000x6, .f32⟩ : BufTy).Contents (Elt F) → (⟨S1000000x6, .f32⟩ : BufTy).Contents (Elt F)),
    StableHlo.unary main_v64 main_v67 (Host.sin : (⟨S1000000x6, .f32⟩ : BufTy).Contents (Elt F) → (⟨S1000000x6, .f32⟩ : BufTy).Contents (Elt F)),
    StableHlo.binary main_v64 main_v64 main_v68 (mulf : (⟨S1000000x6, .f32⟩ : BufTy).Contents (Elt F) → (⟨S1000000x6, .f32⟩ : BufTy).Contents (Elt F) → (⟨S1000000x6, .f32⟩ : BufTy).Contents (Elt F)),
    StableHlo.binary main_v67 main_v68 main_v69 (Host.divf : (⟨S1000000x6, .f32⟩ : BufTy).Contents (Elt F) → (⟨S1000000x6, .f32⟩ : BufTy).Contents (Elt F) → (⟨S1000000x6, .f32⟩ : BufTy).Contents (Elt F)),
    StableHlo.unary main_v64 main_v70 (Host.cos : (⟨S1000000x6, .f32⟩ : BufTy).Contents (Elt F) → (⟨S1000000x6, .f32⟩ : BufTy).Contents (Elt F)),
    StableHlo.binary main_v70 main_v64 main_v71 (Host.divf : (⟨S1000000x6, .f32⟩ : BufTy).Contents (Elt F) → (⟨S1000000x6, .f32⟩ : BufTy).Contents (Elt F) → (⟨S1000000x6, .f32⟩ : BufTy).Contents (Elt F)),
    StableHlo.binary main_v69 main_v71 main_v72 (subf : (⟨S1000000x6, .f32⟩ : BufTy).Contents (Elt F) → (⟨S1000000x6, .f32⟩ : BufTy).Contents (Elt F) → (⟨S1000000x6, .f32⟩ : BufTy).Contents (Elt F)),
    StableHlo.nullary main_cst_10 (constant S_ .f32 0x40400000#32),
    StableHlo.unary main_cst_10 main_v73 (broadcastInDim S1000000x6 ![] bcast_S_S1000000x6 : (⟨S_, .f32⟩ : BufTy).Contents (Elt F) → (⟨S1000000x6, .f32⟩ : BufTy).Contents (Elt F)),
    StableHlo.binary main_v73 main_v64 main_v74 (Host.divf : (⟨S1000000x6, .f32⟩ : BufTy).Contents (Elt F) → (⟨S1000000x6, .f32⟩ : BufTy).Contents (Elt F) → (⟨S1000000x6, .f32⟩ : BufTy).Contents (Elt F)),
    StableHlo.binary main_v74 main_v72 main_v75 (mulf : (⟨S1000000x6, .f32⟩ : BufTy).Contents (Elt F) → (⟨S1000000x6, .f32⟩ : BufTy).Contents (Elt F) → (⟨S1000000x6, .f32⟩ : BufTy).Contents (Elt F)),
    StableHlo.binary main_v75 main_v66 main_v76 (subf : (⟨S1000000x6, .f32⟩ : BufTy).Contents (Elt F) → (⟨S1000000x6, .f32⟩ : BufTy).Contents (Elt F) → (⟨S1000000x6, .f32⟩ : BufTy).Contents (Elt F)),
    StableHlo.unary main_v57 main_v77 (broadcastInDim S1x6 ![1] bcast_S6_S1x6_1 : (⟨S6, .f32⟩ : BufTy).Contents (Elt F) → (⟨S1x6, .f32⟩ : BufTy).Contents (Elt F)),
    StableHlo.unary main_v77 main_v78 (broadcastInDim S1000000x6 ![0, 1] bcast_S1x6_S1000000x6_0_1 : (⟨S1x6, .f32⟩ : BufTy).Contents (Elt F) → (⟨S1000000x6, .f32⟩ : BufTy).Contents (Elt F)),
    StableHlo.binary main_v78 main_v76 main_v79 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem sB2_sub : (sB2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩

/-- The buffers stretch sB2 writes, in order. -/
abbrev sB2_W : List (Ref sig .tc) :=
  [main_v56, main_v57, main_v58, main_v59, main_v60, main_v61, main_v62, main_v63, main_v64, main_v65, main_v66, main_v67, main_v68, main_v69, main_v70, main_v71, main_v72, main_cst_10, main_v73, main_v74, main_v75, main_v76, main_v77, main_v78, main_v79]

/-- Statements 93 to 122 of @main: 30 operations. -/
abbrev sB3 : List (HloOp τ sig (Elt F)) :=
  [ StableHlo.unary main_cst_0 main_v80 ((extractStridedSlice S1x6 ![3, 0] · slices_S7x6_S1x6_3_0) : (⟨S7x6, .f32⟩ : BufTy).Contents (Elt F) → (⟨S1x6, .f32⟩ : BufTy).Contents (Elt F)),
    StableHlo.reshape main_v80 main_v81 rfl shapeCasts_S1x6_S6,
    StableHlo.unary main_v1 main_v82 (broadcastInDim S1000000x1 ![0] bcast_S1000000_S1000000x1_0 : (⟨S1000000, .f32⟩ : BufTy).Contents (Elt F) → (⟨S1000000x1, .f32⟩ : BufTy).Contents (Elt F)),
    StableHlo.unary main_cst main_v83 ((extractStridedSlice S1x6 ![3, 0] · slices_S7x6_S1x6_3_0) : (⟨S7x6, .f32⟩ : BufTy).Contents (Elt F) → (⟨S1x6, .f32⟩ : BufTy).Contents (Elt F)),
    StableHlo.reshape main_v83 main_v84 rfl shapeCasts_S1x6_S6,
    StableHlo.unary main_v84 main_v85 (broadcastInDim S1x6 ![1] bcast_S6_S1x6_1 : (⟨S6, .f32⟩ : BufTy).Contents (Elt F) → (⟨S1x6, .f32⟩ : BufTy).Contents (Elt F)),
    StableHlo.unary main_v82 main_v86 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v85 main_v87 (broadcastInDim S1000000x6 ![0, 1] bcast_S1x6_S1000000x6_0_1 : (⟨S1x6, .f32⟩ : BufTy).Contents (Elt F) → (⟨S1000000x6, .f32⟩ : BufTy).Contents (Elt F)),
    StableHlo.binary main_v86 main_v87 main_v88 (mulf : (⟨S1000000x6, .f32⟩ : BufTy).Contents (Elt F) → (⟨S1000000x6, .f32⟩ : BufTy).Contents (Elt F) → (⟨S1000000x6, .f32⟩ : BufTy).Contents (Elt F)),
    StableHlo.unary main_v88 main_v89 (Host.sin : (⟨S1000000x6, .f32⟩ : BufTy).Contents (Elt F) → (⟨S1000000x6, .f32⟩ : BufTy).Contents (Elt F)),
    StableHlo.binary main_v89 main_v88 main_v90 (Host.divf : (⟨S1000000x6, .f32⟩ : BufTy).Contents (Elt F) → (⟨S1000000x6, .f32⟩ : BufTy).Contents (Elt F) → (⟨S1000000x6, .f32⟩ : BufTy).Contents (Elt F)),
    StableHlo.unary main_v88 main_v91 (Host.sin : (⟨S1000000x6, .f32⟩ : BufTy).Contents (Elt F) → (⟨S1000000x6, .f32⟩ : BufTy).Contents (Elt F)),
    StableHlo.binary main_v88 main_v88 main_v92 (mulf : (⟨S1000000x6, .f32⟩ : BufTy).Contents (Elt F) → (⟨S1000000x6, .f32⟩ : BufTy).Contents (Elt F) → (⟨S1000000x6, .f32⟩ : BufTy).Contents (Elt F)),
    StableHlo.binary main_v91 main_v92 main_v93 (Host.divf : (⟨S1000000x6, .f32⟩ : BufTy).Contents (Elt F) → (⟨S1000000x6, .f32⟩ : BufTy).Contents (Elt F) → (⟨S1000000x6, .f32⟩ : BufTy).Contents (Elt F)),
    StableHlo.unary main_v88 main_v94 (Host.cos : (⟨S1000000x6, .f32⟩ : BufTy).Contents (Elt F) → (⟨S1000000x6, .f32⟩ : BufTy).Contents (Elt F)),
    StableHlo.binary main_v94 main_v88 main_v95 (Host.divf : (⟨S1000000x6, .f32⟩ : BufTy).Contents (Elt F) → (⟨S1000000x6, .f32⟩ : BufTy).Contents (Elt F) → (⟨S1000000x6, .f32⟩ : BufTy).Contents (Elt F)),
    StableHlo.binary main_v93 main_v95 main_v96 (subf : (⟨S1000000x6, .f32⟩ : BufTy).Contents (Elt F) → (⟨S1000000x6, .f32⟩ : BufTy).Contents (Elt F) → (⟨S1000000x6, .f32⟩ : BufTy).Contents (Elt F)),
    StableHlo.nullary main_cst_11 (constant S_ .f32 0x40400000#32),
    StableHlo.unary main_cst_11 main_v97 (broadcastInDim S1000000x6 ![] bcast_S_S1000000x6 : (⟨S_, .f32⟩ : BufTy).Contents (Elt F) → (⟨S1000000x6, .f32⟩ : BufTy).Contents (Elt F)),
    StableHlo.binary main_v97 main_v88 main_v98 (Host.divf : (⟨S1000000x6, .f32⟩ : BufTy).Contents (Elt F) → (⟨S1000000x6, .f32⟩ : BufTy).Contents (Elt F) → (⟨S1000000x6, .f32⟩ : BufTy).Contents (Elt F)),
    StableHlo.binary main_v98 main_v96 main_v99 (mulf : (⟨S1000000x6, .f32⟩ : BufTy).Contents (Elt F) → (⟨S1000000x6, .f32⟩ : BufTy).Contents (Elt F) → (⟨S1000000x6, .f32⟩ : BufTy).Contents (Elt F)),
    StableHlo.binary main_v99 main_v90 main_v100 (subf : (⟨S1000000x6, .f32⟩ : BufTy).Contents (Elt F) → (⟨S1000000x6, .f32⟩ : BufTy).Contents (Elt F) → (⟨S1000000x6, .f32⟩ : BufTy).Contents (Elt F)),
    StableHlo.nullary main_cst_12 (constant S_ .f32 0x40A00000#32),
    StableHlo.unary main_cst_12 main_v101 (broadcastInDim S1000000x6 ![] bcast_S_S1000000x6 : (⟨S_, .f32⟩ : BufTy).Contents (Elt F) → (⟨S1000000x6, .f32⟩ : BufTy).Contents (Elt F)),
    StableHlo.binary main_v101 main_v88 main_v102 (Host.divf : (⟨S1000000x6, .f32⟩ : BufTy).Contents (Elt F) → (⟨S1000000x6, .f32⟩ : BufTy).Contents (Elt F) → (⟨S1000000x6, .f32⟩ : BufTy).Contents (Elt F)),
    StableHlo.binary main_v102 main_v100 main_v103 (mulf : (⟨S1000000x6, .f32⟩ : BufTy).Contents (Elt F) → (⟨S1000000x6, .f32⟩ : BufTy).Contents (Elt F) → (⟨S1000000x6, .f32⟩ : BufTy).Contents (Elt F)),
    StableHlo.binary main_v103 main_v96 main_v104 (subf : (⟨S1000000x6, .f32⟩ : BufTy).Contents (Elt F) → (⟨S1000000x6, .f32⟩ : BufTy).Contents (Elt F) → (⟨S1000000x6, .f32⟩ : BufTy).Contents (Elt F)),
    StableHlo.unary main_v81 main_v105 (broadcastInDim S1x6 ![1] bcast_S6_S1x6_1 : (⟨S6, .f32⟩ : BufTy).Contents (Elt F) → (⟨S1x6, .f32⟩ : BufTy).Contents (Elt F)),
    StableHlo.unary main_v105 main_v106 (broadcastInDim S1000000x6 ![0, 1] bcast_S1x6_S1000000x6_0_1 : (⟨S1x6, .f32⟩ : BufTy).Contents (Elt F) → (⟨S1000000x6, .f32⟩ : BufTy).Contents (Elt F)),
    StableHlo.binary main_v106 main_v104 main_v107 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem sB3_sub : (sB3 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩

/-- The buffers stretch sB3 writes, in order. -/
abbrev sB3_W : List (Ref sig .tc) :=
  [main_v80, main_v81, main_v82, main_v83, main_v84, main_v85, main_v86, main_v87, main_v88, main_v89, main_v90, main_v91, main_v92, main_v93, main_v94, main_v95, main_v96, main_cst_11, main_v97, main_v98, main_v99, main_v100, main_cst_12, main_v101, main_v102, main_v103, main_v104, main_v105, main_v106, main_v107]

/-- Statements 123 to 157 of @main: 35 operations. -/
abbrev sB4 : List (HloOp τ sig (Elt F)) :=
  [ StableHlo.unary main_cst_0 main_v108 ((extractStridedSlice S1x6 ![4, 0] · slices_S7x6_S1x6_4_0) : (⟨S7x6, .f32⟩ : BufTy).Contents (Elt F) → (⟨S1x6, .f32⟩ : BufTy).Contents (Elt F)),
    StableHlo.reshape main_v108 main_v109 rfl shapeCasts_S1x6_S6,
    StableHlo.unary main_v1 main_v110 (broadcastInDim S1000000x1 ![0] bcast_S1000000_S1000000x1_0 : (⟨S1000000, .f32⟩ : BufTy).Contents (Elt F) → (⟨S1000000x1, .f32⟩ : BufTy).Contents (Elt F)),
    StableHlo.unary main_cst main_v111 ((extractStridedSlice S1x6 ![4, 0] · slices_S7x6_S1x6_4_0) : (⟨S7x6, .f32⟩ : BufTy).Contents (Elt F) → (⟨S1x6, .f32⟩ : BufTy).Contents (Elt F)),
    StableHlo.reshape main_v111 main_v112 rfl shapeCasts_S1x6_S6,
    StableHlo.unary main_v112 main_v113 (broadcastInDim S1x6 ![1] bcast_S6_S1x6_1 : (⟨S6, .f32⟩ : BufTy).Contents (Elt F) → (⟨S1x6, .f32⟩ : BufTy).Contents (Elt F)),
    StableHlo.unary main_v110 main_v114 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v113 main_v115 (broadcastInDim S1000000x6 ![0, 1] bcast_S1x6_S1000000x6_0_1 : (⟨S1x6, .f32⟩ : BufTy).Contents (Elt F) → (⟨S1000000x6, .f32⟩ : BufTy).Contents (Elt F)),
    StableHlo.binary main_v114 main_v115 main_v116 (mulf : (⟨S1000000x6, .f32⟩ : BufTy).Contents (Elt F) → (⟨S1000000x6, .f32⟩ : BufTy).Contents (Elt F) → (⟨S1000000x6, .f32⟩ : BufTy).Contents (Elt F)),
    StableHlo.unary main_v116 main_v117 (Host.sin : (⟨S1000000x6, .f32⟩ : BufTy).Contents (Elt F) → (⟨S1000000x6, .f32⟩ : BufTy).Contents (Elt F)),
    StableHlo.binary main_v117 main_v116 main_v118 (Host.divf : (⟨S1000000x6, .f32⟩ : BufTy).Contents (Elt F) → (⟨S1000000x6, .f32⟩ : BufTy).Contents (Elt F) → (⟨S1000000x6, .f32⟩ : BufTy).Contents (Elt F)),
    StableHlo.unary main_v116 main_v119 (Host.sin : (⟨S1000000x6, .f32⟩ : BufTy).Contents (Elt F) → (⟨S1000000x6, .f32⟩ : BufTy).Contents (Elt F)),
    StableHlo.binary main_v116 main_v116 main_v120 (mulf : (⟨S1000000x6, .f32⟩ : BufTy).Contents (Elt F) → (⟨S1000000x6, .f32⟩ : BufTy).Contents (Elt F) → (⟨S1000000x6, .f32⟩ : BufTy).Contents (Elt F)),
    StableHlo.binary main_v119 main_v120 main_v121 (Host.divf : (⟨S1000000x6, .f32⟩ : BufTy).Contents (Elt F) → (⟨S1000000x6, .f32⟩ : BufTy).Contents (Elt F) → (⟨S1000000x6, .f32⟩ : BufTy).Contents (Elt F)),
    StableHlo.unary main_v116 main_v122 (Host.cos : (⟨S1000000x6, .f32⟩ : BufTy).Contents (Elt F) → (⟨S1000000x6, .f32⟩ : BufTy).Contents (Elt F)),
    StableHlo.binary main_v122 main_v116 main_v123 (Host.divf : (⟨S1000000x6, .f32⟩ : BufTy).Contents (Elt F) → (⟨S1000000x6, .f32⟩ : BufTy).Contents (Elt F) → (⟨S1000000x6, .f32⟩ : BufTy).Contents (Elt F)),
    StableHlo.binary main_v121 main_v123 main_v124 (subf : (⟨S1000000x6, .f32⟩ : BufTy).Contents (Elt F) → (⟨S1000000x6, .f32⟩ : BufTy).Contents (Elt F) → (⟨S1000000x6, .f32⟩ : BufTy).Contents (Elt F)),
    StableHlo.nullary main_cst_13 (constant S_ .f32 0x40400000#32),
    StableHlo.unary main_cst_13 main_v125 (broadcastInDim S1000000x6 ![] bcast_S_S1000000x6 : (⟨S_, .f32⟩ : BufTy).Contents (Elt F) → (⟨S1000000x6, .f32⟩ : BufTy).Contents (Elt F)),
    StableHlo.binary main_v125 main_v116 main_v126 (Host.divf : (⟨S1000000x6, .f32⟩ : BufTy).Contents (Elt F) → (⟨S1000000x6, .f32⟩ : BufTy).Contents (Elt F) → (⟨S1000000x6, .f32⟩ : BufTy).Contents (Elt F)),
    StableHlo.binary main_v126 main_v124 main_v127 (mulf : (⟨S1000000x6, .f32⟩ : BufTy).Contents (Elt F) → (⟨S1000000x6, .f32⟩ : BufTy).Contents (Elt F) → (⟨S1000000x6, .f32⟩ : BufTy).Contents (Elt F)),
    StableHlo.binary main_v127 main_v118 main_v128 (subf : (⟨S1000000x6, .f32⟩ : BufTy).Contents (Elt F) → (⟨S1000000x6, .f32⟩ : BufTy).Contents (Elt F) → (⟨S1000000x6, .f32⟩ : BufTy).Contents (Elt F)),
    StableHlo.nullary main_cst_14 (constant S_ .f32 0x40A00000#32),
    StableHlo.unary main_cst_14 main_v129 (broadcastInDim S1000000x6 ![] bcast_S_S1000000x6 : (⟨S_, .f32⟩ : BufTy).Contents (Elt F) → (⟨S1000000x6, .f32⟩ : BufTy).Contents (Elt F)),
    StableHlo.binary main_v129 main_v116 main_v130 (Host.divf : (⟨S1000000x6, .f32⟩ : BufTy).Contents (Elt F) → (⟨S1000000x6, .f32⟩ : BufTy).Contents (Elt F) → (⟨S1000000x6, .f32⟩ : BufTy).Contents (Elt F)),
    StableHlo.binary main_v130 main_v128 main_v131 (mulf : (⟨S1000000x6, .f32⟩ : BufTy).Contents (Elt F) → (⟨S1000000x6, .f32⟩ : BufTy).Contents (Elt F) → (⟨S1000000x6, .f32⟩ : BufTy).Contents (Elt F)),
    StableHlo.binary main_v131 main_v124 main_v132 (subf : (⟨S1000000x6, .f32⟩ : BufTy).Contents (Elt F) → (⟨S1000000x6, .f32⟩ : BufTy).Contents (Elt F) → (⟨S1000000x6, .f32⟩ : BufTy).Contents (Elt F)),
    StableHlo.nullary main_cst_15 (constant S_ .f32 0x40E00000#32),
    StableHlo.unary main_cst_15 main_v133 (broadcastInDim S1000000x6 ![] bcast_S_S1000000x6 : (⟨S_, .f32⟩ : BufTy).Contents (Elt F) → (⟨S1000000x6, .f32⟩ : BufTy).Contents (Elt F)),
    StableHlo.binary main_v133 main_v116 main_v134 (Host.divf : (⟨S1000000x6, .f32⟩ : BufTy).Contents (Elt F) → (⟨S1000000x6, .f32⟩ : BufTy).Contents (Elt F) → (⟨S1000000x6, .f32⟩ : BufTy).Contents (Elt F)),
    StableHlo.binary main_v134 main_v132 main_v135 (mulf : (⟨S1000000x6, .f32⟩ : BufTy).Contents (Elt F) → (⟨S1000000x6, .f32⟩ : BufTy).Contents (Elt F) → (⟨S1000000x6, .f32⟩ : BufTy).Contents (Elt F)),
    StableHlo.binary main_v135 main_v128 main_v136 (subf : (⟨S1000000x6, .f32⟩ : BufTy).Contents (Elt F) → (⟨S1000000x6, .f32⟩ : BufTy).Contents (Elt F) → (⟨S1000000x6, .f32⟩ : BufTy).Contents (Elt F)),
    StableHlo.unary main_v109 main_v137 (broadcastInDim S1x6 ![1] bcast_S6_S1x6_1 : (⟨S6, .f32⟩ : BufTy).Contents (Elt F) → (⟨S1x6, .f32⟩ : BufTy).Contents (Elt F)),
    StableHlo.unary main_v137 main_v138 (broadcastInDim S1000000x6 ![0, 1] bcast_S1x6_S1000000x6_0_1 : (⟨S1x6, .f32⟩ : BufTy).Contents (Elt F) → (⟨S1000000x6, .f32⟩ : BufTy).Contents (Elt F)),
    StableHlo.binary main_v138 main_v136 main_v139 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem sB4_sub : (sB4 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩

/-- The buffers stretch sB4 writes, in order. -/
abbrev sB4_W : List (Ref sig .tc) :=
  [main_v108, main_v109, main_v110, main_v111, main_v112, main_v113, main_v114, main_v115, main_v116, main_v117, main_v118, main_v119, main_v120, main_v121, main_v122, main_v123, main_v124, main_cst_13, main_v125, main_v126, main_v127, main_v128, main_cst_14, main_v129, main_v130, main_v131, main_v132, main_cst_15, main_v133, main_v134, main_v135, main_v136, main_v137, main_v138, main_v139]

/-- Statements 158 to 197 of @main: 40 operations. -/
abbrev sB5 : List (HloOp τ sig (Elt F)) :=
  [ StableHlo.unary main_cst_0 main_v140 ((extractStridedSlice S1x6 ![5, 0] · slices_S7x6_S1x6_5_0) : (⟨S7x6, .f32⟩ : BufTy).Contents (Elt F) → (⟨S1x6, .f32⟩ : BufTy).Contents (Elt F)),
    StableHlo.reshape main_v140 main_v141 rfl shapeCasts_S1x6_S6,
    StableHlo.unary main_v1 main_v142 (broadcastInDim S1000000x1 ![0] bcast_S1000000_S1000000x1_0 : (⟨S1000000, .f32⟩ : BufTy).Contents (Elt F) → (⟨S1000000x1, .f32⟩ : BufTy).Contents (Elt F)),
    StableHlo.unary main_cst main_v143 ((extractStridedSlice S1x6 ![5, 0] · slices_S7x6_S1x6_5_0) : (⟨S7x6, .f32⟩ : BufTy).Contents (Elt F) → (⟨S1x6, .f32⟩ : BufTy).Contents (Elt F)),
    StableHlo.reshape main_v143 main_v144 rfl shapeCasts_S1x6_S6,
    StableHlo.unary main_v144 main_v145 (broadcastInDim S1x6 ![1] bcast_S6_S1x6_1 : (⟨S6, .f32⟩ : BufTy).Contents (Elt F) → (⟨S1x6, .f32⟩ : BufTy).Contents (Elt F)),
    StableHlo.unary main_v142 main_v146 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v145 main_v147 (broadcastInDim S1000000x6 ![0, 1] bcast_S1x6_S1000000x6_0_1 : (⟨S1x6, .f32⟩ : BufTy).Contents (Elt F) → (⟨S1000000x6, .f32⟩ : BufTy).Contents (Elt F)),
    StableHlo.binary main_v146 main_v147 main_v148 (mulf : (⟨S1000000x6, .f32⟩ : BufTy).Contents (Elt F) → (⟨S1000000x6, .f32⟩ : BufTy).Contents (Elt F) → (⟨S1000000x6, .f32⟩ : BufTy).Contents (Elt F)),
    StableHlo.unary main_v148 main_v149 (Host.sin : (⟨S1000000x6, .f32⟩ : BufTy).Contents (Elt F) → (⟨S1000000x6, .f32⟩ : BufTy).Contents (Elt F)),
    StableHlo.binary main_v149 main_v148 main_v150 (Host.divf : (⟨S1000000x6, .f32⟩ : BufTy).Contents (Elt F) → (⟨S1000000x6, .f32⟩ : BufTy).Contents (Elt F) → (⟨S1000000x6, .f32⟩ : BufTy).Contents (Elt F)),
    StableHlo.unary main_v148 main_v151 (Host.sin : (⟨S1000000x6, .f32⟩ : BufTy).Contents (Elt F) → (⟨S1000000x6, .f32⟩ : BufTy).Contents (Elt F)),
    StableHlo.binary main_v148 main_v148 main_v152 (mulf : (⟨S1000000x6, .f32⟩ : BufTy).Contents (Elt F) → (⟨S1000000x6, .f32⟩ : BufTy).Contents (Elt F) → (⟨S1000000x6, .f32⟩ : BufTy).Contents (Elt F)),
    StableHlo.binary main_v151 main_v152 main_v153 (Host.divf : (⟨S1000000x6, .f32⟩ : BufTy).Contents (Elt F) → (⟨S1000000x6, .f32⟩ : BufTy).Contents (Elt F) → (⟨S1000000x6, .f32⟩ : BufTy).Contents (Elt F)),
    StableHlo.unary main_v148 main_v154 (Host.cos : (⟨S1000000x6, .f32⟩ : BufTy).Contents (Elt F) → (⟨S1000000x6, .f32⟩ : BufTy).Contents (Elt F)),
    StableHlo.binary main_v154 main_v148 main_v155 (Host.divf : (⟨S1000000x6, .f32⟩ : BufTy).Contents (Elt F) → (⟨S1000000x6, .f32⟩ : BufTy).Contents (Elt F) → (⟨S1000000x6, .f32⟩ : BufTy).Contents (Elt F)),
    StableHlo.binary main_v153 main_v155 main_v156 (subf : (⟨S1000000x6, .f32⟩ : BufTy).Contents (Elt F) → (⟨S1000000x6, .f32⟩ : BufTy).Contents (Elt F) → (⟨S1000000x6, .f32⟩ : BufTy).Contents (Elt F)),
    StableHlo.nullary main_cst_16 (constant S_ .f32 0x40400000#32),
    StableHlo.unary main_cst_16 main_v157 (broadcastInDim S1000000x6 ![] bcast_S_S1000000x6 : (⟨S_, .f32⟩ : BufTy).Contents (Elt F) → (⟨S1000000x6, .f32⟩ : BufTy).Contents (Elt F)),
    StableHlo.binary main_v157 main_v148 main_v158 (Host.divf : (⟨S1000000x6, .f32⟩ : BufTy).Contents (Elt F) → (⟨S1000000x6, .f32⟩ : BufTy).Contents (Elt F) → (⟨S1000000x6, .f32⟩ : BufTy).Contents (Elt F)),
    StableHlo.binary main_v158 main_v156 main_v159 (mulf : (⟨S1000000x6, .f32⟩ : BufTy).Contents (Elt F) → (⟨S1000000x6, .f32⟩ : BufTy).Contents (Elt F) → (⟨S1000000x6, .f32⟩ : BufTy).Contents (Elt F)),
    StableHlo.binary main_v159 main_v150 main_v160 (subf : (⟨S1000000x6, .f32⟩ : BufTy).Contents (Elt F) → (⟨S1000000x6, .f32⟩ : BufTy).Contents (Elt F) → (⟨S1000000x6, .f32⟩ : BufTy).Contents (Elt F)),
    StableHlo.nullary main_cst_17 (constant S_ .f32 0x40A00000#32),
    StableHlo.unary main_cst_17 main_v161 (broadcastInDim S1000000x6 ![] bcast_S_S1000000x6 : (⟨S_, .f32⟩ : BufTy).Contents (Elt F) → (⟨S1000000x6, .f32⟩ : BufTy).Contents (Elt F)),
    StableHlo.binary main_v161 main_v148 main_v162 (Host.divf : (⟨S1000000x6, .f32⟩ : BufTy).Contents (Elt F) → (⟨S1000000x6, .f32⟩ : BufTy).Contents (Elt F) → (⟨S1000000x6, .f32⟩ : BufTy).Contents (Elt F)),
    StableHlo.binary main_v162 main_v160 main_v163 (mulf : (⟨S1000000x6, .f32⟩ : BufTy).Contents (Elt F) → (⟨S1000000x6, .f32⟩ : BufTy).Contents (Elt F) → (⟨S1000000x6, .f32⟩ : BufTy).Contents (Elt F)),
    StableHlo.binary main_v163 main_v156 main_v164 (subf : (⟨S1000000x6, .f32⟩ : BufTy).Contents (Elt F) → (⟨S1000000x6, .f32⟩ : BufTy).Contents (Elt F) → (⟨S1000000x6, .f32⟩ : BufTy).Contents (Elt F)),
    StableHlo.nullary main_cst_18 (constant S_ .f32 0x40E00000#32),
    StableHlo.unary main_cst_18 main_v165 (broadcastInDim S1000000x6 ![] bcast_S_S1000000x6 : (⟨S_, .f32⟩ : BufTy).Contents (Elt F) → (⟨S1000000x6, .f32⟩ : BufTy).Contents (Elt F)),
    StableHlo.binary main_v165 main_v148 main_v166 (Host.divf : (⟨S1000000x6, .f32⟩ : BufTy).Contents (Elt F) → (⟨S1000000x6, .f32⟩ : BufTy).Contents (Elt F) → (⟨S1000000x6, .f32⟩ : BufTy).Contents (Elt F)),
    StableHlo.binary main_v166 main_v164 main_v167 (mulf : (⟨S1000000x6, .f32⟩ : BufTy).Contents (Elt F) → (⟨S1000000x6, .f32⟩ : BufTy).Contents (Elt F) → (⟨S1000000x6, .f32⟩ : BufTy).Contents (Elt F)),
    StableHlo.binary main_v167 main_v160 main_v168 (subf : (⟨S1000000x6, .f32⟩ : BufTy).Contents (Elt F) → (⟨S1000000x6, .f32⟩ : BufTy).Contents (Elt F) → (⟨S1000000x6, .f32⟩ : BufTy).Contents (Elt F)),
    StableHlo.nullary main_cst_19 (constant S_ .f32 0x41100000#32),
    StableHlo.unary main_cst_19 main_v169 (broadcastInDim S1000000x6 ![] bcast_S_S1000000x6 : (⟨S_, .f32⟩ : BufTy).Contents (Elt F) → (⟨S1000000x6, .f32⟩ : BufTy).Contents (Elt F)),
    StableHlo.binary main_v169 main_v148 main_v170 (Host.divf : (⟨S1000000x6, .f32⟩ : BufTy).Contents (Elt F) → (⟨S1000000x6, .f32⟩ : BufTy).Contents (Elt F) → (⟨S1000000x6, .f32⟩ : BufTy).Contents (Elt F)),
    StableHlo.binary main_v170 main_v168 main_v171 (mulf : (⟨S1000000x6, .f32⟩ : BufTy).Contents (Elt F) → (⟨S1000000x6, .f32⟩ : BufTy).Contents (Elt F) → (⟨S1000000x6, .f32⟩ : BufTy).Contents (Elt F)),
    StableHlo.binary main_v171 main_v164 main_v172 (subf : (⟨S1000000x6, .f32⟩ : BufTy).Contents (Elt F) → (⟨S1000000x6, .f32⟩ : BufTy).Contents (Elt F) → (⟨S1000000x6, .f32⟩ : BufTy).Contents (Elt F)),
    StableHlo.unary main_v141 main_v173 (broadcastInDim S1x6 ![1] bcast_S6_S1x6_1 : (⟨S6, .f32⟩ : BufTy).Contents (Elt F) → (⟨S1x6, .f32⟩ : BufTy).Contents (Elt F)),
    StableHlo.unary main_v173 main_v174 (broadcastInDim S1000000x6 ![0, 1] bcast_S1x6_S1000000x6_0_1 : (⟨S1x6, .f32⟩ : BufTy).Contents (Elt F) → (⟨S1000000x6, .f32⟩ : BufTy).Contents (Elt F)),
    StableHlo.binary main_v174 main_v172 main_v175 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem sB5_sub : (sB5 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩

/-- The buffers stretch sB5 writes, in order. -/
abbrev sB5_W : List (Ref sig .tc) :=
  [main_v140, main_v141, main_v142, main_v143, main_v144, main_v145, main_v146, main_v147, main_v148, main_v149, main_v150, main_v151, main_v152, main_v153, main_v154, main_v155, main_v156, main_cst_16, main_v157, main_v158, main_v159, main_v160, main_cst_17, main_v161, main_v162, main_v163, main_v164, main_cst_18, main_v165, main_v166, main_v167, main_v168, main_cst_19, main_v169, main_v170, main_v171, main_v172, main_v173, main_v174, main_v175]

/-- Statements 198 to 242 of @main: 45 operations. -/
abbrev sB6 : List (HloOp τ sig (Elt F)) :=
  [ StableHlo.unary main_cst_0 main_v176 ((extractStridedSlice S1x6 ![6, 0] · slices_S7x6_S1x6_6_0) : (⟨S7x6, .f32⟩ : BufTy).Contents (Elt F) → (⟨S1x6, .f32⟩ : BufTy).Contents (Elt F)),
    StableHlo.reshape main_v176 main_v177 rfl shapeCasts_S1x6_S6,
    StableHlo.unary main_v1 main_v178 (broadcastInDim S1000000x1 ![0] bcast_S1000000_S1000000x1_0 : (⟨S1000000, .f32⟩ : BufTy).Contents (Elt F) → (⟨S1000000x1, .f32⟩ : BufTy).Contents (Elt F)),
    StableHlo.unary main_cst main_v179 ((extractStridedSlice S1x6 ![6, 0] · slices_S7x6_S1x6_6_0) : (⟨S7x6, .f32⟩ : BufTy).Contents (Elt F) → (⟨S1x6, .f32⟩ : BufTy).Contents (Elt F)),
    StableHlo.reshape main_v179 main_v180 rfl shapeCasts_S1x6_S6,
    StableHlo.unary main_v180 main_v181 (broadcastInDim S1x6 ![1] bcast_S6_S1x6_1 : (⟨S6, .f32⟩ : BufTy).Contents (Elt F) → (⟨S1x6, .f32⟩ : BufTy).Contents (Elt F)),
    StableHlo.unary main_v178 main_v182 (broadcastInDim S1000000x6 ![0, 1] bcast_S1000000x1_S1000000x6_0_1 : (⟨S1000000x1, .f32⟩ : BufTy).Contents (Elt F) → (⟨S1000000x6, .f32⟩ : BufTy).Contents (Elt F)),
    StableHlo.unary main_v181 main_v183 (broadcastInDim S1000000x6 ![0, 1] bcast_S1x6_S1000000x6_0_1 : (⟨S1x6, .f32⟩ : BufTy).Contents (Elt F) → (⟨S1000000x6, .f32⟩ : BufTy).Contents (Elt F)),
    StableHlo.binary main_v182 main_v183 main_v184 (mulf : (⟨S1000000x6, .f32⟩ : BufTy).Contents (Elt F) → (⟨S1000000x6, .f32⟩ : BufTy).Contents (Elt F) → (⟨S1000000x6, .f32⟩ : BufTy).Contents (Elt F)),
    StableHlo.unary main_v184 main_v185 (Host.sin : (⟨S1000000x6, .f32⟩ : BufTy).Contents (Elt F) → (⟨S1000000x6, .f32⟩ : BufTy).Contents (Elt F)),
    StableHlo.binary main_v185 main_v184 main_v186 (Host.divf : (⟨S1000000x6, .f32⟩ : BufTy).Contents (Elt F) → (⟨S1000000x6, .f32⟩ : BufTy).Contents (Elt F) → (⟨S1000000x6, .f32⟩ : BufTy).Contents (Elt F)),
    StableHlo.unary main_v184 main_v187 (Host.sin : (⟨S1000000x6, .f32⟩ : BufTy).Contents (Elt F) → (⟨S1000000x6, .f32⟩ : BufTy).Contents (Elt F)),
    StableHlo.binary main_v184 main_v184 main_v188 (mulf : (⟨S1000000x6, .f32⟩ : BufTy).Contents (Elt F) → (⟨S1000000x6, .f32⟩ : BufTy).Contents (Elt F) → (⟨S1000000x6, .f32⟩ : BufTy).Contents (Elt F)),
    StableHlo.binary main_v187 main_v188 main_v189 (Host.divf : (⟨S1000000x6, .f32⟩ : BufTy).Contents (Elt F) → (⟨S1000000x6, .f32⟩ : BufTy).Contents (Elt F) → (⟨S1000000x6, .f32⟩ : BufTy).Contents (Elt F)),
    StableHlo.unary main_v184 main_v190 (Host.cos : (⟨S1000000x6, .f32⟩ : BufTy).Contents (Elt F) → (⟨S1000000x6, .f32⟩ : BufTy).Contents (Elt F)),
    StableHlo.binary main_v190 main_v184 main_v191 (Host.divf : (⟨S1000000x6, .f32⟩ : BufTy).Contents (Elt F) → (⟨S1000000x6, .f32⟩ : BufTy).Contents (Elt F) → (⟨S1000000x6, .f32⟩ : BufTy).Contents (Elt F)),
    StableHlo.binary main_v189 main_v191 main_v192 (subf : (⟨S1000000x6, .f32⟩ : BufTy).Contents (Elt F) → (⟨S1000000x6, .f32⟩ : BufTy).Contents (Elt F) → (⟨S1000000x6, .f32⟩ : BufTy).Contents (Elt F)),
    StableHlo.nullary main_cst_20 (constant S_ .f32 0x40400000#32),
    StableHlo.unary main_cst_20 main_v193 (broadcastInDim S1000000x6 ![] bcast_S_S1000000x6 : (⟨S_, .f32⟩ : BufTy).Contents (Elt F) → (⟨S1000000x6, .f32⟩ : BufTy).Contents (Elt F)),
    StableHlo.binary main_v193 main_v184 main_v194 (Host.divf : (⟨S1000000x6, .f32⟩ : BufTy).Contents (Elt F) → (⟨S1000000x6, .f32⟩ : BufTy).Contents (Elt F) → (⟨S1000000x6, .f32⟩ : BufTy).Contents (Elt F)),
    StableHlo.binary main_v194 main_v192 main_v195 (mulf : (⟨S1000000x6, .f32⟩ : BufTy).Contents (Elt F) → (⟨S1000000x6, .f32⟩ : BufTy).Contents (Elt F) → (⟨S1000000x6, .f32⟩ : BufTy).Contents (Elt F)),
    StableHlo.binary main_v195 main_v186 main_v196 (subf : (⟨S1000000x6, .f32⟩ : BufTy).Contents (Elt F) → (⟨S1000000x6, .f32⟩ : BufTy).Contents (Elt F) → (⟨S1000000x6, .f32⟩ : BufTy).Contents (Elt F)),
    StableHlo.nullary main_cst_21 (constant S_ .f32 0x40A00000#32),
    StableHlo.unary main_cst_21 main_v197 (broadcastInDim S1000000x6 ![] bcast_S_S1000000x6 : (⟨S_, .f32⟩ : BufTy).Contents (Elt F) → (⟨S1000000x6, .f32⟩ : BufTy).Contents (Elt F)),
    StableHlo.binary main_v197 main_v184 main_v198 (Host.divf : (⟨S1000000x6, .f32⟩ : BufTy).Contents (Elt F) → (⟨S1000000x6, .f32⟩ : BufTy).Contents (Elt F) → (⟨S1000000x6, .f32⟩ : BufTy).Contents (Elt F)),
    StableHlo.binary main_v198 main_v196 main_v199 (mulf : (⟨S1000000x6, .f32⟩ : BufTy).Contents (Elt F) → (⟨S1000000x6, .f32⟩ : BufTy).Contents (Elt F) → (⟨S1000000x6, .f32⟩ : BufTy).Contents (Elt F)),
    StableHlo.binary main_v199 main_v192 main_v200 (subf : (⟨S1000000x6, .f32⟩ : BufTy).Contents (Elt F) → (⟨S1000000x6, .f32⟩ : BufTy).Contents (Elt F) → (⟨S1000000x6, .f32⟩ : BufTy).Contents (Elt F)),
    StableHlo.nullary main_cst_22 (constant S_ .f32 0x40E00000#32),
    StableHlo.unary main_cst_22 main_v201 (broadcastInDim S1000000x6 ![] bcast_S_S1000000x6 : (⟨S_, .f32⟩ : BufTy).Contents (Elt F) → (⟨S1000000x6, .f32⟩ : BufTy).Contents (Elt F)),
    StableHlo.binary main_v201 main_v184 main_v202 (Host.divf : (⟨S1000000x6, .f32⟩ : BufTy).Contents (Elt F) → (⟨S1000000x6, .f32⟩ : BufTy).Contents (Elt F) → (⟨S1000000x6, .f32⟩ : BufTy).Contents (Elt F)),
    StableHlo.binary main_v202 main_v200 main_v203 (mulf : (⟨S1000000x6, .f32⟩ : BufTy).Contents (Elt F) → (⟨S1000000x6, .f32⟩ : BufTy).Contents (Elt F) → (⟨S1000000x6, .f32⟩ : BufTy).Contents (Elt F)),
    StableHlo.binary main_v203 main_v196 main_v204 (subf : (⟨S1000000x6, .f32⟩ : BufTy).Contents (Elt F) → (⟨S1000000x6, .f32⟩ : BufTy).Contents (Elt F) → (⟨S1000000x6, .f32⟩ : BufTy).Contents (Elt F)),
    StableHlo.nullary main_cst_23 (constant S_ .f32 0x41100000#32),
    StableHlo.unary main_cst_23 main_v205 (broadcastInDim S1000000x6 ![] bcast_S_S1000000x6 : (⟨S_, .f32⟩ : BufTy).Contents (Elt F) → (⟨S1000000x6, .f32⟩ : BufTy).Contents (Elt F)),
    StableHlo.binary main_v205 main_v184 main_v206 (Host.divf : (⟨S1000000x6, .f32⟩ : BufTy).Contents (Elt F) → (⟨S1000000x6, .f32⟩ : BufTy).Contents (Elt F) → (⟨S1000000x6, .f32⟩ : BufTy).Contents (Elt F)),
    StableHlo.binary main_v206 main_v204 main_v207 (mulf : (⟨S1000000x6, .f32⟩ : BufTy).Contents (Elt F) → (⟨S1000000x6, .f32⟩ : BufTy).Contents (Elt F) → (⟨S1000000x6, .f32⟩ : BufTy).Contents (Elt F)),
    StableHlo.binary main_v207 main_v200 main_v208 (subf : (⟨S1000000x6, .f32⟩ : BufTy).Contents (Elt F) → (⟨S1000000x6, .f32⟩ : BufTy).Contents (Elt F) → (⟨S1000000x6, .f32⟩ : BufTy).Contents (Elt F)),
    StableHlo.nullary main_cst_24 (constant S_ .f32 0x41300000#32),
    StableHlo.unary main_cst_24 main_v209 (broadcastInDim S1000000x6 ![] bcast_S_S1000000x6 : (⟨S_, .f32⟩ : BufTy).Contents (Elt F) → (⟨S1000000x6, .f32⟩ : BufTy).Contents (Elt F)),
    StableHlo.binary main_v209 main_v184 main_v210 (Host.divf : (⟨S1000000x6, .f32⟩ : BufTy).Contents (Elt F) → (⟨S1000000x6, .f32⟩ : BufTy).Contents (Elt F) → (⟨S1000000x6, .f32⟩ : BufTy).Contents (Elt F)),
    StableHlo.binary main_v210 main_v208 main_v211 (mulf : (⟨S1000000x6, .f32⟩ : BufTy).Contents (Elt F) → (⟨S1000000x6, .f32⟩ : BufTy).Contents (Elt F) → (⟨S1000000x6, .f32⟩ : BufTy).Contents (Elt F)),
    StableHlo.binary main_v211 main_v204 main_v212 (subf : (⟨S1000000x6, .f32⟩ : BufTy).Contents (Elt F) → (⟨S1000000x6, .f32⟩ : BufTy).Contents (Elt F) → (⟨S1000000x6, .f32⟩ : BufTy).Contents (Elt F)),
    StableHlo.unary main_v177 main_v213 (broadcastInDim S1x6 ![1] bcast_S6_S1x6_1 : (⟨S6, .f32⟩ : BufTy).Contents (Elt F) → (⟨S1x6, .f32⟩ : BufTy).Contents (Elt F)),
    StableHlo.unary main_v213 main_v214 (broadcastInDim S1000000x6 ![0, 1] bcast_S1x6_S1000000x6_0_1 : (⟨S1x6, .f32⟩ : BufTy).Contents (Elt F) → (⟨S1000000x6, .f32⟩ : BufTy).Contents (Elt F)),
    StableHlo.binary main_v214 main_v212 main_v215 (mulf : (⟨S1000000x6, .f32⟩ : BufTy).Contents (Elt F) → (⟨S1000000x6, .f32⟩ : BufTy).Contents (Elt F) → (⟨S1000000x6, .f32⟩ : BufTy).Contents (Elt F)) ]

set_option maxRecDepth 8192 in
theorem sB6_sub : (sB6 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩

/-- The buffers stretch sB6 writes, in order. -/
abbrev sB6_W : List (Ref sig .tc) :=
  [main_v176, main_v177, main_v178, main_v179, main_v180, main_v181, main_v182, main_v183, main_v184, main_v185, main_v186, main_v187, main_v188, main_v189, main_v190, main_v191, main_v192, main_cst_20, main_v193, main_v194, main_v195, main_v196, main_cst_21, main_v197, main_v198, main_v199, main_v200, main_cst_22, main_v201, main_v202, main_v203, main_v204, main_cst_23, main_v205, main_v206, main_v207, main_v208, main_cst_24, main_v209, main_v210, main_v211, main_v212, main_v213, main_v214, main_v215]

/-- Statements 243 to 255 of @main: 13 operations. -/
abbrev sC : List (HloOp τ sig (Elt F)) :=
  [ StableHlo.nary ![main_v35, main_v55, main_v79, main_v107, main_v139, main_v175, main_v215] main_v216 (fun u => concatenate S1000000x42 1 [⟨S1000000x6, u 0⟩, ⟨S1000000x6, u 1⟩, ⟨S1000000x6, u 2⟩, ⟨S1000000x6, u 3⟩, ⟨S1000000x6, u 4⟩, ⟨S1000000x6, u 5⟩, ⟨S1000000x6, u 6⟩] concatenates_S1000000x6_S1000000x6_S1000000x6_S1000000x6_S1000000x6_S1000000x6_S1000000x6_S1000000x42_d1),
    StableHlo.unary main_v21 main_v217 (broadcastInDim S1000000x1 ![0] bcast_S1000000_S1000000x1_0 : (⟨S1000000, .f32⟩ : BufTy).Contents (Elt F) → (⟨S1000000x1, .f32⟩ : BufTy).Contents (Elt F)),
    StableHlo.unary main_v217 main_v218 (broadcastInDim S1000000x42 ![0, 1] bcast_S1000000x1_S1000000x42_0_1 : (⟨S1000000x1, .f32⟩ : BufTy).Contents (Elt F) → (⟨S1000000x42, .f32⟩ : BufTy).Contents (Elt F)),
    StableHlo.binary main_v216 main_v218 main_v219 (mulf : (⟨S1000000x42, .f32⟩ : BufTy).Contents (Elt F) → (⟨S1000000x42, .f32⟩ : BufTy).Contents (Elt F) → (⟨S1000000x42, .f32⟩ : BufTy).Contents (Elt F)),
    StableHlo.nullary main_c (constantI S_ 32 0#32),
    StableHlo.unary main_c main_v220 (broadcastInDim S3000000 ![] bcast_S_S3000000 : (⟨S_, .i32⟩ : BufTy).Contents (Elt F) → (⟨S3000000, .i32⟩ : BufTy).Contents (Elt F)),
    StableHlo.binary main_arg4 main_v220 main_v221 (cmpi .slt : (⟨S3000000, .i32⟩ : BufTy).Contents (Elt F) → (⟨S3000000, .i32⟩ : BufTy).Contents (Elt F) → (⟨S3000000, .i1⟩ : BufTy).Contents (Elt F)),
    StableHlo.nullary main_c_25 (constantI S_ 32 1000000#32),
    StableHlo.unary main_c_25 main_v222 (broadcastInDim S3000000 ![] bcast_S_S3000000 : (⟨S_, .i32⟩ : BufTy).Contents (Elt F) → (⟨S3000000, .i32⟩ : BufTy).Contents (Elt F)),
    StableHlo.binary main_arg4 main_v222 main_v223 (addi : (⟨S3000000, .i32⟩ : BufTy).Contents (Elt F) → (⟨S3000000, .i32⟩ : BufTy).Contents (Elt F) → (⟨S3000000, .i32⟩ : BufTy).Contents (Elt F)),
    StableHlo.ternary main_v221 main_v223 main_arg4 main_v224 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    StableHlo.unary main_v224 main_v225 (broadcastInDim S3000000x1 ![0] bcast_S3000000_S3000000x1_0 : (⟨S3000000, .i32⟩ : BufTy).Contents (Elt F) → (⟨S3000000x1, .i32⟩ : BufTy).Contents (Elt F)),
    StableHlo.binary main_v219 main_v225 main_v226 ((fun x i => Host.gather gather_S1000000x42_S3000000x1_S3000000x42_1_0_n_n_0_1_142 x i) : (⟨S1000000x42, .f32⟩ : BufTy).Contents (Elt F) → (⟨S3000000x1, .i32⟩ : BufTy).Contents (Elt F) → (⟨S3000000x42, .f32⟩ : BufTy).Contents (Elt F)) ]

set_option maxRecDepth 8192 in
theorem sC_sub : (sC : List (HloOp τ sig (Elt F))).Forall fun op => op.bufs ⊆ StableHlo.tcRefs τ sig :=
  ⟨StableHlo.nary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- The buffers stretch sC writes, in order. -/
abbrev sC_W : List (Ref sig .tc) :=
  [main_v216, main_v217, main_v218, main_v219, main_c, main_v220, main_v221, main_c_25, main_v222, main_v223, main_v224, main_v225, main_v226]

/-- Statements 256 to 313 of @main: 58 operations. -/
abbrev sD1 : List (HloOp τ sig (Elt F)) :=
  [ StableHlo.unary main_arg1 main_v227 (Host.cos : (⟨S3000000, .f32⟩ : BufTy).Contents (Elt F) → (⟨S3000000, .f32⟩ : BufTy).Contents (Elt F)),
    StableHlo.nullary main_cst_26 (constant S_ .f32 0x3F800000#32),
    StableHlo.unary main_cst_26 main_v228 (broadcastInDim S3000000 ![] bcast_S_S3000000 : (⟨S_, .f32⟩ : BufTy).Contents (Elt F) → (⟨S3000000, .f32⟩ : BufTy).Contents (Elt F)),
    StableHlo.nullary main_cst_27 (constant S_ .f32 0x40400000#32),
    StableHlo.unary main_cst_27 main_v229 (broadcastInDim S3000000 ![] bcast_S_S3000000 : (⟨S_, .f32⟩ : BufTy).Contents (Elt F) → (⟨S3000000, .f32⟩ : BufTy).Contents (Elt F)),
    StableHlo.binary main_v229 main_v227 main_v230 (mulf : (⟨S3000000, .f32⟩ : BufTy).Contents (Elt F) → (⟨S3000000, .f32⟩ : BufTy).Contents (Elt F) → (⟨S3000000, .f32⟩ : BufTy).Contents (Elt F)),
    StableHlo.binary main_v230 main_v227 main_v231 (mulf : (⟨S3000000, .f32⟩ : BufTy).Contents (Elt F) → (⟨S3000000, .f32⟩ : BufTy).Contents (Elt F) → (⟨S3000000, .f32⟩ : BufTy).Contents (Elt F)),
    StableHlo.nullary main_cst_28 (constant S_ .f32 0x3F800000#32),
    StableHlo.unary main_cst_28 main_v232 (broadcastInDim S3000000 ![] bcast_S_S3000000 : (⟨S_, .f32⟩ : BufTy).Contents (Elt F) → (⟨S3000000, .f32⟩ : BufTy).Contents (Elt F)),
    StableHlo.binary main_v232 main_v228 main_v233 (mulf : (⟨S3000000, .f32⟩ : BufTy).Contents (Elt F) → (⟨S3000000, .f32⟩ : BufTy).Contents (Elt F) → (⟨S3000000, .f32⟩ : BufTy).Contents (Elt F)),
    StableHlo.binary main_v231 main_v233 main_v234 (subf : (⟨S3000000, .f32⟩ : BufTy).Contents (Elt F) → (⟨S3000000, .f32⟩ : BufTy).Contents (Elt F) → (⟨S3000000, .f32⟩ : BufTy).Contents (Elt F)),
    StableHlo.nullary main_cst_29 (constant S_ .f32 0x40000000#32),
    StableHlo.unary main_cst_29 main_v235 (broadcastInDim S3000000 ![] bcast_S_S3000000 : (⟨S_, .f32⟩ : BufTy).Contents (Elt F) → (⟨S3000000, .f32⟩ : BufTy).Contents (Elt F)),
    StableHlo.binary main_v234 main_v235 main_v236 (Host.divf : (⟨S3000000, .f32⟩ : BufTy).Contents (Elt F) → (⟨S3000000, .f32⟩ : BufTy).Contents (Elt F) → (⟨S3000000, .f32⟩ : BufTy).Contents (Elt F)),
    StableHlo.nullary main_cst_30 (constant S_ .f32 0x40A00000#32),
    StableHlo.unary main_cst_30 main_v237 (broadcastInDim S3000000 ![] bcast_S_S3000000 : (⟨S_, .f32⟩ : BufTy).Contents (Elt F) → (⟨S3000000, .f32⟩ : BufTy).Contents (Elt F)),
    StableHlo.binary main_v237 main_v227 main_v238 (mulf : (⟨S3000000, .f32⟩ : BufTy).Contents (Elt F) → (⟨S3000000, .f32⟩ : BufTy).Contents (Elt F) → (⟨S3000000, .f32⟩ : BufTy).Contents (Elt F)),
    StableHlo.binary main_v238 main_v236 main_v239 (mulf : (⟨S3000000, .f32⟩ : BufTy).Contents (Elt F) → (⟨S3000000, .f32⟩ : BufTy).Contents (Elt F) → (⟨S3000000, .f32⟩ : BufTy).Contents (Elt F)),
    StableHlo.nullary main_cst_31 (constant S_ .f32 0x40000000#32),
    StableHlo.unary main_cst_31 main_v240 (broadcastInDim S3000000 ![] bcast_S_S3000000 : (⟨S_, .f32⟩ : BufTy).Contents (Elt F) → (⟨S3000000, .f32⟩ : BufTy).Contents (Elt F)),
    StableHlo.binary main_v240 main_v227 main_v241 (mulf : (⟨S3000000, .f32⟩ : BufTy).Contents (Elt F) → (⟨S3000000, .f32⟩ : BufTy).Contents (Elt F) → (⟨S3000000, .f32⟩ : BufTy).Contents (Elt F)),
    StableHlo.binary main_v239 main_v241 main_v242 (subf : (⟨S3000000, .f32⟩ : BufTy).Contents (Elt F) → (⟨S3000000, .f32⟩ : BufTy).Contents (Elt F) → (⟨S3000000, .f32⟩ : BufTy).Contents (Elt F)),
    StableHlo.nullary main_cst_32 (constant S_ .f32 0x40400000#32),
    StableHlo.unary main_cst_32 main_v243 (broadcastInDim S3000000 ![] bcast_S_S3000000 : (⟨S_, .f32⟩ : BufTy).Contents (Elt F) → (⟨S3000000, .f32⟩ : BufTy).Contents (Elt F)),
    StableHlo.binary main_v242 main_v243 main_v244 (Host.divf : (⟨S3000000, .f32⟩ : BufTy).Contents (Elt F) → (⟨S3000000, .f32⟩ : BufTy).Contents (Elt F) → (⟨S3000000, .f32⟩ : BufTy).Contents (Elt F)),
    StableHlo.nullary main_cst_33 (constant S_ .f32 0x40E00000#32),
    StableHlo.unary main_cst_33 main_v245 (broadcastInDim S3000000 ![] bcast_S_S3000000 : (⟨S_, .f32⟩ : BufTy).Contents (Elt F) → (⟨S3000000, .f32⟩ : BufTy).Contents (Elt F)),
    StableHlo.binary main_v245 main_v227 main_v246 (mulf : (⟨S3000000, .f32⟩ : BufTy).Contents (Elt F) → (⟨S3000000, .f32⟩ : BufTy).Contents (Elt F) → (⟨S3000000, .f32⟩ : BufTy).Contents (Elt F)),
    StableHlo.binary main_v246 main_v244 main_v247 (mulf : (⟨S3000000, .f32⟩ : BufTy).Contents (Elt F) → (⟨S3000000, .f32⟩ : BufTy).Contents (Elt F) → (⟨S3000000, .f32⟩ : BufTy).Contents (Elt F)),
    StableHlo.nullary main_cst_34 (constant S_ .f32 0x40400000#32),
    StableHlo.unary main_cst_34 main_v248 (broadcastInDim S3000000 ![] bcast_S_S3000000 : (⟨S_, .f32⟩ : BufTy).Contents (Elt F) → (⟨S3000000, .f32⟩ : BufTy).Contents (Elt F)),
    StableHlo.binary main_v248 main_v236 main_v249 (mulf : (⟨S3000000, .f32⟩ : BufTy).Contents (Elt F) → (⟨S3000000, .f32⟩ : BufTy).Contents (Elt F) → (⟨S3000000, .f32⟩ : BufTy).Contents (Elt F)),
    StableHlo.binary main_v247 main_v249 main_v250 (subf : (⟨S3000000, .f32⟩ : BufTy).Contents (Elt F) → (⟨S3000000, .f32⟩ : BufTy).Contents (Elt F) → (⟨S3000000, .f32⟩ : BufTy).Contents (Elt F)),
    StableHlo.nullary main_cst_35 (constant S_ .f32 0x40800000#32),
    StableHlo.unary main_cst_35 main_v251 (broadcastInDim S3000000 ![] bcast_S_S3000000 : (⟨S_, .f32⟩ : BufTy).Contents (Elt F) → (⟨S3000000, .f32⟩ : BufTy).Contents (Elt F)),
    StableHlo.binary main_v250 main_v251 main_v252 (Host.divf : (⟨S3000000, .f32⟩ : BufTy).Contents (Elt F) → (⟨S3000000, .f32⟩ : BufTy).Contents (Elt F) → (⟨S3000000, .f32⟩ : BufTy).Contents (Elt F)),
    StableHlo.nullary main_cst_36 (constant S_ .f32 0x41100000#32),
    StableHlo.unary main_cst_36 main_v253 (broadcastInDim S3000000 ![] bcast_S_S3000000 : (⟨S_, .f32⟩ : BufTy).Contents (Elt F) → (⟨S3000000, .f32⟩ : BufTy).Contents (Elt F)),
    StableHlo.binary main_v253 main_v227 main_v254 (mulf : (⟨S3000000, .f32⟩ : BufTy).Contents (Elt F) → (⟨S3000000, .f32⟩ : BufTy).Contents (Elt F) → (⟨S3000000, .f32⟩ : BufTy).Contents (Elt F)),
    StableHlo.binary main_v254 main_v252 main_v255 (mulf : (⟨S3000000, .f32⟩ : BufTy).Contents (Elt F) → (⟨S3000000, .f32⟩ : BufTy).Contents (Elt F) → (⟨S3000000, .f32⟩ : BufTy).Contents (Elt F)),
    StableHlo.nullary main_cst_37 (constant S_ .f32 0x40800000#32),
    StableHlo.unary main_cst_37 main_v256 (broadcastInDim S3000000 ![] bcast_S_S3000000 : (⟨S_, .f32⟩ : BufTy).Contents (Elt F) → (⟨S3000000, .f32⟩ : BufTy).Contents (Elt F)),
    StableHlo.binary main_v256 main_v244 main_v257 (mulf : (⟨S3000000, .f32⟩ : BufTy).Contents (Elt F) → (⟨S3000000, .f32⟩ : BufTy).Contents (Elt F) → (⟨S3000000, .f32⟩ : BufTy).Contents (Elt F)),
    StableHlo.binary main_v255 main_v257 main_v258 (subf : (⟨S3000000, .f32⟩ : BufTy).Contents (Elt F) → (⟨S3000000, .f32⟩ : BufTy).Contents (Elt F) → (⟨S3000000, .f32⟩ : BufTy).Contents (Elt F)),
    StableHlo.nullary main_cst_38 (constant S_ .f32 0x40A00000#32),
    StableHlo.unary main_cst_38 main_v259 (broadcastInDim S3000000 ![] bcast_S_S3000000 : (⟨S_, .f32⟩ : BufTy).Contents (Elt F) → (⟨S3000000, .f32⟩ : BufTy).Contents (Elt F)),
    StableHlo.binary main_v258 main_v259 main_v260 (Host.divf : (⟨S3000000, .f32⟩ : BufTy).Contents (Elt F) → (⟨S3000000, .f32⟩ : BufTy).Contents (Elt F) → (⟨S3000000, .f32⟩ : BufTy).Contents (Elt F)),
    StableHlo.nullary main_cst_39 (constant S_ .f32 0x41300000#32),
    StableHlo.unary main_cst_39 main_v261 (broadcastInDim S3000000 ![] bcast_S_S3000000 : (⟨S_, .f32⟩ : BufTy).Contents (Elt F) → (⟨S3000000, .f32⟩ : BufTy).Contents (Elt F)),
    StableHlo.binary main_v261 main_v227 main_v262 (mulf : (⟨S3000000, .f32⟩ : BufTy).Contents (Elt F) → (⟨S3000000, .f32⟩ : BufTy).Contents (Elt F) → (⟨S3000000, .f32⟩ : BufTy).Contents (Elt F)),
    StableHlo.binary main_v262 main_v260 main_v263 (mulf : (⟨S3000000, .f32⟩ : BufTy).Contents (Elt F) → (⟨S3000000, .f32⟩ : BufTy).Contents (Elt F) → (⟨S3000000, .f32⟩ : BufTy).Contents (Elt F)),
    StableHlo.nullary main_cst_40 (constant S_ .f32 0x40A00000#32),
    StableHlo.unary main_cst_40 main_v264 (broadcastInDim S3000000 ![] bcast_S_S3000000 : (⟨S_, .f32⟩ : BufTy).Contents (Elt F) → (⟨S3000000, .f32⟩ : BufTy).Contents (Elt F)),
    StableHlo.binary main_v264 main_v252 main_v265 (mulf : (⟨S3000000, .f32⟩ : BufTy).Contents (Elt F) → (⟨S3000000, .f32⟩ : BufTy).Contents (Elt F) → (⟨S3000000, .f32⟩ : BufTy).Contents (Elt F)),
    StableHlo.binary main_v263 main_v265 main_v266 (subf : (⟨S3000000, .f32⟩ : BufTy).Contents (Elt F) → (⟨S3000000, .f32⟩ : BufTy).Contents (Elt F) → (⟨S3000000, .f32⟩ : BufTy).Contents (Elt F)),
    StableHlo.nullary main_cst_41 (constant S_ .f32 0x40C00000#32),
    StableHlo.unary main_cst_41 main_v267 (broadcastInDim S3000000 ![] bcast_S_S3000000 : (⟨S_, .f32⟩ : BufTy).Contents (Elt F) → (⟨S3000000, .f32⟩ : BufTy).Contents (Elt F)),
    StableHlo.binary main_v266 main_v267 main_v268 (Host.divf : (⟨S3000000, .f32⟩ : BufTy).Contents (Elt F) → (⟨S3000000, .f32⟩ : BufTy).Contents (Elt F) → (⟨S3000000, .f32⟩ : BufTy).Contents (Elt F)) ]

set_option maxRecDepth 8192 in
theorem sD1_sub : (sD1 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩

/-- The buffers stretch sD1 writes, in order. -/
abbrev sD1_W : List (Ref sig .tc) :=
  [main_v227, main_cst_26, main_v228, main_cst_27, main_v229, main_v230, main_v231, main_cst_28, main_v232, main_v233, main_v234, main_cst_29, main_v235, main_v236, main_cst_30, main_v237, main_v238, main_v239, main_cst_31, main_v240, main_v241, main_v242, main_cst_32, main_v243, main_v244, main_cst_33, main_v245, main_v246, main_v247, main_cst_34, main_v248, main_v249, main_v250, main_cst_35, main_v251, main_v252, main_cst_36, main_v253, main_v254, main_v255, main_cst_37, main_v256, main_v257, main_v258, main_cst_38, main_v259, main_v260, main_cst_39, main_v261, main_v262, main_v263, main_cst_40, main_v264, main_v265, main_v266, main_cst_41, main_v267, main_v268]

/-- Statements 314 to 347 of @main: 34 operations. -/
abbrev sD2 : List (HloOp τ sig (Elt F)) :=
  [ StableHlo.nullary main_cst_42 (constant S_ .f32 0x3E906EBB#32),
    StableHlo.unary main_cst_42 main_v269 (broadcastInDim S3000000 ![] bcast_S_S3000000 : (⟨S_, .f32⟩ : BufTy).Contents (Elt F) → (⟨S3000000, .f32⟩ : BufTy).Contents (Elt F)),
    StableHlo.binary main_v269 main_v228 main_v270 (mulf : (⟨S3000000, .f32⟩ : BufTy).Contents (Elt F) → (⟨S3000000, .f32⟩ : BufTy).Contents (Elt F) → (⟨S3000000, .f32⟩ : BufTy).Contents (Elt F)),
    StableHlo.nullary main_cst_43 (constant S_ .f32 0x3EFA2A1C#32),
    StableHlo.unary main_cst_43 main_v271 (broadcastInDim S3000000 ![] bcast_S_S3000000 : (⟨S_, .f32⟩ : BufTy).Contents (Elt F) → (⟨S3000000, .f32⟩ : BufTy).Contents (Elt F)),
    StableHlo.binary main_v271 main_v227 main_v272 (mulf : (⟨S3000000, .f32⟩ : BufTy).Contents (Elt F) → (⟨S3000000, .f32⟩ : BufTy).Contents (Elt F) → (⟨S3000000, .f32⟩ : BufTy).Contents (Elt F)),
    StableHlo.nullary main_cst_44 (constant S_ .f32 0x3F217B01#32),
    StableHlo.unary main_cst_44 main_v273 (broadcastInDim S3000000 ![] bcast_S_S3000000 : (⟨S_, .f32⟩ : BufTy).Contents (Elt F) → (⟨S3000000, .f32⟩ : BufTy).Contents (Elt F)),
    StableHlo.binary main_v273 main_v236 main_v274 (mulf : (⟨S3000000, .f32⟩ : BufTy).Contents (Elt F) → (⟨S3000000, .f32⟩ : BufTy).Contents (Elt F) → (⟨S3000000, .f32⟩ : BufTy).Contents (Elt F)),
    StableHlo.nullary main_cst_45 (constant S_ .f32 0x3F3F10F8#32),
    StableHlo.unary main_cst_45 main_v275 (broadcastInDim S3000000 ![] bcast_S_S3000000 : (⟨S_, .f32⟩ : BufTy).Contents (Elt F) → (⟨S3000000, .f32⟩ : BufTy).Contents (Elt F)),
    StableHlo.binary main_v275 main_v244 main_v276 (mulf : (⟨S3000000, .f32⟩ : BufTy).Contents (Elt F) → (⟨S3000000, .f32⟩ : BufTy).Contents (Elt F) → (⟨S3000000, .f32⟩ : BufTy).Contents (Elt F)),
    StableHlo.nullary main_cst_46 (constant S_ .f32 0x3F58A618#32),
    StableHlo.unary main_cst_46 main_v277 (broadcastInDim S3000000 ![] bcast_S_S3000000 : (⟨S_, .f32⟩ : BufTy).Contents (Elt F) → (⟨S3000000, .f32⟩ : BufTy).Contents (Elt F)),
    StableHlo.binary main_v277 main_v252 main_v278 (mulf : (⟨S3000000, .f32⟩ : BufTy).Contents (Elt F) → (⟨S3000000, .f32⟩ : BufTy).Contents (Elt F) → (⟨S3000000, .f32⟩ : BufTy).Contents (Elt F)),
    StableHlo.nullary main_cst_47 (constant S_ .f32 0x3F6F83A7#32),
    StableHlo.unary main_cst_47 main_v279 (broadcastInDim S3000000 ![] bcast_S_S3000000 : (⟨S_, .f32⟩ : BufTy).Contents (Elt F) → (⟨S3000000, .f32⟩ : BufTy).Contents (Elt F)),
    StableHlo.binary main_v279 main_v260 main_v280 (mulf : (⟨S3000000, .f32⟩ : BufTy).Contents (Elt F) → (⟨S3000000, .f32⟩ : BufTy).Contents (Elt F) → (⟨S3000000, .f32⟩ : BufTy).Contents (Elt F)),
    StableHlo.nullary main_cst_48 (constant S_ .f32 0x3F823092#32),
    StableHlo.unary main_cst_48 main_v281 (broadcastInDim S3000000 ![] bcast_S_S3000000 : (⟨S_, .f32⟩ : BufTy).Contents (Elt F) → (⟨S3000000, .f32⟩ : BufTy).Contents (Elt F)),
    StableHlo.binary main_v281 main_v268 main_v282 (mulf : (⟨S3000000, .f32⟩ : BufTy).Contents (Elt F) → (⟨S3000000, .f32⟩ : BufTy).Contents (Elt F) → (⟨S3000000, .f32⟩ : BufTy).Contents (Elt F)),
    StableHlo.unary main_v270 main_v283 (broadcastInDim S3000000x1 ![0] bcast_S3000000_S3000000x1_0 : (⟨S3000000, .f32⟩ : BufTy).Contents (Elt F) → (⟨S3000000x1, .f32⟩ : BufTy).Contents (Elt F)),
    StableHlo.unary main_v272 main_v284 (broadcastInDim S3000000x1 ![0] bcast_S3000000_S3000000x1_0 : (⟨S3000000, .f32⟩ : BufTy).Contents (Elt F) → (⟨S3000000x1, .f32⟩ : BufTy).Contents (Elt F)),
    StableHlo.unary main_v274 main_v285 (broadcastInDim S3000000x1 ![0] bcast_S3000000_S3000000x1_0 : (⟨S3000000, .f32⟩ : BufTy).Contents (Elt F) → (⟨S3000000x1, .f32⟩ : BufTy).Contents (Elt F)),
    StableHlo.unary main_v276 main_v286 (broadcastInDim S3000000x1 ![0] bcast_S3000000_S3000000x1_0 : (⟨S3000000, .f32⟩ : BufTy).Contents (Elt F) → (⟨S3000000x1, .f32⟩ : BufTy).Contents (Elt F)),
    StableHlo.unary main_v278 main_v287 (broadcastInDim S3000000x1 ![0] bcast_S3000000_S3000000x1_0 : (⟨S3000000, .f32⟩ : BufTy).Contents (Elt F) → (⟨S3000000x1, .f32⟩ : BufTy).Contents (Elt F)),
    StableHlo.unary main_v280 main_v288 (broadcastInDim S3000000x1 ![0] bcast_S3000000_S3000000x1_0 : (⟨S3000000, .f32⟩ : BufTy).Contents (Elt F) → (⟨S3000000x1, .f32⟩ : BufTy).Contents (Elt F)),
    StableHlo.unary main_v282 main_v289 (broadcastInDim S3000000x1 ![0] bcast_S3000000_S3000000x1_0 : (⟨S3000000, .f32⟩ : BufTy).Contents (Elt F) → (⟨S3000000x1, .f32⟩ : BufTy).Contents (Elt F)),
    StableHlo.nary ![main_v283, main_v284, main_v285, main_v286, main_v287, main_v288, main_v289] main_v290 (fun u => concatenate S3000000x7 1 [⟨S3000000x1, u 0⟩, ⟨S3000000x1, u 1⟩, ⟨S3000000x1, u 2⟩, ⟨S3000000x1, u 3⟩, ⟨S3000000x1, u 4⟩, ⟨S3000000x1, u 5⟩, ⟨S3000000x1, u 6⟩] concatenates_S3000000x1_S3000000x1_S3000000x1_S3000000x1_S3000000x1_S3000000x1_S3000000x1_S3000000x7_d1),
    StableHlo.unary main_v290 main_v291 (broadcastInDim S3000000x7x6 ![0, 1] bcast_S3000000x7_S3000000x7x6_0_1 : (⟨S3000000x7, .f32⟩ : BufTy).Contents (Elt F) → (⟨S3000000x7x6, .f32⟩ : BufTy).Contents (Elt F)),
    StableHlo.reshape main_v291 main_v292 rfl shapeCasts_S3000000x7x6_S3000000x42,
    StableHlo.unary main_arg2 main_v293 (broadcastInDim S3000000x42 ![0, 1] bcast_S3000000x1_S3000000x42_0_1 : (⟨S3000000x1, .f32⟩ : BufTy).Contents (Elt F) → (⟨S3000000x42, .f32⟩ : BufTy).Contents (Elt F)),
    StableHlo.binary main_v292 main_v293 main_v294 (mulf : (⟨S3000000x42, .f32⟩ : BufTy).Contents (Elt F) → (⟨S3000000x42, .f32⟩ : BufTy).Contents (Elt F) → (⟨S3000000x42, .f32⟩ : BufTy).Contents (Elt F)),
    StableHlo.binary main_v226 main_v294 main_v295 (mulf : (⟨S3000000x42, .f32⟩ : BufTy).Contents (Elt F) → (⟨S3000000x42, .f32⟩ : BufTy).Contents (Elt F) → (⟨S3000000x42, .f32⟩ : BufTy).Contents (Elt F)) ]

set_option maxRecDepth 8192 in
theorem sD2_sub : (sD2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.binary_bufs_sub .., StableHlo.binary_bufs_sub ..⟩

/-- The buffers stretch sD2 writes, in order. -/
abbrev sD2_W : List (Ref sig .tc) :=
  [main_cst_42, main_v269, main_v270, main_cst_43, main_v271, main_v272, main_cst_44, main_v273, main_v274, main_cst_45, main_v275, main_v276, main_cst_46, main_v277, main_v278, main_cst_47, main_v279, main_v280, main_cst_48, main_v281, main_v282, main_v283, main_v284, main_v285, main_v286, main_v287, main_v288, main_v289, main_v290, main_v291, main_v292, main_v293, main_v294, main_v295]

end Cert.ReferenceIdeal.Ops

end
-- ==== Proof.RefRun.lean ====
/-
  The reference program's run. Its @main is a straight line of 349 host operations: the scaled distances and the
  smoothing envelope on the edge axis, the seven radial pieces norm(l,n) * j_l(z(l,n) * s) one after the other, their
  concatenation times the envelope, the gather of edge rows onto the triplet axis, then on the triplet axis the cosine,
  the Legendre recurrence, the seven angular columns repeated six times, the mask and the final product.
  Here: @main IS that line (printed window by printed window, the one outlined select unfolded at its call), so every
  weakly fair execution terminates with each buffer at the fold of the operations over the launch contents; and the fold
  splits at the seams of the computation, one stretch after the other.
-/
import proofs.«169226_j83665962926262_1_alg».proof.Proof.RefOps
import Idealize.ShloMosaic.Lib.StableHlo.Run
import Idealize.ShloMosaic.Lib.Pipeline.Frame

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The operations in the printed order, window after window. -/
abbrev windows : List (HloOp τ sig (Elt F)) := w0 ++ w1 ++ w2 ++ w3 ++ w4 ++ w5

/-- The same operations, stretch after stretch. -/
abbrev ops : List (HloOp τ sig (Elt F)) := sA ++ sB0 ++ sB1 ++ sB2 ++ sB3 ++ sB4 ++ sB5 ++ sB6 ++ sC ++ sD1 ++ sD2

/-! ## @main is the line -/

set_option maxRecDepth 8192 in
/-- Window 0 holds the call of the outlined select: its three operations stand in the call's place. -/
theorem part0_eq (c : Dev nD) : main_part0 (F := F) c = seq w0 := by
  simp only [main_part0, fn_where.body, seq, bind_assoc, pure_bind]
  rfl
set_option maxRecDepth 8192 in
theorem part1_eq (c : Dev nD) : main_part1 (F := F) c = seq w1 := rfl
set_option maxRecDepth 8192 in
theorem part2_eq (c : Dev nD) : main_part2 (F := F) c = seq w2 := rfl
set_option maxRecDepth 8192 in
theorem part3_eq (c : Dev nD) : main_part3 (F := F) c = seq w3 := rfl
set_option maxRecDepth 8192 in
theorem part4_eq (c : Dev nD) : main_part4 (F := F) c = seq w4 := rfl
set_option maxRecDepth 8192 in
theorem part5_eq (c : Dev nD) : main_part5 (F := F) c = seq w5 := rfl

set_option maxRecDepth 8192 in
/-- Cutting the line at the seams instead of at the printed windows changes nothing: both are the same list. -/
theorem regroup : (windows : List (HloOp τ sig (Elt F))) = ops := by
  simp only [windows, ops, w0, w1, w2, w3, w4, w5, sA, sB0, sB1, sB2, sB3, sB4, sB5, sB6, sC, sD1, sD2, List.cons_append, List.nil_append]

set_option maxRecDepth 8192 in
theorem main_eq (c : Dev nD) : main (F := F) c = seq ops := by
  rw [← regroup]
  simp only [windows, seq_append, ← part0_eq c, ← part1_eq c, ← part2_eq c, ← part3_eq c, ← part4_eq c, ← part5_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h | h | h
    exacts [List.forall_iff_forall_mem.mp sA_sub op h, List.forall_iff_forall_mem.mp sB0_sub op h, List.forall_iff_forall_mem.mp sB1_sub op h, List.forall_iff_forall_mem.mp sB2_sub op h, List.forall_iff_forall_mem.mp sB3_sub op h, List.forall_iff_forall_mem.mp sB4_sub op h, List.forall_iff_forall_mem.mp sB5_sub op h, List.forall_iff_forall_mem.mp sB6_sub op h, List.forall_iff_forall_mem.mp sC_sub op h, List.forall_iff_forall_mem.mp sD1_sub op h, List.forall_iff_forall_mem.mp sD2_sub op h]

theorem sA_fresh : (sA : List (HloOp τ sig (Elt F))).Forall fun op => op.fresh = ∅ := by
  simp only [List.Forall]; repeat' constructor
theorem sB0_fresh : (sB0 : List (HloOp τ sig (Elt F))).Forall fun op => op.fresh = ∅ := by
  simp only [List.Forall]; repeat' constructor
theorem sB1_fresh : (sB1 : List (HloOp τ sig (Elt F))).Forall fun op => op.fresh = ∅ := by
  simp only [List.Forall]; repeat' constructor
theorem sB2_fresh : (sB2 : List (HloOp τ sig (Elt F))).Forall fun op => op.fresh = ∅ := by
  simp only [List.Forall]; repeat' constructor
theorem sB3_fresh : (sB3 : List (HloOp τ sig (Elt F))).Forall fun op => op.fresh = ∅ := by
  simp only [List.Forall]; repeat' constructor
theorem sB4_fresh : (sB4 : List (HloOp τ sig (Elt F))).Forall fun op => op.fresh = ∅ := by
  simp only [List.Forall]; repeat' constructor
theorem sB5_fresh : (sB5 : List (HloOp τ sig (Elt F))).Forall fun op => op.fresh = ∅ := by
  simp only [List.Forall]; repeat' constructor
theorem sB6_fresh : (sB6 : List (HloOp τ sig (Elt F))).Forall fun op => op.fresh = ∅ := by
  simp only [List.Forall]; repeat' constructor
theorem sC_fresh : (sC : List (HloOp τ sig (Elt F))).Forall fun op => op.fresh = ∅ := by
  simp only [List.Forall]; repeat' constructor
theorem sD1_fresh : (sD1 : List (HloOp τ sig (Elt F))).Forall fun op => op.fresh = ∅ := by
  simp only [List.Forall]; repeat' constructor
theorem sD2_fresh : (sD2 : List (HloOp τ sig (Elt F))).Forall fun op => op.fresh = ∅ := by
  simp only [List.Forall]; repeat' constructor

/-- No operation of the line allocates: each determines its result. -/
theorem ops_fresh : ∀ op ∈ (ops : List (HloOp τ sig (Elt F))), op.fresh = ∅ := fun op h => by
  simp only [ops, List.mem_append, or_assoc] at h
  rcases h with h | h | h | h | h | h | h | h | h | h | h
  exacts [List.forall_iff_forall_mem.mp sA_fresh op h, List.forall_iff_forall_mem.mp sB0_fresh op h, List.forall_iff_forall_mem.mp sB1_fresh op h, List.forall_iff_forall_mem.mp sB2_fresh op h, List.forall_iff_forall_mem.mp sB3_fresh op h, List.forall_iff_forall_mem.mp sB4_fresh op h, List.forall_iff_forall_mem.mp sB5_fresh op h, List.forall_iff_forall_mem.mp sB6_fresh op h, List.forall_iff_forall_mem.mp sC_fresh op h, List.forall_iff_forall_mem.mp sD1_fresh op h, List.forall_iff_forall_mem.mp sD2_fresh op h]

/-! ## The run, and the fold stretch by stretch -/

/-- On every device, from any memory with zero counters: every weakly fair execution of @main terminates, and every final
    state has each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold of the whole line is the stretches' folds, one after the other. -/
theorem after_ops (V : Valuation τ sig (Elt F)) :
    after ops V = after sD2 (after sD1 (after sC (after sB6 (after sB5 (after sB4 (after sB3 (after sB2 (after sB1 (after sB0 (after sA (V))))))))))) := by
  simp only [ops, StableHlo.after_append]

end Cert.ReferenceIdeal.Run

end
-- ==== Proof.Spec.lean ====
/-
  The scalar function both programs compute. At a triplet `t` and a column `6·l + k` (l < 7 the spherical order, k < 6 the
  radial index) the result is

      ( N(l,k) · j_l( s · Z(l,k) ) · env(s) )  ·  ( Y_l · P_l(cos θ) · mask ),      s = d · f32(1/5),

  with `d` the distance of the edge the triplet's index selects (a negative index wrapped by the table's length, then clamped
  into the table), `θ` the triplet's angle, `Z` / `N` the tables of Bessel zeros and normalisers, `j_l` the spherical Bessel
  function by the upward recurrence from j_0 = sin u / u and j_1 = sin u / u² − cos u / u, `P_l` the Legendre polynomial by
  Bonnet's recurrence, `Y_l` the single-precision value of sqrt((2l+1)/4π), and `env` the degree-8 smoothing envelope, cut to
  0 at s ≥ 1. Everything is read on the extended reals: every operation below is the exact one.
  The two programs differ in ONE place: the kernel forms s⁷ and s⁸ as products (`envK`), the reference raises s to the
  float exponents 7 and 8 (`envR`). The groupings of the products are each program's own.
-/
import Idealize.ShloMosaic.PureOps.Ideal
import Idealize.ShloMosaic.Lib.ValueIdx

noncomputable section

namespace Cert.Spec

open Idealize.ShloMosaic

/-- The exact value of a single-precision word. -/
abbrev lit (w : BitVec 32) : EReal := Ideal.ofBits .f32 w

/-- The scaled distance s = d · f32(1/5). -/
def scaled (d : EReal) : EReal := d * lit 0x3E4CCCCD#32

/-- s⁶ as the kernel multiplies it: (s²·s²)·s². -/
def pow6K (s : EReal) : EReal := ((s * s) * (s * s)) * (s * s)
/-- s⁶ as the reference multiplies it: s²·(s²·s²). -/
def pow6R (s : EReal) : EReal := (s * s) * ((s * s) * (s * s))

/-- `s < 1`, as the one-bit word the comparison returns. -/
def below1 (s : EReal) : BitVec 1 := FloatOps.cmpf (F := Ideal) (φ := .f32) .olt s (lit 0x3F800000#32)

/-- The envelope 1 − 28 s⁶ + 48 s⁷ − 21 s⁸ below 1 and 0 from 1 on, with s⁷ = s⁶·s and s⁸ = s⁶·s² (the kernel). -/
def envK (s : EReal) : EReal :=
  Scalar.select (below1 s)
    (((lit 0x3F800000#32 + lit 0xC1E00000#32 * pow6K s) + lit 0x42400000#32 * (pow6K s * s))
      + lit 0xC1A80000#32 * (pow6K s * (s * s)))
    (lit 0x00000000#32)

/-- The same envelope with s⁷ and s⁸ as powers with the float exponents 7 and 8 (the reference). -/
def envR (s : EReal) : EReal :=
  Scalar.select (below1 s)
    (((lit 0x3F800000#32 + lit 0xC1E00000#32 * pow6R s) + lit 0x42400000#32 * Ideal.pow s (lit 0x40E00000#32))
      + lit 0xC1A80000#32 * Ideal.pow s (lit 0x41000000#32))
    (lit 0x00000000#32)

/-! ## Spherical Bessel functions, upward -/

def j0 (u : EReal) : EReal := Ideal.div (Ideal.sin u) u
def j1 (u : EReal) : EReal := Ideal.div (Ideal.sin u) (u * u) - Ideal.div (Ideal.cos u) u
/-- One step up: j_{m+1} = ((2m+1)/u) · j_m − j_{m−1}, `w` the word of 2m+1. -/
def jstep (w : BitVec 32) (u j jm1 : EReal) : EReal := Ideal.div (lit w) u * j - jm1
def j2 (u : EReal) : EReal := jstep 0x40400000#32 u (j1 u) (j0 u)
def j3 (u : EReal) : EReal := jstep 0x40A00000#32 u (j2 u) (j1 u)
def j4 (u : EReal) : EReal := jstep 0x40E00000#32 u (j3 u) (j2 u)
def j5 (u : EReal) : EReal := jstep 0x41100000#32 u (j4 u) (j3 u)
def j6 (u : EReal) : EReal := jstep 0x41300000#32 u (j5 u) (j4 u)

/-- j_l for l < 7. -/
def bess (l : Fin 7) (u : EReal) : EReal :=
  match l with
  | 0 => j0 u | 1 => j1 u | 2 => j2 u | 3 => j3 u | 4 => j4 u | 5 => j5 u | 6 => j6 u

/-! ## Legendre polynomials, by Bonnet's recurrence l·P_l = (2l−1)·c·P_{l−1} − (l−1)·P_{l−2} -/

def p0 : EReal := lit 0x3F800000#32
def p2 (c : EReal) : EReal := Ideal.div ((lit 0x40400000#32 * c) * c - lit 0x3F800000#32 * p0) (lit 0x40000000#32)
def p3 (c : EReal) : EReal := Ideal.div ((lit 0x40A00000#32 * c) * p2 c - lit 0x40000000#32 * c) (lit 0x40400000#32)
def p4 (c : EReal) : EReal := Ideal.div ((lit 0x40E00000#32 * c) * p3 c - lit 0x40400000#32 * p2 c) (lit 0x40800000#32)
def p5 (c : EReal) : EReal := Ideal.div ((lit 0x41100000#32 * c) * p4 c - lit 0x40800000#32 * p3 c) (lit 0x40A00000#32)
def p6 (c : EReal) : EReal := Ideal.div ((lit 0x41300000#32 * c) * p5 c - lit 0x40A00000#32 * p4 c) (lit 0x40C00000#32)

/-- P_l(c) for l < 7. -/
def leg (l : Fin 7) (c : EReal) : EReal :=
  match l with
  | 0 => p0 | 1 => c | 2 => p2 c | 3 => p3 c | 4 => p4 c | 5 => p5 c | 6 => p6 c

/-- The word of Y_l = sqrt((2l+1)/4π) rounded to single precision. -/
def sphW (l : Fin 7) : BitVec 32 :=
  match l with
  | 0 => 0x3E906EBB#32 | 1 => 0x3EFA2A1C#32 | 2 => 0x3F217B01#32 | 3 => 0x3F3F10F8#32
  | 4 => 0x3F58A618#32 | 5 => 0x3F6F83A7#32 | 6 => 0x3F823092#32

/-! ## The value at a triplet and a column -/

/-- The radial factor (N · j_l(s·Z)) · env(s), over whichever envelope. -/
def radial (env : EReal → EReal) (z n d : EReal) (l : Fin 7) : EReal := (n * bess l (scaled d * z)) * env (scaled d)
/-- The angular factor (Y_l · P_l(cos θ)) · mask. -/
def angular (a mk : EReal) (l : Fin 7) : EReal := (lit (sphW l) * leg l (Ideal.cos a)) * mk

/-- What the kernel stores at a triplet with distance `d`, angle `a`, mask `mk`, in the column of (l, k) with table
    entries `z` = Z(l,k) and `n` = N(l,k). -/
def valK (z n d a mk : EReal) (l : Fin 7) : EReal := radial envK z n d l * angular a mk l
/-- What the reference returns there. -/
def valR (z n d a mk : EReal) (l : Fin 7) : EReal := radial envR z n d l * angular a mk l

/-! ## Columns and rows -/

/-- Column 6·l + k of the 42. -/
def col (l : Fin 7) (k : Fin 6) : Fin 42 := ⟨6 * l.val + k.val, by omega⟩

theorem col_surj (j : Fin 42) : ∃ (l : Fin 7) (k : Fin 6), j = col l k :=
  ⟨⟨j.val / 6, by omega⟩, ⟨j.val % 6, Nat.mod_lt _ (by decide)⟩, Fin.ext (by simp only [col]; omega)⟩

theorem col_div (l : Fin 7) (k : Fin 6) : (col l k).val / 6 = l.val := by simp only [col]; omega
theorem col_mod (l : Fin 7) (k : Fin 6) : (col l k).val % 6 = k.val := by simp only [col]; omega

/-- A negative index counts from the table's end: `v + 1000000` when `v < 0`. -/
def wrap (v : BitVec 32) : BitVec 32 := Scalar.select (IntOp.cmpi .slt v 0#32) (IntOp.addi v 1000000#32) v

/-- The row a gather reads for the start index `v`: `v` as a signed integer, clamped into the table. -/
def row (v : BitVec 32) : Fin 1000000 := ⟨min v.toInt.toNat 999999, by omega⟩

/-- The edge a triplet with index word `v` selects. -/
def edge (v : BitVec 32) : Fin 1000000 := row (wrap v)

end Cert.Spec

end
-- ==== Proof.RefBasic.lean ====
/-
  Vocabulary for reading the reference program's buffers at the ideal instance: a valuation of its buffers, each live
  buffer's contents as a vector of its own shape, the seven radial pieces as one family and the seven Legendre values as one
  family.
-/
import proofs.«169226_j83665962926262_1_alg».proof.Proof.RefOps
import proofs.«169226_j83665962926262_1_alg».proof.Proof.Spec
import Idealize.ShloMosaic.Lib.StableHlo.Run
import Idealize.ShloMosaic.Lib.ValueIdx
import Idealize.ShloMosaic.Lib.Pipeline.Value

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-- A valuation of the reference program's buffers, floats read as extended reals. -/
abbrev Vl : Type := Valuation τ sig (Elt Ideal)

variable (U : Vl)

/-- The distances, one per edge. -/
abbrev distOf : Vec Ideal S1000000 .f32 := U (Proc.devRef (τ := τ) .tc main_arg0)
/-- The angles, one per triplet. -/
abbrev angleOf : Vec Ideal S3000000 .f32 := U (Proc.devRef (τ := τ) .tc main_arg1)
/-- The mask, a column over the triplets. -/
abbrev maskOf : Vec Ideal S3000000x1 .f32 := U (Proc.devRef (τ := τ) .tc main_arg2)
/-- The edge index of each triplet, as 32-bit words. -/
abbrev idxOf : Vec Ideal S3000000 .i32 := U (Proc.devRef (τ := τ) .tc main_arg4)
/-- The table of Bessel zeros. -/
abbrev zerosOf : Vec Ideal S7x6 .f32 := U (Proc.devRef (τ := τ) .tc main_cst)
/-- The table of normalisers. -/
abbrev normsOf : Vec Ideal S7x6 .f32 := U (Proc.devRef (τ := τ) .tc main_cst_0)
/-- The scaled distances. -/
abbrev scaledOf : Vec Ideal S1000000 .f32 := U (Proc.devRef (τ := τ) .tc main_v1)
/-- The envelope on the edge axis. -/
abbrev envOf : Vec Ideal S1000000 .f32 := U (Proc.devRef (τ := τ) .tc main_v21)
/-- The radial table gathered onto the triplet axis. -/
abbrev gatheredOf : Vec Ideal S3000000x42 .f32 := U (Proc.devRef (τ := τ) .tc main_v226)
/-- The result. -/
abbrev outOf : Vec Ideal S3000000x42 .f32 := U (Proc.devRef (τ := τ) .tc main_v295)

/-- The radial piece of spherical order `l`: an [edges, 6] array, one buffer per order. -/
def pieceAt (l : Fin 7) : Vec Ideal S1000000x6 .f32 :=
  match l with
  | 0 => U (Proc.devRef (τ := τ) .tc main_v35) | 1 => U (Proc.devRef (τ := τ) .tc main_v55)
  | 2 => U (Proc.devRef (τ := τ) .tc main_v79) | 3 => U (Proc.devRef (τ := τ) .tc main_v107)
  | 4 => U (Proc.devRef (τ := τ) .tc main_v139) | 5 => U (Proc.devRef (τ := τ) .tc main_v175)
  | 6 => U (Proc.devRef (τ := τ) .tc main_v215)

/-- The Legendre value of order `l` on the triplet axis: the constant one, the cosine, then the recurrence's results. -/
def legAt (l : Fin 7) : Vec Ideal S3000000 .f32 :=
  match l with
  | 0 => U (Proc.devRef (τ := τ) .tc main_v228) | 1 => U (Proc.devRef (τ := τ) .tc main_v227)
  | 2 => U (Proc.devRef (τ := τ) .tc main_v236) | 3 => U (Proc.devRef (τ := τ) .tc main_v244)
  | 4 => U (Proc.devRef (τ := τ) .tc main_v252) | 5 => U (Proc.devRef (τ := τ) .tc main_v260)
  | 6 => U (Proc.devRef (τ := τ) .tc main_v268)

end Cert.ReferenceIdeal.Val

end
-- ==== Proof.RefKeeps.lean ====
/-
  Each stretch of the reference's line writes only its own result buffers, so every other buffer keeps its contents
  across it.
-/
import proofs.«169226_j83665962926262_1_alg».proof.Proof.RefBasic

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

variable {F : FTy → Type} [FloatOps F]

/-- An operation that writes exactly the buffer `y`, with `y` in a list, writes inside that list. -/
theorem writes_sub_of_mem {op : HloOp τ sig (Elt F)} {W : List (Ref sig .tc)} {y : Ref sig .tc}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map.mpr ⟨y, hy, rfl⟩

set_option maxRecDepth 8192 in
/-- Every operation of stretch sA writes one buffer of the stretch's list. -/
theorem sA_writes : (sA : List (HloOp τ sig (Elt F))).Forall fun op => op.writes ⊆ (sA_W.map (Proc.devRef (τ := τ) .tc)).toFinset := by
  simp only [sA, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sA's list keeps its contents across the stretch. -/
theorem sA_keeps (U : Valuation τ sig (Elt F)) (r : Ref sig .tc) (hr : r ∉ sA_W) :
    after sA U (Proc.devRef (τ := τ) .tc r) = U (Proc.devRef (τ := τ) .tc r) :=
  after_of_writes_sub sA U sA_writes hr

set_option maxRecDepth 8192 in
/-- Every operation of stretch sB0 writes one buffer of the stretch's list. -/
theorem sB0_writes : (sB0 : List (HloOp τ sig (Elt F))).Forall fun op => op.writes ⊆ (sB0_W.map (Proc.devRef (τ := τ) .tc)).toFinset := by
  simp only [sB0, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sB0's list keeps its contents across the stretch. -/
theorem sB0_keeps (U : Valuation τ sig (Elt F)) (r : Ref sig .tc) (hr : r ∉ sB0_W) :
    after sB0 U (Proc.devRef (τ := τ) .tc r) = U (Proc.devRef (τ := τ) .tc r) :=
  after_of_writes_sub sB0 U sB0_writes hr

set_option maxRecDepth 8192 in
/-- Every operation of stretch sB1 writes one buffer of the stretch's list. -/
theorem sB1_writes : (sB1 : List (HloOp τ sig (Elt F))).Forall fun op => op.writes ⊆ (sB1_W.map (Proc.devRef (τ := τ) .tc)).toFinset := by
  simp only [sB1, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sB1's list keeps its contents across the stretch. -/
theorem sB1_keeps (U : Valuation τ sig (Elt F)) (r : Ref sig .tc) (hr : r ∉ sB1_W) :
    after sB1 U (Proc.devRef (τ := τ) .tc r) = U (Proc.devRef (τ := τ) .tc r) :=
  after_of_writes_sub sB1 U sB1_writes hr

set_option maxRecDepth 8192 in
/-- Every operation of stretch sB2 writes one buffer of the stretch's list. -/
theorem sB2_writes : (sB2 : List (HloOp τ sig (Elt F))).Forall fun op => op.writes ⊆ (sB2_W.map (Proc.devRef (τ := τ) .tc)).toFinset := by
  simp only [sB2, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sB2's list keeps its contents across the stretch. -/
theorem sB2_keeps (U : Valuation τ sig (Elt F)) (r : Ref sig .tc) (hr : r ∉ sB2_W) :
    after sB2 U (Proc.devRef (τ := τ) .tc r) = U (Proc.devRef (τ := τ) .tc r) :=
  after_of_writes_sub sB2 U sB2_writes hr

set_option maxRecDepth 8192 in
/-- Every operation of stretch sB3 writes one buffer of the stretch's list. -/
theorem sB3_writes : (sB3 : List (HloOp τ sig (Elt F))).Forall fun op => op.writes ⊆ (sB3_W.map (Proc.devRef (τ := τ) .tc)).toFinset := by
  simp only [sB3, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sB3's list keeps its contents across the stretch. -/
theorem sB3_keeps (U : Valuation τ sig (Elt F)) (r : Ref sig .tc) (hr : r ∉ sB3_W) :
    after sB3 U (Proc.devRef (τ := τ) .tc r) = U (Proc.devRef (τ := τ) .tc r) :=
  after_of_writes_sub sB3 U sB3_writes hr

set_option maxRecDepth 8192 in
/-- Every operation of stretch sB4 writes one buffer of the stretch's list. -/
theorem sB4_writes : (sB4 : List (HloOp τ sig (Elt F))).Forall fun op => op.writes ⊆ (sB4_W.map (Proc.devRef (τ := τ) .tc)).toFinset := by
  simp only [sB4, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sB4's list keeps its contents across the stretch. -/
theorem sB4_keeps (U : Valuation τ sig (Elt F)) (r : Ref sig .tc) (hr : r ∉ sB4_W) :
    after sB4 U (Proc.devRef (τ := τ) .tc r) = U (Proc.devRef (τ := τ) .tc r) :=
  after_of_writes_sub sB4 U sB4_writes hr

set_option maxRecDepth 8192 in
/-- Every operation of stretch sB5 writes one buffer of the stretch's list. -/
theorem sB5_writes : (sB5 : List (HloOp τ sig (Elt F))).Forall fun op => op.writes ⊆ (sB5_W.map (Proc.devRef (τ := τ) .tc)).toFinset := by
  simp only [sB5, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sB5's list keeps its contents across the stretch. -/
theorem sB5_keeps (U : Valuation τ sig (Elt F)) (r : Ref sig .tc) (hr : r ∉ sB5_W) :
    after sB5 U (Proc.devRef (τ := τ) .tc r) = U (Proc.devRef (τ := τ) .tc r) :=
  after_of_writes_sub sB5 U sB5_writes hr

set_option maxRecDepth 8192 in
/-- Every operation of stretch sB6 writes one buffer of the stretch's list. -/
theorem sB6_writes : (sB6 : List (HloOp τ sig (Elt F))).Forall fun op => op.writes ⊆ (sB6_W.map (Proc.devRef (τ := τ) .tc)).toFinset := by
  simp only [sB6, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sB6's list keeps its contents across the stretch. -/
theorem sB6_keeps (U : Valuation τ sig (Elt F)) (r : Ref sig .tc) (hr : r ∉ sB6_W) :
    after sB6 U (Proc.devRef (τ := τ) .tc r) = U (Proc.devRef (τ := τ) .tc r) :=
  after_of_writes_sub sB6 U sB6_writes hr

set_option maxRecDepth 8192 in
/-- Every operation of stretch sC writes one buffer of the stretch's list. -/
theorem sC_writes : (sC : List (HloOp τ sig (Elt F))).Forall fun op => op.writes ⊆ (sC_W.map (Proc.devRef (τ := τ) .tc)).toFinset := by
  simp only [sC, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sC's list keeps its contents across the stretch. -/
theorem sC_keeps (U : Valuation τ sig (Elt F)) (r : Ref sig .tc) (hr : r ∉ sC_W) :
    after sC U (Proc.devRef (τ := τ) .tc r) = U (Proc.devRef (τ := τ) .tc r) :=
  after_of_writes_sub sC U sC_writes hr

set_option maxRecDepth 8192 in
/-- Every operation of stretch sD1 writes one buffer of the stretch's list. -/
theorem sD1_writes : (sD1 : List (HloOp τ sig (Elt F))).Forall fun op => op.writes ⊆ (sD1_W.map (Proc.devRef (τ := τ) .tc)).toFinset := by
  simp only [sD1, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sD1's list keeps its contents across the stretch. -/
theorem sD1_keeps (U : Valuation τ sig (Elt F)) (r : Ref sig .tc) (hr : r ∉ sD1_W) :
    after sD1 U (Proc.devRef (τ := τ) .tc r) = U (Proc.devRef (τ := τ) .tc r) :=
  after_of_writes_sub sD1 U sD1_writes hr

set_option maxRecDepth 8192 in
/-- Every operation of stretch sD2 writes one buffer of the stretch's list. -/
theorem sD2_writes : (sD2 : List (HloOp τ sig (Elt F))).Forall fun op => op.writes ⊆ (sD2_W.map (Proc.devRef (τ := τ) .tc)).toFinset := by
  simp only [sD2, List.Forall]
  repeat' apply And.intro
  all_goals first
    | exact writes_sub_of_mem (nullary_writes ..) (by decide)
    | exact writes_sub_of_mem (unary_writes ..) (by decide)
    | exact writes_sub_of_mem (binary_writes ..) (by decide)
    | exact writes_sub_of_mem (ternary_writes ..) (by decide)
    | exact writes_sub_of_mem (reshape_writes ..) (by decide)
    | exact writes_sub_of_mem (nary_writes ..) (by decide)

/-- A buffer outside stretch sD2's list keeps its contents across the stretch. -/
theorem sD2_keeps (U : Valuation τ sig (Elt F)) (r : Ref sig .tc) (hr : r ∉ sD2_W) :
    after sD2 U (Proc.devRef (τ := τ) .tc r) = U (Proc.devRef (τ := τ) .tc r) :=
  after_of_writes_sub sD2 U sD2_writes hr

end Cert.ReferenceIdeal.Val

end
-- ==== Proof.RefEnv.lean ====
/-
  The first stretch of the reference: the two tables, the scaled distance s = d · f32(1/5) on the edge axis, and the
  smoothing envelope with s⁷ and s⁸ as powers, selected against s < 1.
-/
import proofs.«169226_j83665962926262_1_alg».proof.Proof.RefBasic

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-- The row-major position of entry (l, k) of a 7 × 6 table is the column 6·l + k. -/
private theorem rowMajor_ix2 (l : Fin 7) (k : Fin 6) : S7x6.rowMajor (ix2 l k) = Spec.col l k := by
  apply Fin.ext
  rw [Shape.rowMajor_val_two]
  show l.val * 6 + k.val = 6 * l.val + k.val
  omega

/-- The table of Bessel zeros, entry (l, k). -/
theorem sA_zeros (U : Vl) (l : Fin 7) (k : Fin 6) :
    zerosOf (after sA U) (ix2 l k) = Spec.lit (lit0 (Spec.col l k)) := by
  show after sA U (Proc.devRef .tc main_cst) (ix2 l k) = _
  after_results_simp
  rw [rowMajor_ix2]
  rfl

/-- The table of normalisers, entry (l, k). -/
theorem sA_norms (U : Vl) (l : Fin 7) (k : Fin 6) :
    normsOf (after sA U) (ix2 l k) = Spec.lit (lit1 (Spec.col l k)) := by
  show after sA U (Proc.devRef .tc main_cst_0) (ix2 l k) = _
  after_results_simp
  rw [rowMajor_ix2]
  rfl

/-- The scaled distance of edge `e`. -/
theorem sA_scaled (U : Vl) (e : Fin 1000000) :
    scaledOf (after sA U) (ix1 e) = Spec.scaled (distOf U (ix1 e)) := by
  -- the splat of f32(1/5) reads its word at every index, so the product at e is d · f32(1/5)
  show after sA U (Proc.devRef .tc main_v1) (ix1 e) = _
  after_results_simp
  rfl

/-- The envelope of edge `e`, in the reference's power form. -/
theorem sA_env (U : Vl) (e : Fin 1000000) :
    envOf (after sA U) (ix1 e) = Spec.envR (Spec.scaled (distOf U (ix1 e))) := by
  -- every operation of the stretch is pointwise and every constant a splat: at e the composed term is the
  -- select on s < 1 between 1 − 28·s²(s²s²) + 48·s^7.0 − 21·s^8.0 and 0, which is envR s by unfolding
  show after sA U (Proc.devRef .tc main_v21) (ix1 e) = _
  after_results_simp
  rfl

end Cert.ReferenceIdeal.Val

end
-- ==== Proof.RefBesselLayout.lean ====
/-
  The layout steps of the radial stretches, read at a point. Every stretch moves its operands onto the [edges, 6] grid
  without touching a value: the scaled distances become a column and are repeated along the six lanes; a table's row is
  cut out, flattened, laid as a row and repeated along the edges; a scalar constant is repeated everywhere. Read at the
  point (e, k) these are the distance at e, the table at (row, k), and the constant.
-/
import proofs.«169226_j83665962926262_1_alg».proof.Proof.RefBasic
import Idealize.ShloMosaic.Lib.ValueLayout

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

section Layout
variable {α : Type}

/-- A vector over the edges laid as a column reads, at (i, u), the vector at i. -/
theorem col_apply (x : S1000000.Idx → α) (h : S1000000.BroadcastsInDim S1000000x1 (![0] : Fin 1 → Fin 2))
    (i : Fin 1000000) (u : Fin 1) : broadcastInDim S1000000x1 ![0] h x (ix2 i u) = x (ix1 i) := by
  refine broadcastInDim_apply _ h x (ix2 i u) (ix1 i) fun ax => ?_
  match ax with
  | ⟨0, _⟩ =>
    show i.val = if (1000000 : ℕ) = 1 then 0 else i.val
    rw [if_neg (by decide)]

/-- A vector of six laid as a row reads, at (u, k), the vector at k. -/
theorem row_apply (x : S6.Idx → α) (h : S6.BroadcastsInDim S1x6 (![1] : Fin 1 → Fin 2))
    (u : Fin 1) (k : Fin 6) : broadcastInDim S1x6 ![1] h x (ix2 u k) = x (ix1 k) := by
  refine broadcastInDim_apply _ h x (ix2 u k) (ix1 k) fun ax => ?_
  match ax with
  | ⟨0, _⟩ =>
    show k.val = if (6 : ℕ) = 1 then 0 else k.val
    rw [if_neg (by decide)]

/-- A column over the edges repeated along six lanes reads, at (e, k), the column at (e, 0). -/
theorem colSpread_apply (x : S1000000x1.Idx → α) (h : S1000000x1.BroadcastsInDim S1000000x6 (![0, 1] : Fin 2 → Fin 2))
    (e : Fin 1000000) (k : Fin 6) : broadcastInDim S1000000x6 ![0, 1] h x (ix2 e k) = x (ix2 e (0 : Fin 1)) := by
  refine broadcastInDim_apply _ h x (ix2 e k) (ix2 e (0 : Fin 1)) fun ax => ?_
  match ax with
  | ⟨0, _⟩ =>
    show e.val = if (1000000 : ℕ) = 1 then 0 else e.val
    rw [if_neg (by decide)]
  | ⟨1, _⟩ =>
    show 0 = if (1 : ℕ) = 1 then 0 else k.val
    rw [if_pos rfl]

/-- A row of six repeated along the edges reads, at (e, k), the row at (0, k). -/
theorem rowSpread_apply (x : S1x6.Idx → α) (h : S1x6.BroadcastsInDim S1000000x6 (![0, 1] : Fin 2 → Fin 2))
    (e : Fin 1000000) (k : Fin 6) : broadcastInDim S1000000x6 ![0, 1] h x (ix2 e k) = x (ix2 (0 : Fin 1) k) := by
  refine broadcastInDim_apply _ h x (ix2 e k) (ix2 (0 : Fin 1) k) fun ax => ?_
  match ax with
  | ⟨0, _⟩ =>
    show 0 = if (1 : ℕ) = 1 then 0 else e.val
    rw [if_pos rfl]
  | ⟨1, _⟩ =>
    show k.val = if (6 : ℕ) = 1 then 0 else k.val
    rw [if_neg (by decide)]

/-- A scalar repeated over the whole [edges, 6] grid reads the scalar at every point. -/
theorem scalarSpread_apply (x : S_.Idx → α) (h : S_.BroadcastsInDim S1000000x6 (![] : Fin 0 → Fin 2))
    (j : S1000000x6.Idx) : broadcastInDim S1000000x6 ![] h x j = x ix0 :=
  broadcastInDim_apply _ h x j ix0 fun ax => ax.elim0

/-- The vector over the edges, as a column repeated along six lanes, read at (e, k): the vector at e. -/
theorem edgeSpread (x : S1000000.Idx → α) (h1 : S1000000.BroadcastsInDim S1000000x1 (![0] : Fin 1 → Fin 2))
    (h2 : S1000000x1.BroadcastsInDim S1000000x6 (![0, 1] : Fin 2 → Fin 2)) (e : Fin 1000000) (k : Fin 6) :
    broadcastInDim S1000000x6 ![0, 1] h2 (broadcastInDim S1000000x1 ![0] h1 x) (ix2 e k) = x (ix1 e) := by
  rw [colSpread_apply, col_apply]

/-- Row o of a 7 × 6 table, cut out, flattened, laid as a row and repeated along the edges, read at (e, k): the table
    at (o, k). -/
theorem tableSpread (T : S7x6.Idx → α) (o : ℕ) (hs : S7x6.Slices ![o, 0] S1x6) (hc : S1x6.ShapeCasts S6)
    (h1 : S6.BroadcastsInDim S1x6 (![1] : Fin 1 → Fin 2)) (h2 : S1x6.BroadcastsInDim S1000000x6 (![0, 1] : Fin 2 → Fin 2))
    (e : Fin 1000000) (k : Fin 6) :
    broadcastInDim S1000000x6 ![0, 1] h2
        (broadcastInDim S1x6 ![1] h1 fun i => shapeCast S6 (extractStridedSlice S1x6 ![o, 0] T hs) hc i) (ix2 e k)
      = T (ix2 ⟨o, Nat.lt_of_lt_of_le (Nat.lt_succ_self o) (hs.2 0)⟩ k) := by
  rw [rowSpread_apply, row_apply, shapeCast_1a_a_apply, slice2_axis0_apply o T hs (0 : Fin 1) k ⟨o, _⟩ rfl]

end Layout

end Cert.ReferenceIdeal.Val

end
-- ==== Proof.RefBessel.lean ====
/-
  The seven radial stretches of the reference. Stretch l slices row l of the two tables, forms u = s · Z(l,k) on
  [edges, 6], runs the spherical Bessel recurrence up to order l, and multiplies by N(l,k).

  Each proof runs the stretch to the composed array term of its result, reads every elementwise step at the point (e, k),
  replaces the three layout chains (the distances as a column repeated along the lanes, a table's row repeated along the
  edges, a scalar repeated everywhere) by the values they hold there, and is then the scalar recurrence of the
  specification term for term: u = s · Z in that order, j_0 = sin u / u, j_1 = sin u / (u · u) − cos u / u,
  j_{m+1} = ((2m+1) / u) · j_m − j_{m−1}, and last N · j_l.
-/
import proofs.«169226_j83665962926262_1_alg».proof.Proof.RefBasic
import proofs.«169226_j83665962926262_1_alg».proof.Proof.RefBesselLayout

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

section Order0

/-- Order 0: entry (e, k) of the piece is N(0,k) · j_0(s(e) · Z(0,k)). -/
theorem sB0_piece (U : Vl) (e : Fin 1000000) (k : Fin 6) :
    pieceAt (after sB0 U) 0 (ix2 e k)
      = normsOf U (ix2 (0 : Fin 7) k) * Spec.bess 0 (scaledOf U (ix1 e) * zerosOf U (ix2 (0 : Fin 7) k)) := by
  show after sB0 U (Proc.devRef (τ := τ) .tc main_v35) (ix2 e k) = _
  after_results_simp
  simp only [mulf_apply, subf_apply, Host.divf, Host.sin, Host.cos, Ideal.hostDivf_def, Ideal.hostUnary_sin_def,
    Ideal.hostUnary_cos_def]
  erw [tableSpread, tableSpread, edgeSpread]
  rfl

end Order0

section Order1

/-- Order 1: entry (e, k) of the piece is N(1,k) · j_1(s(e) · Z(1,k)). -/
theorem sB1_piece (U : Vl) (e : Fin 1000000) (k : Fin 6) :
    pieceAt (after sB1 U) 1 (ix2 e k)
      = normsOf U (ix2 (1 : Fin 7) k) * Spec.bess 1 (scaledOf U (ix1 e) * zerosOf U (ix2 (1 : Fin 7) k)) := by
  show after sB1 U (Proc.devRef (τ := τ) .tc main_v55) (ix2 e k) = _
  after_results_simp
  simp only [mulf_apply, subf_apply, Host.divf, Host.sin, Host.cos, Ideal.hostDivf_def, Ideal.hostUnary_sin_def,
    Ideal.hostUnary_cos_def]
  erw [tableSpread, tableSpread, edgeSpread]
  rfl

end Order1

section Order2

/-- Order 2: entry (e, k) of the piece is N(2,k) · j_2(s(e) · Z(2,k)). -/
theorem sB2_piece (U : Vl) (e : Fin 1000000) (k : Fin 6) :
    pieceAt (after sB2 U) 2 (ix2 e k)
      = normsOf U (ix2 (2 : Fin 7) k) * Spec.bess 2 (scaledOf U (ix1 e) * zerosOf U (ix2 (2 : Fin 7) k)) := by
  show after sB2 U (Proc.devRef (τ := τ) .tc main_v79) (ix2 e k) = _
  after_results_simp
  simp only [mulf_apply, subf_apply, Host.divf, Host.sin, Host.cos, Ideal.hostDivf_def, Ideal.hostUnary_sin_def,
    Ideal.hostUnary_cos_def, scalarSpread_apply, constant_apply]
  erw [tableSpread, tableSpread, edgeSpread]
  rfl

end Order2

section Order3

/-- Order 3: entry (e, k) of the piece is N(3,k) · j_3(s(e) · Z(3,k)). -/
theorem sB3_piece (U : Vl) (e : Fin 1000000) (k : Fin 6) :
    pieceAt (after sB3 U) 3 (ix2 e k)
      = normsOf U (ix2 (3 : Fin 7) k) * Spec.bess 3 (scaledOf U (ix1 e) * zerosOf U (ix2 (3 : Fin 7) k)) := by
  show after sB3 U (Proc.devRef (τ := τ) .tc main_v107) (ix2 e k) = _
  after_results_simp
  simp only [mulf_apply, subf_apply, Host.divf, Host.sin, Host.cos, Ideal.hostDivf_def, Ideal.hostUnary_sin_def,
    Ideal.hostUnary_cos_def, scalarSpread_apply, constant_apply]
  erw [tableSpread, tableSpread, edgeSpread]
  rfl

end Order3

section Order4

/-- Order 4: entry (e, k) of the piece is N(4,k) · j_4(s(e) · Z(4,k)). -/
theorem sB4_piece (U : Vl) (e : Fin 1000000) (k : Fin 6) :
    pieceAt (after sB4 U) 4 (ix2 e k)
      = normsOf U (ix2 (4 : Fin 7) k) * Spec.bess 4 (scaledOf U (ix1 e) * zerosOf U (ix2 (4 : Fin 7) k)) := by
  show after sB4 U (Proc.devRef (τ := τ) .tc main_v139) (ix2 e k) = _
  after_results_simp
  simp only [mulf_apply, subf_apply, Host.divf, Host.sin, Host.cos, Ideal.hostDivf_def, Ideal.hostUnary_sin_def,
    Ideal.hostUnary_cos_def, scalarSpread_apply, constant_apply]
  erw [tableSpread, tableSpread, edgeSpread]
  rfl

end Order4

section Order5

/-- Order 5: entry (e, k) of the piece is N(5,k) · j_5(s(e) · Z(5,k)). -/
theorem sB5_piece (U : Vl) (e : Fin 1000000) (k : Fin 6) :
    pieceAt (after sB5 U) 5 (ix2 e k)
      = normsOf U (ix2 (5 : Fin 7) k) * Spec.bess 5 (scaledOf U (ix1 e) * zerosOf U (ix2 (5 : Fin 7) k)) := by
  show after sB5 U (Proc.devRef (τ := τ) .tc main_v175) (ix2 e k) = _
  after_results_simp
  simp only [mulf_apply, subf_apply, Host.divf, Host.sin, Host.cos, Ideal.hostDivf_def, Ideal.hostUnary_sin_def,
    Ideal.hostUnary_cos_def, scalarSpread_apply, constant_apply]
  erw [tableSpread, tableSpread, edgeSpread]
  rfl

end Order5

section Order6

/-- Order 6: entry (e, k) of the piece is N(6,k) · j_6(s(e) · Z(6,k)). -/
theorem sB6_piece (U : Vl) (e : Fin 1000000) (k : Fin 6) :
    pieceAt (after sB6 U) 6 (ix2 e k)
      = normsOf U (ix2 (6 : Fin 7) k) * Spec.bess 6 (scaledOf U (ix1 e) * zerosOf U (ix2 (6 : Fin 7) k)) := by
  show after sB6 U (Proc.devRef (τ := τ) .tc main_v215) (ix2 e k) = _
  after_results_simp
  simp only [mulf_apply, subf_apply, Host.divf, Host.sin, Host.cos, Ideal.hostDivf_def, Ideal.hostUnary_sin_def,
    Ideal.hostUnary_cos_def, scalarSpread_apply, constant_apply]
  erw [tableSpread, tableSpread, edgeSpread]
  rfl

end Order6

end Cert.ReferenceIdeal.Val

end
-- ==== Proof.RefGather.lean ====
/-
  The gathering stretch of the reference: the seven pieces side by side as [edges, 42], times the envelope of the edge,
  then row `edge(v)` of that table for every triplet, `v` the triplet's index word (a negative one wrapped, the start clamped).
-/
import proofs.«169226_j83665962926262_1_alg».proof.Proof.RefBasic

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

variable {α : Type}

/-- The gather's dimension numbers: operand [edges, 42], start indices [triplets, 1] with the index vector on axis 1,
    the row axis collapsed and indexed, the 42 columns the one offset axis. -/
private abbrev gd : GatherDims S1000000x42 S3000000x1 S3000000x42 := gather_S1000000x42_S3000000x1_S3000000x42_1_0_n_n_0_1_142

/-- The gather read at (t, j): the operand at row `row(v)`, `v` the start index word at (t, 0) read signed and clamped
    into the table, and column j. On the row axis the operand index is the clamped start alone (no batching axis, and a
    collapsed axis carries no offset); on the column axis the start is 0 and the offset is the result's column. -/
private theorem gather_apply (x : S1000000x42.Idx → α) (idx : IVec S3000000x1 32) (t : Fin 3000000) (j : Fin 42) :
    Host.gather gd x idx (ix2 t j) = x (ix2 (Spec.row (idx (ix2 t (0 : Fin 1)))) j) := by
  unfold Host.gather
  congr 1
  funext a
  refine Fin.ext ?_
  match a with
  | ⟨0, _⟩ =>
    show gd.start (ix2 t j) idx 0 + gd.batchCoord (ix2 t j) 0 + gd.offCoord (ix2 t j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    -- the start index of result (t, j) is read at (t, 0): t on the batch axis, component 0 on the index vector's axis
    have hsi : gd.siIdx (ix2 t j) ⟨List.idxOf (0 : Fin 2) gd.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show gd.start (ix2 t j) idx 1 + gd.batchCoord (ix2 t j) 1 + gd.offCoord (ix2 t j) 1 = _
    rw [GatherDims.batchCoord_eq_zero _ _ _ List.not_mem_nil]
    have h1 : (1 : Fin 2) ∉ gd.startIndexMap := fun h => absurd (List.mem_singleton.mp h) (by decide)
    have h2 : (1 : Fin 2) ∈ gd.sKept :=
      (GatherDims.mem_sKept _ _).mpr ⟨fun h => absurd (List.mem_singleton.mp h) (by decide), List.not_mem_nil⟩
    -- the one offset axis of the result is its axis 1
    have h3 : ∀ (n : Nat) (hp : n < gd.offsetDims.length), gd.offsetDims[n]'hp = (1 : Fin 2) :=
      fun n hp => List.mem_singleton.mp (List.getElem_mem hp)
    unfold GatherDims.start GatherDims.offCoord
    rw [dif_neg h1, dif_pos h2, h3]
    simp only [Nat.zero_add]

/-- A vector over the edges laid as a column [edges, 1] and spread over the 42 columns reads, at (e, j), its entry e. -/
private theorem bcast_col (v : S1000000.Idx → α) (h1 : S1000000.BroadcastsInDim S1000000x1 ![0])
    (h2 : S1000000x1.BroadcastsInDim S1000000x42 ![0, 1]) (e : Fin 1000000) (j : Fin 42) :
    broadcastInDim S1000000x42 ![0, 1] h2 (broadcastInDim S1000000x1 ![0] h1 v) (ix2 e j) = v (ix1 e) := by
  refine (broadcastInDim_apply _ h2 _ (ix2 e j) (ix2 e (0 : Fin 1)) fun a => ?_).trans
    (broadcastInDim_apply _ h1 _ (ix2 e (0 : Fin 1)) (ix1 e) fun a => ?_)
  · match a with
    | ⟨0, _⟩ =>
      show e.val = if (1000000 : ℕ) = 1 then 0 else e.val
      rw [if_neg (by decide)]
    | ⟨1, _⟩ =>
      show 0 = if (1 : ℕ) = 1 then 0 else j.val
      rw [if_pos rfl]
  · match a with
    | ⟨0, _⟩ =>
      show e.val = if (1000000 : ℕ) = 1 then 0 else e.val
      rw [if_neg (by decide)]

/-- A vector over the triplets laid as a column [triplets, 1] reads, at (t, 0), its entry t. -/
private theorem bcast_idx (w : S3000000.Idx → α) (h : S3000000.BroadcastsInDim S3000000x1 ![0]) (t : Fin 3000000) :
    broadcastInDim S3000000x1 ![0] h w (ix2 t (0 : Fin 1)) = w (ix1 t) := by
  refine broadcastInDim_apply _ h _ (ix2 t (0 : Fin 1)) (ix1 t) fun a => ?_
  match a with
  | ⟨0, _⟩ =>
    show t.val = if (3000000 : ℕ) = 1 then 0 else t.val
    rw [if_neg (by decide)]

/-- The seven [edges, 6] pieces side by side: column 6·l + k of the [edges, 42] table is column k of piece l, since
    (6·l + k) / 6 = l and (6·l + k) % 6 = k. -/
private theorem concat_apply (U : Vl)
    (h : Shape.Concatenates [S1000000x6, S1000000x6, S1000000x6, S1000000x6, S1000000x6, S1000000x6, S1000000x6] S1000000x42 1)
    (e : Fin 1000000) (l : Fin 7) (k : Fin 6) :
    concatenate S1000000x42 1 [⟨S1000000x6, pieceAt U 0⟩, ⟨S1000000x6, pieceAt U 1⟩, ⟨S1000000x6, pieceAt U 2⟩,
        ⟨S1000000x6, pieceAt U 3⟩, ⟨S1000000x6, pieceAt U 4⟩, ⟨S1000000x6, pieceAt U 5⟩, ⟨S1000000x6, pieceAt U 6⟩] h
      (ix2 e (Spec.col l k)) = pieceAt U l (ix2 e k) :=
  concatenate_ofFn_apply (t := S1000000x42) (s₁ := S1000000x6) 1 (N := 7) (fun n => pieceAt U n) h rfl 6 rfl
    (ix2 e (Spec.col l k)) l (Spec.col_div l k) (ix2 e k) (Spec.col_mod l k).symm
    (fun b hb => match b, hb with
      | ⟨0, _⟩, _ => rfl
      | ⟨1, _⟩, hb => absurd rfl hb)

/-- Entry (t, 6·l + k) of the gathered table: piece l at (edge, k) times the envelope at the edge. -/
theorem sC_gathered (U : Vl) (t : Fin 3000000) (l : Fin 7) (k : Fin 6) :
    gatheredOf (after sC U) (ix2 t (Spec.col l k))
      = pieceAt U l (ix2 (Spec.edge (idxOf U (ix1 t))) k) * envOf U (ix1 (Spec.edge (idxOf U (ix1 t)))) := by
  show after sC U (Proc.devRef .tc main_v226) (ix2 t (Spec.col l k)) = _
  after_results_simp
  -- the gather reads row row(v) of the product table, v the wrapped index word of triplet t …
  refine (gather_apply _ _ t (Spec.col l k)).trans ?_
  rw [bcast_idx, mulf_apply, bcast_col]
  -- … where the table is the concatenated pieces times the envelope of the row; the wrapped word is
  -- select (v < 0) (v + 1000000) v, which is wrap(v) by unfolding, so the row is edge(v)
  congr 1
  exact concat_apply U _ _ l k

end Cert.ReferenceIdeal.Val

end
-- ==== Proof.RefLegendre.lean ====
/-
  The angular stretches of the reference. First the cosine of each triplet's angle and the Legendre polynomials P_2 … P_6
  by Bonnet's recurrence; then each P_l times Y_l, the seven columns stacked and each repeated six times (column 6·l + k
  reads order l), times the mask, times the gathered radial table.
-/
import proofs.«169226_j83665962926262_1_alg».proof.Proof.RefBasic

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-! ## The recurrence, order by order

Every operation of the first stretch is elementwise on the triplet axis (a cosine, products, differences, quotients, and
splat constants), so each Legendre buffer read at a triplet is the scalar recurrence at that triplet's cosine: the composed
term and the scalar polynomial unfold to the same expression. -/

/-- The constant one: P_0. -/
private theorem leg0_at (U : Vl) (t : Fin 3000000) :
    after sD1 U (Proc.devRef (τ := τ) .tc main_v228) (ix1 t) = Spec.p0 := by
  after_results_simp
  rfl

/-- The cosine: P_1. -/
private theorem leg1_at (U : Vl) (t : Fin 3000000) :
    after sD1 U (Proc.devRef (τ := τ) .tc main_v227) (ix1 t) = Ideal.cos (angleOf U (ix1 t)) := by
  after_results_simp
  rfl

/-- P_2 = (3c·c − 1·P_0) / 2. -/
private theorem leg2_at (U : Vl) (t : Fin 3000000) :
    after sD1 U (Proc.devRef (τ := τ) .tc main_v236) (ix1 t) = Spec.p2 (Ideal.cos (angleOf U (ix1 t))) := by
  after_results_simp
  rfl

/-- P_3 = (5c·P_2 − 2·c) / 3. -/
private theorem leg3_at (U : Vl) (t : Fin 3000000) :
    after sD1 U (Proc.devRef (τ := τ) .tc main_v244) (ix1 t) = Spec.p3 (Ideal.cos (angleOf U (ix1 t))) := by
  after_results_simp
  rfl

set_option maxHeartbeats 1000000 in
/-- P_4 = (7c·P_3 − 3·P_2) / 4. -/
private theorem leg4_at (U : Vl) (t : Fin 3000000) :
    after sD1 U (Proc.devRef (τ := τ) .tc main_v252) (ix1 t) = Spec.p4 (Ideal.cos (angleOf U (ix1 t))) := by
  after_results_simp
  rfl

set_option maxHeartbeats 4000000 in
/-- P_5 = (9c·P_4 − 4·P_3) / 5. -/
private theorem leg5_at (U : Vl) (t : Fin 3000000) :
    after sD1 U (Proc.devRef (τ := τ) .tc main_v260) (ix1 t) = Spec.p5 (Ideal.cos (angleOf U (ix1 t))) := by
  after_results_simp
  rfl

set_option maxHeartbeats 4000000 in
/-- P_6 = (11c·P_5 − 5·P_4) / 6. -/
private theorem leg6_at (U : Vl) (t : Fin 3000000) :
    after sD1 U (Proc.devRef (τ := τ) .tc main_v268) (ix1 t) = Spec.p6 (Ideal.cos (angleOf U (ix1 t))) := by
  after_results_simp
  rfl

/-- After the recurrence the Legendre family holds P_l(cos θ_t). -/
theorem sD1_leg (U : Vl) (t : Fin 3000000) (l : Fin 7) :
    legAt (after sD1 U) l (ix1 t) = Spec.leg l (Ideal.cos (angleOf U (ix1 t))) := by
  fin_cases l
  · exact leg0_at U t
  · exact leg1_at U t
  · exact leg2_at U t
  · exact leg3_at U t
  · exact leg4_at U t
  · exact leg5_at U t
  · exact leg6_at U t

/-! ## The angular columns

The second stretch first forms the seven products Y_l · P_l on the triplet axis and lays each as a column; then it stacks the
columns, repeats each six times, flattens, and multiplies by the mask and by the gathered radial table. The two halves are
read separately: the columns from the entry buffers, and the result from the columns. -/

/-- A line run in two parts. -/
private theorem after_app : ∀ (l₁ l₂ : List (HloOp τ sig (Elt Ideal))) (V : Vl), after (l₁ ++ l₂) V = after l₂ (after l₁ V)
  | [], _, _ => rfl
  | op :: l₁, l₂, V => by rw [List.cons_append, after_cons, after_cons, after_app l₁ l₂]

/-- The second stretch is its first 28 operations (the seven columns) followed by its last six (the layout and the two products). -/
private theorem sD2_split (U : Vl) : after sD2 U = after (sD2.drop 28) (after (sD2.take 28) U) := by
  rw [← after_app, List.take_append_drop]

/-- The column of order `l`: an [triplets, 1] array, one buffer per order. -/
private def colAt (V : Vl) (l : Fin 7) : Vec Ideal S3000000x1 .f32 :=
  match l with
  | 0 => V (Proc.devRef (τ := τ) .tc main_v283) | 1 => V (Proc.devRef (τ := τ) .tc main_v284)
  | 2 => V (Proc.devRef (τ := τ) .tc main_v285) | 3 => V (Proc.devRef (τ := τ) .tc main_v286)
  | 4 => V (Proc.devRef (τ := τ) .tc main_v287) | 5 => V (Proc.devRef (τ := τ) .tc main_v288)
  | 6 => V (Proc.devRef (τ := τ) .tc main_v289)

/-- One of seven, by order. -/
private def pick {α : Type} (c0 c1 c2 c3 c4 c5 c6 : α) (l : Fin 7) : α :=
  match l with
  | 0 => c0 | 1 => c1 | 2 => c2 | 3 => c3 | 4 => c4 | 5 => c5 | 6 => c6

/-- Seven columns stacked along axis 1 read, at (t, l), column l at (t, 0): the pieces before it have extent 1 each. -/
private theorem stack_at {α : Type} (c0 c1 c2 c3 c4 c5 c6 : S3000000x1.Idx → α) (t : Fin 3000000) (l : Fin 7) :
    concatenate S3000000x7 1
        [⟨S3000000x1, c0⟩, ⟨S3000000x1, c1⟩, ⟨S3000000x1, c2⟩, ⟨S3000000x1, c3⟩, ⟨S3000000x1, c4⟩, ⟨S3000000x1, c5⟩,
          ⟨S3000000x1, c6⟩]
        concatenates_S3000000x1_S3000000x1_S3000000x1_S3000000x1_S3000000x1_S3000000x1_S3000000x1_S3000000x7_d1 (ix2 t l)
      = pick c0 c1 c2 c3 c4 c5 c6 l (ix2 t (0 : Fin 1)) := by
  refine concatenate_apply_piece (1 : Fin S3000000x7.rank)
    [⟨S3000000x1, c0⟩, ⟨S3000000x1, c1⟩, ⟨S3000000x1, c2⟩, ⟨S3000000x1, c3⟩, ⟨S3000000x1, c4⟩, ⟨S3000000x1, c5⟩,
      ⟨S3000000x1, c6⟩]
    concatenates_S3000000x1_S3000000x1_S3000000x1_S3000000x1_S3000000x1_S3000000x1_S3000000x1_S3000000x7_d1
    (ix2 t l) l.val ?_ S3000000x1 (pick c0 c1 c2 c3 c4 c5 c6 l) ?_ rfl l.val ?_ (ix2 t (0 : Fin 1)) ?_ ?_
  · exact l.isLt
  · fin_cases l <;> rfl
  · fin_cases l <;> rfl
  · intro b hb
    match b, hb with
    | ⟨0, _⟩, _ => rfl
    | ⟨1, _⟩, hb => exact absurd rfl hb
  · rfl

/-- Seven columns stacked along axis 1, each entry repeated six times along a new last axis, then flattened row-major:
    column 6·l + k of row t reads column l at row t. The flat position of (t, 6·l + k) in [T, 42] is t·42 + 6·l + k, which
    is the position (t·7 + l)·6 + k of (t, l, k) in [T, 7, 6]; the repeat drops k; the stack reads piece l at (t, 0). -/
private theorem stacked_at {α : Type} (c0 c1 c2 c3 c4 c5 c6 : S3000000x1.Idx → α) (t : Fin 3000000) (l : Fin 7) (k : Fin 6) :
    shapeCast S3000000x42
        (broadcastInDim S3000000x7x6 ![0, 1] bcast_S3000000x7_S3000000x7x6_0_1
          (concatenate S3000000x7 1
            [⟨S3000000x1, c0⟩, ⟨S3000000x1, c1⟩, ⟨S3000000x1, c2⟩, ⟨S3000000x1, c3⟩, ⟨S3000000x1, c4⟩, ⟨S3000000x1, c5⟩,
              ⟨S3000000x1, c6⟩]
            concatenates_S3000000x1_S3000000x1_S3000000x1_S3000000x1_S3000000x1_S3000000x1_S3000000x1_S3000000x7_d1))
        shapeCasts_S3000000x7x6_S3000000x42 (ix2 t (Spec.col l k))
      = pick c0 c1 c2 c3 c4 c5 c6 l (ix2 t (0 : Fin 1)) := by
  refine (shapeCast_apply _ _ (ix2 t (Spec.col l k)) (ix3 t l k) ?_).trans ?_
  · have e3 : (S3000000x7x6.rowMajor (ix3 t l k)).val = (t.val * 7 + l.val) * 6 + k.val :=
      Shape.rowMajor_val_three (d := ![3000000, 7, 6]) (ix3 t l k)
    have e2 : (S3000000x42.rowMajor (ix2 t (Spec.col l k))).val = t.val * 42 + (6 * l.val + k.val) :=
      Shape.rowMajor_val_two (d := ![3000000, 42]) (ix2 t (Spec.col l k))
    rw [e3, e2]; omega
  refine (broadcastInDim_apply _ _ _ (ix3 t l k) (ix2 t l) (fun a => ?_)).trans (stack_at c0 c1 c2 c3 c4 c5 c6 t l)
  match a with
  | ⟨0, _⟩ => rfl
  | ⟨1, _⟩ => rfl

/-- A column spread over 42 lanes reads, at (t, c), the column's entry of row t. -/
private theorem spread_at {α : Type} (m : S3000000x1.Idx → α) (t : Fin 3000000) (c : Fin 42) :
    broadcastInDim S3000000x42 ![0, 1] bcast_S3000000x1_S3000000x42_0_1 m (ix2 t c) = m (ix2 t (0 : Fin 1)) :=
  broadcastInDim_apply _ _ _ (ix2 t c) (ix2 t (0 : Fin 1)) fun a =>
    match a with
    | ⟨0, _⟩ => rfl
    | ⟨1, _⟩ => rfl

/-- A vector laid as a column reads, at (t, 0), the vector's entry t. -/
private theorem column_at {α : Type} (v : S3000000.Idx → α) (t : Fin 3000000) :
    broadcastInDim S3000000x1 ![0] bcast_S3000000_S3000000x1_0 v (ix2 t (0 : Fin 1)) = v (ix1 t) :=
  broadcastInDim_apply _ _ _ (ix2 t (0 : Fin 1)) (ix1 t) fun a =>
    match a with
    | ⟨0, _⟩ => rfl

/-- The last six operations: from the seven columns to the result. -/
private theorem tail_at (V : Vl) (t : Fin 3000000) (l : Fin 7) (k : Fin 6) :
    after (sD2.drop 28) V (Proc.devRef (τ := τ) .tc main_v295) (ix2 t (Spec.col l k))
      = gatheredOf V (ix2 t (Spec.col l k)) * (colAt V l (ix2 t (0 : Fin 1)) * maskOf V (ix2 t (0 : Fin 1))) := by
  simp only [sD2, List.drop_succ_cons, List.drop_zero]
  after_results_simp
  simp only [mulf_apply]
  refine congrArg₂ (· * ·) rfl (congrArg₂ (· * ·) ?_ (spread_at _ t _))
  refine (stacked_at _ _ _ _ _ _ _ t l k).trans ?_
  fin_cases l <;> rfl

/-- The first 28 operations leave the gathered table alone … -/
private theorem head_keeps_gathered (U : Vl) : gatheredOf (after (sD2.take 28) U) = gatheredOf U := by
  show after (sD2.take 28) U (Proc.devRef (τ := τ) .tc main_v226) = U (Proc.devRef (τ := τ) .tc main_v226)
  simp only [sD2, List.take_succ_cons, List.take_zero]
  after_results_simp

/-- … and the mask. -/
private theorem head_keeps_mask (U : Vl) : maskOf (after (sD2.take 28) U) = maskOf U := by
  show after (sD2.take 28) U (Proc.devRef (τ := τ) .tc main_arg2) = U (Proc.devRef (τ := τ) .tc main_arg2)
  simp only [sD2, List.take_succ_cons, List.take_zero]
  after_results_simp

/-- The column of order l holds Y_l · P_l at (t, 0). -/
private theorem head_at (U : Vl) (t : Fin 3000000) (l : Fin 7) :
    colAt (after (sD2.take 28) U) l (ix2 t (0 : Fin 1)) = Spec.lit (Spec.sphW l) * legAt U l (ix1 t) := by
  fin_cases l
  · show after (sD2.take 28) U (Proc.devRef (τ := τ) .tc main_v283) (ix2 t (0 : Fin 1)) = _
    simp only [sD2, List.take_succ_cons, List.take_zero]
    after_results_simp
    exact (column_at _ t).trans rfl
  · show after (sD2.take 28) U (Proc.devRef (τ := τ) .tc main_v284) (ix2 t (0 : Fin 1)) = _
    simp only [sD2, List.take_succ_cons, List.take_zero]
    after_results_simp
    exact (column_at _ t).trans rfl
  · show after (sD2.take 28) U (Proc.devRef (τ := τ) .tc main_v285) (ix2 t (0 : Fin 1)) = _
    simp only [sD2, List.take_succ_cons, List.take_zero]
    after_results_simp
    exact (column_at _ t).trans rfl
  · show after (sD2.take 28) U (Proc.devRef (τ := τ) .tc main_v286) (ix2 t (0 : Fin 1)) = _
    simp only [sD2, List.take_succ_cons, List.take_zero]
    after_results_simp
    exact (column_at _ t).trans rfl
  · show after (sD2.take 28) U (Proc.devRef (τ := τ) .tc main_v287) (ix2 t (0 : Fin 1)) = _
    simp only [sD2, List.take_succ_cons, List.take_zero]
    after_results_simp
    exact (column_at _ t).trans rfl
  · show after (sD2.take 28) U (Proc.devRef (τ := τ) .tc main_v288) (ix2 t (0 : Fin 1)) = _
    simp only [sD2, List.take_succ_cons, List.take_zero]
    after_results_simp
    exact (column_at _ t).trans rfl
  · show after (sD2.take 28) U (Proc.devRef (τ := τ) .tc main_v289) (ix2 t (0 : Fin 1)) = _
    simp only [sD2, List.take_succ_cons, List.take_zero]
    after_results_simp
    exact (column_at _ t).trans rfl

/-- The result at (t, 6·l + k): the gathered radial entry times (Y_l · P_l · mask). -/
theorem sD2_out (U : Vl) (t : Fin 3000000) (l : Fin 7) (k : Fin 6) :
    outOf (after sD2 U) (ix2 t (Spec.col l k))
      = gatheredOf U (ix2 t (Spec.col l k)) * ((Spec.lit (Spec.sphW l) * legAt U l (ix1 t)) * maskOf U (ix2 t (0 : Fin 1))) := by
  show after sD2 U (Proc.devRef (τ := τ) .tc main_v295) (ix2 t (Spec.col l k)) = _
  rw [sD2_split, tail_at, head_at, head_keeps_gathered, head_keeps_mask]

end Cert.ReferenceIdeal.Val

end
-- ==== Proof.RefValue.lean ====
/-
  The reference's result, entry by entry: the stretches' readings put one after the other. The last stretch multiplies the
  gathered radial entry by the angular factor; the Legendre value comes from the stretch before, which leaves the gathered
  table alone; the gathered entry is piece l at the selected edge times that edge's envelope; piece l comes from its own
  radial stretch, untouched by the later ones, over the scaled distance and the tables of the first stretch. Whatever a
  stretch does not write it keeps.
-/
import proofs.«169226_j83665962926262_1_alg».proof.Proof.RefRun
import proofs.«169226_j83665962926262_1_alg».proof.Proof.RefKeeps
import proofs.«169226_j83665962926262_1_alg».proof.Proof.RefEnv
import proofs.«169226_j83665962926262_1_alg».proof.Proof.RefBessel
import proofs.«169226_j83665962926262_1_alg».proof.Proof.RefGather
import proofs.«169226_j83665962926262_1_alg».proof.Proof.RefLegendre

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-! ## What each stretch keeps, accessor by accessor -/

theorem maskOf_sA (U : Vl) : maskOf (after sA U) = maskOf U := sA_keeps U main_arg2 (by decide)
theorem maskOf_sB0 (U : Vl) : maskOf (after sB0 U) = maskOf U := sB0_keeps U main_arg2 (by decide)
theorem maskOf_sB1 (U : Vl) : maskOf (after sB1 U) = maskOf U := sB1_keeps U main_arg2 (by decide)
theorem maskOf_sB2 (U : Vl) : maskOf (after sB2 U) = maskOf U := sB2_keeps U main_arg2 (by decide)
theorem maskOf_sB3 (U : Vl) : maskOf (after sB3 U) = maskOf U := sB3_keeps U main_arg2 (by decide)
theorem maskOf_sB4 (U : Vl) : maskOf (after sB4 U) = maskOf U := sB4_keeps U main_arg2 (by decide)
theorem maskOf_sB5 (U : Vl) : maskOf (after sB5 U) = maskOf U := sB5_keeps U main_arg2 (by decide)
theorem maskOf_sB6 (U : Vl) : maskOf (after sB6 U) = maskOf U := sB6_keeps U main_arg2 (by decide)
theorem maskOf_sC (U : Vl) : maskOf (after sC U) = maskOf U := sC_keeps U main_arg2 (by decide)
theorem maskOf_sD1 (U : Vl) : maskOf (after sD1 U) = maskOf U := sD1_keeps U main_arg2 (by decide)
theorem angleOf_sA (U : Vl) : angleOf (after sA U) = angleOf U := sA_keeps U main_arg1 (by decide)
theorem angleOf_sB0 (U : Vl) : angleOf (after sB0 U) = angleOf U := sB0_keeps U main_arg1 (by decide)
theorem angleOf_sB1 (U : Vl) : angleOf (after sB1 U) = angleOf U := sB1_keeps U main_arg1 (by decide)
theorem angleOf_sB2 (U : Vl) : angleOf (after sB2 U) = angleOf U := sB2_keeps U main_arg1 (by decide)
theorem angleOf_sB3 (U : Vl) : angleOf (after sB3 U) = angleOf U := sB3_keeps U main_arg1 (by decide)
theorem angleOf_sB4 (U : Vl) : angleOf (after sB4 U) = angleOf U := sB4_keeps U main_arg1 (by decide)
theorem angleOf_sB5 (U : Vl) : angleOf (after sB5 U) = angleOf U := sB5_keeps U main_arg1 (by decide)
theorem angleOf_sB6 (U : Vl) : angleOf (after sB6 U) = angleOf U := sB6_keeps U main_arg1 (by decide)
theorem angleOf_sC (U : Vl) : angleOf (after sC U) = angleOf U := sC_keeps U main_arg1 (by decide)
theorem idxOf_sA (U : Vl) : idxOf (after sA U) = idxOf U := sA_keeps U main_arg4 (by decide)
theorem idxOf_sB0 (U : Vl) : idxOf (after sB0 U) = idxOf U := sB0_keeps U main_arg4 (by decide)
theorem idxOf_sB1 (U : Vl) : idxOf (after sB1 U) = idxOf U := sB1_keeps U main_arg4 (by decide)
theorem idxOf_sB2 (U : Vl) : idxOf (after sB2 U) = idxOf U := sB2_keeps U main_arg4 (by decide)
theorem idxOf_sB3 (U : Vl) : idxOf (after sB3 U) = idxOf U := sB3_keeps U main_arg4 (by decide)
theorem idxOf_sB4 (U : Vl) : idxOf (after sB4 U) = idxOf U := sB4_keeps U main_arg4 (by decide)
theorem idxOf_sB5 (U : Vl) : idxOf (after sB5 U) = idxOf U := sB5_keeps U main_arg4 (by decide)
theorem idxOf_sB6 (U : Vl) : idxOf (after sB6 U) = idxOf U := sB6_keeps U main_arg4 (by decide)
theorem zerosOf_sB0 (U : Vl) : zerosOf (after sB0 U) = zerosOf U := sB0_keeps U main_cst (by decide)
theorem zerosOf_sB1 (U : Vl) : zerosOf (after sB1 U) = zerosOf U := sB1_keeps U main_cst (by decide)
theorem zerosOf_sB2 (U : Vl) : zerosOf (after sB2 U) = zerosOf U := sB2_keeps U main_cst (by decide)
theorem zerosOf_sB3 (U : Vl) : zerosOf (after sB3 U) = zerosOf U := sB3_keeps U main_cst (by decide)
theorem zerosOf_sB4 (U : Vl) : zerosOf (after sB4 U) = zerosOf U := sB4_keeps U main_cst (by decide)
theorem zerosOf_sB5 (U : Vl) : zerosOf (after sB5 U) = zerosOf U := sB5_keeps U main_cst (by decide)
theorem normsOf_sB0 (U : Vl) : normsOf (after sB0 U) = normsOf U := sB0_keeps U main_cst_0 (by decide)
theorem normsOf_sB1 (U : Vl) : normsOf (after sB1 U) = normsOf U := sB1_keeps U main_cst_0 (by decide)
theorem normsOf_sB2 (U : Vl) : normsOf (after sB2 U) = normsOf U := sB2_keeps U main_cst_0 (by decide)
theorem normsOf_sB3 (U : Vl) : normsOf (after sB3 U) = normsOf U := sB3_keeps U main_cst_0 (by decide)
theorem normsOf_sB4 (U : Vl) : normsOf (after sB4 U) = normsOf U := sB4_keeps U main_cst_0 (by decide)
theorem normsOf_sB5 (U : Vl) : normsOf (after sB5 U) = normsOf U := sB5_keeps U main_cst_0 (by decide)
theorem scaledOf_sB0 (U : Vl) : scaledOf (after sB0 U) = scaledOf U := sB0_keeps U main_v1 (by decide)
theorem scaledOf_sB1 (U : Vl) : scaledOf (after sB1 U) = scaledOf U := sB1_keeps U main_v1 (by decide)
theorem scaledOf_sB2 (U : Vl) : scaledOf (after sB2 U) = scaledOf U := sB2_keeps U main_v1 (by decide)
theorem scaledOf_sB3 (U : Vl) : scaledOf (after sB3 U) = scaledOf U := sB3_keeps U main_v1 (by decide)
theorem scaledOf_sB4 (U : Vl) : scaledOf (after sB4 U) = scaledOf U := sB4_keeps U main_v1 (by decide)
theorem scaledOf_sB5 (U : Vl) : scaledOf (after sB5 U) = scaledOf U := sB5_keeps U main_v1 (by decide)
theorem envOf_sB0 (U : Vl) : envOf (after sB0 U) = envOf U := sB0_keeps U main_v21 (by decide)
theorem envOf_sB1 (U : Vl) : envOf (after sB1 U) = envOf U := sB1_keeps U main_v21 (by decide)
theorem envOf_sB2 (U : Vl) : envOf (after sB2 U) = envOf U := sB2_keeps U main_v21 (by decide)
theorem envOf_sB3 (U : Vl) : envOf (after sB3 U) = envOf U := sB3_keeps U main_v21 (by decide)
theorem envOf_sB4 (U : Vl) : envOf (after sB4 U) = envOf U := sB4_keeps U main_v21 (by decide)
theorem envOf_sB5 (U : Vl) : envOf (after sB5 U) = envOf U := sB5_keeps U main_v21 (by decide)
theorem envOf_sB6 (U : Vl) : envOf (after sB6 U) = envOf U := sB6_keeps U main_v21 (by decide)
theorem gatheredOf_sD1 (U : Vl) : gatheredOf (after sD1 U) = gatheredOf U := sD1_keeps U main_v226 (by decide)
theorem piece0_sB1 (U : Vl) : pieceAt (after sB1 U) 0 = pieceAt U 0 := sB1_keeps U main_v35 (by decide)
theorem piece0_sB2 (U : Vl) : pieceAt (after sB2 U) 0 = pieceAt U 0 := sB2_keeps U main_v35 (by decide)
theorem piece0_sB3 (U : Vl) : pieceAt (after sB3 U) 0 = pieceAt U 0 := sB3_keeps U main_v35 (by decide)
theorem piece0_sB4 (U : Vl) : pieceAt (after sB4 U) 0 = pieceAt U 0 := sB4_keeps U main_v35 (by decide)
theorem piece0_sB5 (U : Vl) : pieceAt (after sB5 U) 0 = pieceAt U 0 := sB5_keeps U main_v35 (by decide)
theorem piece0_sB6 (U : Vl) : pieceAt (after sB6 U) 0 = pieceAt U 0 := sB6_keeps U main_v35 (by decide)
theorem piece1_sB2 (U : Vl) : pieceAt (after sB2 U) 1 = pieceAt U 1 := sB2_keeps U main_v55 (by decide)
theorem piece1_sB3 (U : Vl) : pieceAt (after sB3 U) 1 = pieceAt U 1 := sB3_keeps U main_v55 (by decide)
theorem piece1_sB4 (U : Vl) : pieceAt (after sB4 U) 1 = pieceAt U 1 := sB4_keeps U main_v55 (by decide)
theorem piece1_sB5 (U : Vl) : pieceAt (after sB5 U) 1 = pieceAt U 1 := sB5_keeps U main_v55 (by decide)
theorem piece1_sB6 (U : Vl) : pieceAt (after sB6 U) 1 = pieceAt U 1 := sB6_keeps U main_v55 (by decide)
theorem piece2_sB3 (U : Vl) : pieceAt (after sB3 U) 2 = pieceAt U 2 := sB3_keeps U main_v79 (by decide)
theorem piece2_sB4 (U : Vl) : pieceAt (after sB4 U) 2 = pieceAt U 2 := sB4_keeps U main_v79 (by decide)
theorem piece2_sB5 (U : Vl) : pieceAt (after sB5 U) 2 = pieceAt U 2 := sB5_keeps U main_v79 (by decide)
theorem piece2_sB6 (U : Vl) : pieceAt (after sB6 U) 2 = pieceAt U 2 := sB6_keeps U main_v79 (by decide)
theorem piece3_sB4 (U : Vl) : pieceAt (after sB4 U) 3 = pieceAt U 3 := sB4_keeps U main_v107 (by decide)
theorem piece3_sB5 (U : Vl) : pieceAt (after sB5 U) 3 = pieceAt U 3 := sB5_keeps U main_v107 (by decide)
theorem piece3_sB6 (U : Vl) : pieceAt (after sB6 U) 3 = pieceAt U 3 := sB6_keeps U main_v107 (by decide)
theorem piece4_sB5 (U : Vl) : pieceAt (after sB5 U) 4 = pieceAt U 4 := sB5_keeps U main_v139 (by decide)
theorem piece4_sB6 (U : Vl) : pieceAt (after sB6 U) 4 = pieceAt U 4 := sB6_keeps U main_v139 (by decide)
theorem piece5_sB6 (U : Vl) : pieceAt (after sB6 U) 5 = pieceAt U 5 := sB6_keeps U main_v175 (by decide)

/-! ## The result, order by order -/

/-- Order 0. -/
theorem result0 (V : Vl) (t : Fin 3000000) (k : Fin 6) :
    outOf (after Run.ops V) (ix2 t (Spec.col 0 k))
      = Spec.valR (Spec.lit (lit0 (Spec.col 0 k))) (Spec.lit (lit1 (Spec.col 0 k)))
          (distOf V (ix1 (Spec.edge (idxOf V (ix1 t))))) (angleOf V (ix1 t)) (maskOf V (ix2 t (0 : Fin 1))) 0 := by
  rw [Run.after_ops, sD2_out, sD1_leg, gatheredOf_sD1, sC_gathered]
  rw [maskOf_sD1, maskOf_sC, maskOf_sB6, maskOf_sB5, maskOf_sB4, maskOf_sB3, maskOf_sB2, maskOf_sB1, maskOf_sB0, maskOf_sA]
  rw [angleOf_sC, angleOf_sB6, angleOf_sB5, angleOf_sB4, angleOf_sB3, angleOf_sB2, angleOf_sB1, angleOf_sB0, angleOf_sA]
  rw [idxOf_sB6, idxOf_sB5, idxOf_sB4, idxOf_sB3, idxOf_sB2, idxOf_sB1, idxOf_sB0, idxOf_sA]
  rw [envOf_sB6, envOf_sB5, envOf_sB4, envOf_sB3, envOf_sB2, envOf_sB1, envOf_sB0, sA_env]
  rw [piece0_sB6, piece0_sB5, piece0_sB4, piece0_sB3, piece0_sB2, piece0_sB1, sB0_piece]
  rw [sA_norms, sA_scaled, sA_zeros]
  rfl

/-- Order 1. -/
theorem result1 (V : Vl) (t : Fin 3000000) (k : Fin 6) :
    outOf (after Run.ops V) (ix2 t (Spec.col 1 k))
      = Spec.valR (Spec.lit (lit0 (Spec.col 1 k))) (Spec.lit (lit1 (Spec.col 1 k)))
          (distOf V (ix1 (Spec.edge (idxOf V (ix1 t))))) (angleOf V (ix1 t)) (maskOf V (ix2 t (0 : Fin 1))) 1 := by
  rw [Run.after_ops, sD2_out, sD1_leg, gatheredOf_sD1, sC_gathered]
  rw [maskOf_sD1, maskOf_sC, maskOf_sB6, maskOf_sB5, maskOf_sB4, maskOf_sB3, maskOf_sB2, maskOf_sB1, maskOf_sB0, maskOf_sA]
  rw [angleOf_sC, angleOf_sB6, angleOf_sB5, angleOf_sB4, angleOf_sB3, angleOf_sB2, angleOf_sB1, angleOf_sB0, angleOf_sA]
  rw [idxOf_sB6, idxOf_sB5, idxOf_sB4, idxOf_sB3, idxOf_sB2, idxOf_sB1, idxOf_sB0, idxOf_sA]
  rw [envOf_sB6, envOf_sB5, envOf_sB4, envOf_sB3, envOf_sB2, envOf_sB1, envOf_sB0, sA_env]
  rw [piece1_sB6, piece1_sB5, piece1_sB4, piece1_sB3, piece1_sB2, sB1_piece]
  rw [normsOf_sB0, scaledOf_sB0, zerosOf_sB0]
  rw [sA_norms, sA_scaled, sA_zeros]
  rfl

/-- Order 2. -/
theorem result2 (V : Vl) (t : Fin 3000000) (k : Fin 6) :
    outOf (after Run.ops V) (ix2 t (Spec.col 2 k))
      = Spec.valR (Spec.lit (lit0 (Spec.col 2 k))) (Spec.lit (lit1 (Spec.col 2 k)))
          (distOf V (ix1 (Spec.edge (idxOf V (ix1 t))))) (angleOf V (ix1 t)) (maskOf V (ix2 t (0 : Fin 1))) 2 := by
  rw [Run.after_ops, sD2_out, sD1_leg, gatheredOf_sD1, sC_gathered]
  rw [maskOf_sD1, maskOf_sC, maskOf_sB6, maskOf_sB5, maskOf_sB4, maskOf_sB3, maskOf_sB2, maskOf_sB1, maskOf_sB0, maskOf_sA]
  rw [angleOf_sC, angleOf_sB6, angleOf_sB5, angleOf_sB4, angleOf_sB3, angleOf_sB2, angleOf_sB1, angleOf_sB0, angleOf_sA]
  rw [idxOf_sB6, idxOf_sB5, idxOf_sB4, idxOf_sB3, idxOf_sB2, idxOf_sB1, idxOf_sB0, idxOf_sA]
  rw [envOf_sB6, envOf_sB5, envOf_sB4, envOf_sB3, envOf_sB2, envOf_sB1, envOf_sB0, sA_env]
  rw [piece2_sB6, piece2_sB5, piece2_sB4, piece2_sB3, sB2_piece]
  rw [normsOf_sB1, scaledOf_sB1, zerosOf_sB1, normsOf_sB0, scaledOf_sB0, zerosOf_sB0]
  rw [sA_norms, sA_scaled, sA_zeros]
  rfl

/-- Order 3. -/
theorem result3 (V : Vl) (t : Fin 3000000) (k : Fin 6) :
    outOf (after Run.ops V) (ix2 t (Spec.col 3 k))
      = Spec.valR (Spec.lit (lit0 (Spec.col 3 k))) (Spec.lit (lit1 (Spec.col 3 k)))
          (distOf V (ix1 (Spec.edge (idxOf V (ix1 t))))) (angleOf V (ix1 t)) (maskOf V (ix2 t (0 : Fin 1))) 3 := by
  rw [Run.after_ops, sD2_out, sD1_leg, gatheredOf_sD1, sC_gathered]
  rw [maskOf_sD1, maskOf_sC, maskOf_sB6, maskOf_sB5, maskOf_sB4, maskOf_sB3, maskOf_sB2, maskOf_sB1, maskOf_sB0, maskOf_sA]
  rw [angleOf_sC, angleOf_sB6, angleOf_sB5, angleOf_sB4, angleOf_sB3, angleOf_sB2, angleOf_sB1, angleOf_sB0, angleOf_sA]
  rw [idxOf_sB6, idxOf_sB5, idxOf_sB4, idxOf_sB3, idxOf_sB2, idxOf_sB1, idxOf_sB0, idxOf_sA]
  rw [envOf_sB6, envOf_sB5, envOf_sB4, envOf_sB3, envOf_sB2, envOf_sB1, envOf_sB0, sA_env]
  rw [piece3_sB6, piece3_sB5, piece3_sB4, sB3_piece]
  rw [normsOf_sB2, scaledOf_sB2, zerosOf_sB2, normsOf_sB1, scaledOf_sB1, zerosOf_sB1, normsOf_sB0, scaledOf_sB0, zerosOf_sB0]
  rw [sA_norms, sA_scaled, sA_zeros]
  rfl

/-- Order 4. -/
theorem result4 (V : Vl) (t : Fin 3000000) (k : Fin 6) :
    outOf (after Run.ops V) (ix2 t (Spec.col 4 k))
      = Spec.valR (Spec.lit (lit0 (Spec.col 4 k))) (Spec.lit (lit1 (Spec.col 4 k)))
          (distOf V (ix1 (Spec.edge (idxOf V (ix1 t))))) (angleOf V (ix1 t)) (maskOf V (ix2 t (0 : Fin 1))) 4 := by
  rw [Run.after_ops, sD2_out, sD1_leg, gatheredOf_sD1, sC_gathered]
  rw [maskOf_sD1, maskOf_sC, maskOf_sB6, maskOf_sB5, maskOf_sB4, maskOf_sB3, maskOf_sB2, maskOf_sB1, maskOf_sB0, maskOf_sA]
  rw [angleOf_sC, angleOf_sB6, angleOf_sB5, angleOf_sB4, angleOf_sB3, angleOf_sB2, angleOf_sB1, angleOf_sB0, angleOf_sA]
  rw [idxOf_sB6, idxOf_sB5, idxOf_sB4, idxOf_sB3, idxOf_sB2, idxOf_sB1, idxOf_sB0, idxOf_sA]
  rw [envOf_sB6, envOf_sB5, envOf_sB4, envOf_sB3, envOf_sB2, envOf_sB1, envOf_sB0, sA_env]
  rw [piece4_sB6, piece4_sB5, sB4_piece]
  rw [normsOf_sB3, scaledOf_sB3, zerosOf_sB3, normsOf_sB2, scaledOf_sB2, zerosOf_sB2, normsOf_sB1, scaledOf_sB1, zerosOf_sB1, normsOf_sB0, scaledOf_sB0, zerosOf_sB0]
  rw [sA_norms, sA_scaled, sA_zeros]
  rfl

/-- Order 5. -/
theorem result5 (V : Vl) (t : Fin 3000000) (k : Fin 6) :
    outOf (after Run.ops V) (ix2 t (Spec.col 5 k))
      = Spec.valR (Spec.lit (lit0 (Spec.col 5 k))) (Spec.lit (lit1 (Spec.col 5 k)))
          (distOf V (ix1 (Spec.edge (idxOf V (ix1 t))))) (angleOf V (ix1 t)) (maskOf V (ix2 t (0 : Fin 1))) 5 := by
  rw [Run.after_ops, sD2_out, sD1_leg, gatheredOf_sD1, sC_gathered]
  rw [maskOf_sD1, maskOf_sC, maskOf_sB6, maskOf_sB5, maskOf_sB4, maskOf_sB3, maskOf_sB2, maskOf_sB1, maskOf_sB0, maskOf_sA]
  rw [angleOf_sC, angleOf_sB6, angleOf_sB5, angleOf_sB4, angleOf_sB3, angleOf_sB2, angleOf_sB1, angleOf_sB0, angleOf_sA]
  rw [idxOf_sB6, idxOf_sB5, idxOf_sB4, idxOf_sB3, idxOf_sB2, idxOf_sB1, idxOf_sB0, idxOf_sA]
  rw [envOf_sB6, envOf_sB5, envOf_sB4, envOf_sB3, envOf_sB2, envOf_sB1, envOf_sB0, sA_env]
  rw [piece5_sB6, sB5_piece]
  rw [normsOf_sB4, scaledOf_sB4, zerosOf_sB4, normsOf_sB3, scaledOf_sB3, zerosOf_sB3, normsOf_sB2, scaledOf_sB2, zerosOf_sB2, normsOf_sB1, scaledOf_sB1, zerosOf_sB1, normsOf_sB0, scaledOf_sB0, zerosOf_sB0]
  rw [sA_norms, sA_scaled, sA_zeros]
  rfl

/-- Order 6. -/
theorem result6 (V : Vl) (t : Fin 3000000) (k : Fin 6) :
    outOf (after Run.ops V) (ix2 t (Spec.col 6 k))
      = Spec.valR (Spec.lit (lit0 (Spec.col 6 k))) (Spec.lit (lit1 (Spec.col 6 k)))
          (distOf V (ix1 (Spec.edge (idxOf V (ix1 t))))) (angleOf V (ix1 t)) (maskOf V (ix2 t (0 : Fin 1))) 6 := by
  rw [Run.after_ops, sD2_out, sD1_leg, gatheredOf_sD1, sC_gathered]
  rw [maskOf_sD1, maskOf_sC, maskOf_sB6, maskOf_sB5, maskOf_sB4, maskOf_sB3, maskOf_sB2, maskOf_sB1, maskOf_sB0, maskOf_sA]
  rw [angleOf_sC, angleOf_sB6, angleOf_sB5, angleOf_sB4, angleOf_sB3, angleOf_sB2, angleOf_sB1, angleOf_sB0, angleOf_sA]
  rw [idxOf_sB6, idxOf_sB5, idxOf_sB4, idxOf_sB3, idxOf_sB2, idxOf_sB1, idxOf_sB0, idxOf_sA]
  rw [envOf_sB6, envOf_sB5, envOf_sB4, envOf_sB3, envOf_sB2, envOf_sB1, envOf_sB0, sA_env]
  rw [sB6_piece]
  rw [normsOf_sB5, scaledOf_sB5, zerosOf_sB5, normsOf_sB4, scaledOf_sB4, zerosOf_sB4, normsOf_sB3, scaledOf_sB3, zerosOf_sB3, normsOf_sB2, scaledOf_sB2, zerosOf_sB2, normsOf_sB1, scaledOf_sB1, zerosOf_sB1, normsOf_sB0, scaledOf_sB0, zerosOf_sB0]
  rw [sA_norms, sA_scaled, sA_zeros]
  rfl
/-- Entry (t, 6·l + k) of the reference's result, from any contents `V` of its buffers at launch. -/
theorem result (V : Vl) (t : Fin 3000000) (l : Fin 7) (k : Fin 6) :
    outOf (after Run.ops V) (ix2 t (Spec.col l k))
      = Spec.valR (Spec.lit (lit0 (Spec.col l k))) (Spec.lit (lit1 (Spec.col l k)))
          (distOf V (ix1 (Spec.edge (idxOf V (ix1 t))))) (angleOf V (ix1 t)) (maskOf V (ix2 t (0 : Fin 1))) l :=
  match l with
  | 0 => result0 V t k | 1 => result1 V t k | 2 => result2 V t k | 3 => result3 V t k
  | 4 => result4 V t k | 5 => result5 V t k | 6 => result6 V t k

/-- No operation writes an argument. -/
theorem keeps_arg (V : Vl) (b : Ref sig .tc) (hb : b ∈ [main_arg0, main_arg1, main_arg2, main_arg3, main_arg4]) :
    after Run.ops V (Proc.devRef (τ := τ) .tc b) = V (Proc.devRef (τ := τ) .tc b) := by
  have hA : ∀ r ∈ [main_arg0, main_arg1, main_arg2, main_arg3, main_arg4], r ∉ sA_W ∧ r ∉ sB0_W ∧ r ∉ sB1_W ∧ r ∉ sB2_W ∧ r ∉ sB3_W ∧ r ∉ sB4_W ∧ r ∉ sB5_W ∧ r ∉ sB6_W ∧ r ∉ sC_W ∧ r ∉ sD1_W ∧ r ∉ sD2_W := by decide
  obtain ⟨h0, h1, h2, h3, h4, h5, h6, h7, h8, h9, h10⟩ := hA b hb
  rw [Run.after_ops, sD2_keeps _ b h10, sD1_keeps _ b h9, sC_keeps _ b h8, sB6_keeps _ b h7, sB5_keeps _ b h6, sB4_keeps _ b h5, sB3_keeps _ b h4, sB2_keeps _ b h3, sB1_keeps _ b h2, sB0_keeps _ b h1, sA_keeps _ b h0]

end Cert.ReferenceIdeal.Val

end
-- ==== Proof.LibKeepdimsColumn.lean ====
/-
  The column forms of a keepdims reduction, read at an index given by coordinates.

  A row-wise reduction with `keepdims=True` leaves an `[a]` vector that the body first re-lays as a column `[a, 1]`
  and later spreads over the row's `b` lanes. Both steps move no data: the column holds entry `i` of the vector at
  `(i, 0)`, and the spread array holds at `(p, c)` the column's entry of row `p`, whatever the lane `c`.
  These are the two lemmas Lib/ValueLayout.lean has for the ROW forms (`[a] → [1, a]`, `[1, b] → [a, b]`) stated for the
  column forms, over indices written `ix1` / `ix2`.
-/
import Idealize.ShloMosaic.Lib.ValueIdx
import Idealize.ShloMosaic.Lib.Pipeline.Value

namespace Idealize.ShloMosaic.ValueIdx

open Idealize.ShloMosaic

variable {α : Type}

/-- An `[a]` array cast to `[a, 1]` reads, at `(i, u)`, the operand at `i`, whatever the unit coordinate `u`:
    the row-major position of `(i, u)` in `[a, 1]` is `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is
    read at `0`, the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelRadial.lean ====
/-
  The kernel's radial family at an entry. Piece l of the seven concatenated [8000, 6] blocks is N(l,·) broadcast over the
  rows times the spherical Bessel value j_l of u = s · Z(l,·), s the scaled distance of the row; entry (r, k) of it is
  N(l,k) · j_l(s_r · Z(l,k)).
-/
import proofs.«169226_j83665962926262_1_alg».proof.Proof.Gen.KernelIdeal.Value
import proofs.«169226_j83665962926262_1_alg».proof.Proof.Spec
import proofs.«169226_j83665962926262_1_alg».proof.Proof.LibKeepdimsColumn
import Idealize.ShloMosaic.Lib.ValueIdx
import Idealize.ShloMosaic.Lib.Pipeline.Value
import Idealize.ShloMosaic.Lib.ValueLayout

noncomputable section

namespace Cert.KernelIdeal.Point

open Cert.KernelIdeal Cert.KernelIdeal.Gen
open Idealize.ShloMosaic Idealize.ShloMosaic.TcCoe Idealize.SL.Sem Idealize.ShloMosaic.ValueIdx

section Reads
variable {s : Shape} {φ : FTy}

/-- A sine at an index is the sine of the element. -/
private theorem sin_apply (x : FVec Ideal s φ) (i : s.Idx) : sin x i = Ideal.sin (x i) := rfl
/-- A cosine at an index is the cosine of the element. -/
private theorem cos_apply (x : FVec Ideal s φ) (i : s.Idx) : cos x i = Ideal.cos (x i) := rfl

end Reads

/-- Row `o` of a [7, 6] table, spread over the 8000 rows, reads at (r, k) the table's entry (o, k). -/
private theorem row_apply (T : Vec Ideal S7x6 .f32) (o : Nat) (ho : o < 7) (h0 : S7x6.Slices ![o, 0] S1x6)
    (h1 : S1x6.ShapeCasts S6) (h2 : S6.ShapeCasts S1x6) (h3 : S1x6.Broadcasts S8000x6) (r : Fin 8000) (k : Fin 6) :
    broadcastTo S8000x6 (shapeCast S1x6 (shapeCast S6 (extractStridedSlice S1x6 ![o, 0] T h0) h1) h2) h3 (ix2 r k)
      = T (ix2 (⟨o, ho⟩ : Fin 7) k) := by
  rw [broadcastTo_1b_ab_apply, shapeCast_a_1a_apply, shapeCast_1a_a_apply]
  exact slice2_axis0_apply o T h0 (0 : Fin 1) k ⟨o, ho⟩ rfl

/-- The column of scaled distances, spread over six columns, reads at (r, k) the row's scaled distance. -/
private theorem dist_apply (d : Vec Ideal S8000x1 .f32) (h0 : S8000x1.ShapeCasts S8000x1) (h1 : S8000x1.Broadcasts S8000x6)
    (r : Fin 8000) (k : Fin 6) :
    broadcastTo S8000x6 (mulf (F := Ideal) (φ := .f32) (shapeCast S8000x1 d h0) (broadcast S8000x1 (Scalar.ofBits .f32 0x3E4CCCCD#32))) h1 (ix2 r k)
      = Spec.scaled (d (ix2 r (0 : Fin 1))) := by
  rw [broadcastTo_a1_ab_apply, shapeCast_self]
  rfl

/-! One order at a time: the elementwise operations read at (r, k), the two table rows and the distance column read by
    the lemmas above, and what is left is the upward recurrence of `Spec.bess` written out. -/

private theorem radial_0 (Nt : Vec Ideal S7x6 .f32) (d : Vec Ideal S8000x1 .f32) (Zt : Vec Ideal S7x6 .f32) (a mk : Vec Ideal S8000x1 .f32) (r : Fin 8000) (k : Fin 6) (h : 0 < 7) :
    Value.Cat5_0 (F := Ideal) Nt d Zt a mk ⟨0, h⟩ (ix2 r k)
      = Nt (ix2 ⟨0, h⟩ k) * Spec.bess ⟨0, h⟩ (Spec.scaled (d (ix2 r (0 : Fin 1))) * Zt (ix2 ⟨0, h⟩ k)) := by
  dsimp only [Value.Cat5_0]
  simp only [mulf_apply, subf_apply, divf_apply, sin_apply, cos_apply, broadcast_apply, row_apply Nt 0 h, row_apply Zt 0 h, dist_apply d]
  rfl

private theorem radial_1 (Nt : Vec Ideal S7x6 .f32) (d : Vec Ideal S8000x1 .f32) (Zt : Vec Ideal S7x6 .f32) (a mk : Vec Ideal S8000x1 .f32) (r : Fin 8000) (k : Fin 6) (h : 1 < 7) :
    Value.Cat5_0 (F := Ideal) Nt d Zt a mk ⟨1, h⟩ (ix2 r k)
      = Nt (ix2 ⟨1, h⟩ k) * Spec.bess ⟨1, h⟩ (Spec.scaled (d (ix2 r (0 : Fin 1))) * Zt (ix2 ⟨1, h⟩ k)) := by
  dsimp only [Value.Cat5_0]
  simp only [mulf_apply, subf_apply, divf_apply, sin_apply, cos_apply, broadcast_apply, row_apply Nt 1 h, row_apply Zt 1 h, dist_apply d]
  rfl

private theorem radial_2 (Nt : Vec Ideal S7x6 .f32) (d : Vec Ideal S8000x1 .f32) (Zt : Vec Ideal S7x6 .f32) (a mk : Vec Ideal S8000x1 .f32) (r : Fin 8000) (k : Fin 6) (h : 2 < 7) :
    Value.Cat5_0 (F := Ideal) Nt d Zt a mk ⟨2, h⟩ (ix2 r k)
      = Nt (ix2 ⟨2, h⟩ k) * Spec.bess ⟨2, h⟩ (Spec.scaled (d (ix2 r (0 : Fin 1))) * Zt (ix2 ⟨2, h⟩ k)) := by
  dsimp only [Value.Cat5_0]
  simp only [mulf_apply, subf_apply, divf_apply, sin_apply, cos_apply, broadcast_apply, row_apply Nt 2 h, row_apply Zt 2 h, dist_apply d]
  rfl

private theorem radial_3 (Nt : Vec Ideal S7x6 .f32) (d : Vec Ideal S8000x1 .f32) (Zt : Vec Ideal S7x6 .f32) (a mk : Vec Ideal S8000x1 .f32) (r : Fin 8000) (k : Fin 6) (h : 3 < 7) :
    Value.Cat5_0 (F := Ideal) Nt d Zt a mk ⟨3, h⟩ (ix2 r k)
      = Nt (ix2 ⟨3, h⟩ k) * Spec.bess ⟨3, h⟩ (Spec.scaled (d (ix2 r (0 : Fin 1))) * Zt (ix2 ⟨3, h⟩ k)) := by
  dsimp only [Value.Cat5_0]
  simp only [mulf_apply, subf_apply, divf_apply, sin_apply, cos_apply, broadcast_apply, row_apply Nt 3 h, row_apply Zt 3 h, dist_apply d]
  rfl

private theorem radial_4 (Nt : Vec Ideal S7x6 .f32) (d : Vec Ideal S8000x1 .f32) (Zt : Vec Ideal S7x6 .f32) (a mk : Vec Ideal S8000x1 .f32) (r : Fin 8000) (k : Fin 6) (h : 4 < 7) :
    Value.Cat5_0 (F := Ideal) Nt d Zt a mk ⟨4, h⟩ (ix2 r k)
      = Nt (ix2 ⟨4, h⟩ k) * Spec.bess ⟨4, h⟩ (Spec.scaled (d (ix2 r (0 : Fin 1))) * Zt (ix2 ⟨4, h⟩ k)) := by
  dsimp only [Value.Cat5_0]
  simp only [mulf_apply, subf_apply, divf_apply, sin_apply, cos_apply, broadcast_apply, row_apply Nt 4 h, row_apply Zt 4 h, dist_apply d]
  rfl

private theorem radial_5 (Nt : Vec Ideal S7x6 .f32) (d : Vec Ideal S8000x1 .f32) (Zt : Vec Ideal S7x6 .f32) (a mk : Vec Ideal S8000x1 .f32) (r : Fin 8000) (k : Fin 6) (h : 5 < 7) :
    Value.Cat5_0 (F := Ideal) Nt d Zt a mk ⟨5, h⟩ (ix2 r k)
      = Nt (ix2 ⟨5, h⟩ k) * Spec.bess ⟨5, h⟩ (Spec.scaled (d (ix2 r (0 : Fin 1))) * Zt (ix2 ⟨5, h⟩ k)) := by
  dsimp only [Value.Cat5_0]
  simp only [mulf_apply, subf_apply, divf_apply, sin_apply, cos_apply, broadcast_apply, row_apply Nt 5 h, row_apply Zt 5 h, dist_apply d]
  rfl

private theorem radial_6 (Nt : Vec Ideal S7x6 .f32) (d : Vec Ideal S8000x1 .f32) (Zt : Vec Ideal S7x6 .f32) (a mk : Vec Ideal S8000x1 .f32) (r : Fin 8000) (k : Fin 6) (h : 6 < 7) :
    Value.Cat5_0 (F := Ideal) Nt d Zt a mk ⟨6, h⟩ (ix2 r k)
      = Nt (ix2 ⟨6, h⟩ k) * Spec.bess ⟨6, h⟩ (Spec.scaled (d (ix2 r (0 : Fin 1))) * Zt (ix2 ⟨6, h⟩ k)) := by
  dsimp only [Value.Cat5_0]
  simp only [mulf_apply, subf_apply, divf_apply, sin_apply, cos_apply, broadcast_apply, row_apply Nt 6 h, row_apply Zt 6 h, dist_apply d]
  rfl

/-- Entry (r, k) of radial piece l, over any loads: `Nt` the normalisers' table, `d` the block of distances, `Zt` the zeros'
    table (`a`, `mk` the angle and mask blocks, which this family does not read). -/
theorem radial_apply (Nt : Vec Ideal S7x6 .f32) (d : Vec Ideal S8000x1 .f32) (Zt : Vec Ideal S7x6 .f32) (a mk : Vec Ideal S8000x1 .f32) (r : Fin 8000) (l : Fin 7) (k : Fin 6) :
    Value.Cat5_0 (F := Ideal) Nt d Zt a mk l (ix2 r k)
      = Nt (ix2 l k) * Spec.bess l (Spec.scaled (d (ix2 r (0 : Fin 1))) * Zt (ix2 l k)) := by
  match l with
  | ⟨0, h⟩ => exact radial_0 Nt d Zt a mk r k h
  | ⟨1, h⟩ => exact radial_1 Nt d Zt a mk r k h
  | ⟨2, h⟩ => exact radial_2 Nt d Zt a mk r k h
  | ⟨3, h⟩ => exact radial_3 Nt d Zt a mk r k h
  | ⟨4, h⟩ => exact radial_4 Nt d Zt a mk r k h
  | ⟨5, h⟩ => exact radial_5 Nt d Zt a mk r k h
  | ⟨6, h⟩ => exact radial_6 Nt d Zt a mk r k h

end Cert.KernelIdeal.Point

end
-- ==== Proof.KernelAngular.lean ====
/-
  The kernel's angular family at an entry. Piece l of the seven concatenated [8000, 6] blocks is the column Y_l · P_l(cos θ)
  of the row's angle, broadcast over six columns; entry (r, k) of it is Y_l · P_l(cos θ_r), whatever k.
-/
import proofs.«169226_j83665962926262_1_alg».proof.Proof.Gen.KernelIdeal.Value
import proofs.«169226_j83665962926262_1_alg».proof.Proof.Spec
import proofs.«169226_j83665962926262_1_alg».proof.Proof.LibKeepdimsColumn
import Idealize.ShloMosaic.Lib.ValueIdx
import Idealize.ShloMosaic.Lib.Pipeline.Value
import Idealize.ShloMosaic.Lib.ValueLayout

noncomputable section

namespace Cert.KernelIdeal.Point

open Cert.KernelIdeal Cert.KernelIdeal.Gen
open Idealize.ShloMosaic Idealize.ShloMosaic.TcCoe Idealize.SL.Sem Idealize.ShloMosaic.ValueIdx

section Reads
variable {s : Shape} {φ : FTy}

/-- A cosine at an index is the cosine of the element. -/
private theorem cos_apply (x : FVec Ideal s φ) (i : s.Idx) : cos x i = Ideal.cos (x i) := rfl

end Reads

/-- The column of ones (P_0) reads 1 everywhere. -/
private theorem one_apply (i : S8000x1.Idx) : k0_pay21 (F := Ideal) i = Spec.lit 0x3F800000#32 := rfl
/-- The column of fives (the factor l − 1 of the last Bonnet step) reads 5 everywhere. -/
private theorem five_apply (i : S8000x1.Idx) : k0_pay27 (F := Ideal) i = Spec.lit 0x40A00000#32 := rfl

/-! One order at a time: the column is read at (r, 0) whatever k, the elementwise operations read there, and what is
    left is Bonnet's recurrence of `Spec.leg` written out, times the word of Y_l. -/

private theorem angular_0 (Nt : Vec Ideal S7x6 .f32) (d : Vec Ideal S8000x1 .f32) (Zt : Vec Ideal S7x6 .f32) (a mk : Vec Ideal S8000x1 .f32) (r : Fin 8000) (k : Fin 6) (h : 0 < 7) :
    Value.Cat5_23 (F := Ideal) Nt d Zt a mk ⟨0, h⟩ (ix2 r k)
      = Spec.lit (Spec.sphW ⟨0, h⟩) * Spec.leg ⟨0, h⟩ (Ideal.cos (a (ix2 r (0 : Fin 1)))) := by
  dsimp only [Value.Cat5_23]
  rw [broadcastTo_a1_ab_apply, shapeCast_self]
  simp only [mulf_apply, subf_apply, divf_apply, cos_apply, broadcast_apply, shapeCast_self, one_apply, five_apply]
  rfl

private theorem angular_1 (Nt : Vec Ideal S7x6 .f32) (d : Vec Ideal S8000x1 .f32) (Zt : Vec Ideal S7x6 .f32) (a mk : Vec Ideal S8000x1 .f32) (r : Fin 8000) (k : Fin 6) (h : 1 < 7) :
    Value.Cat5_23 (F := Ideal) Nt d Zt a mk ⟨1, h⟩ (ix2 r k)
      = Spec.lit (Spec.sphW ⟨1, h⟩) * Spec.leg ⟨1, h⟩ (Ideal.cos (a (ix2 r (0 : Fin 1)))) := by
  dsimp only [Value.Cat5_23]
  rw [broadcastTo_a1_ab_apply, shapeCast_self]
  simp only [mulf_apply, subf_apply, divf_apply, cos_apply, broadcast_apply, shapeCast_self, one_apply, five_apply]
  rfl

private theorem angular_2 (Nt : Vec Ideal S7x6 .f32) (d : Vec Ideal S8000x1 .f32) (Zt : Vec Ideal S7x6 .f32) (a mk : Vec Ideal S8000x1 .f32) (r : Fin 8000) (k : Fin 6) (h : 2 < 7) :
    Value.Cat5_23 (F := Ideal) Nt d Zt a mk ⟨2, h⟩ (ix2 r k)
      = Spec.lit (Spec.sphW ⟨2, h⟩) * Spec.leg ⟨2, h⟩ (Ideal.cos (a (ix2 r (0 : Fin 1)))) := by
  dsimp only [Value.Cat5_23]
  rw [broadcastTo_a1_ab_apply, shapeCast_self]
  simp only [mulf_apply, subf_apply, divf_apply, cos_apply, broadcast_apply, shapeCast_self, one_apply, five_apply]
  rfl

private theorem angular_3 (Nt : Vec Ideal S7x6 .f32) (d : Vec Ideal S8000x1 .f32) (Zt : Vec Ideal S7x6 .f32) (a mk : Vec Ideal S8000x1 .f32) (r : Fin 8000) (k : Fin 6) (h : 3 < 7) :
    Value.Cat5_23 (F := Ideal) Nt d Zt a mk ⟨3, h⟩ (ix2 r k)
      = Spec.lit (Spec.sphW ⟨3, h⟩) * Spec.leg ⟨3, h⟩ (Ideal.cos (a (ix2 r (0 : Fin 1)))) := by
  dsimp only [Value.Cat5_23]
  rw [broadcastTo_a1_ab_apply, shapeCast_self]
  simp only [mulf_apply, subf_apply, divf_apply, cos_apply, broadcast_apply, shapeCast_self, one_apply, five_apply]
  rfl

private theorem angular_4 (Nt : Vec Ideal S7x6 .f32) (d : Vec Ideal S8000x1 .f32) (Zt : Vec Ideal S7x6 .f32) (a mk : Vec Ideal S8000x1 .f32) (r : Fin 8000) (k : Fin 6) (h : 4 < 7) :
    Value.Cat5_23 (F := Ideal) Nt d Zt a mk ⟨4, h⟩ (ix2 r k)
      = Spec.lit (Spec.sphW ⟨4, h⟩) * Spec.leg ⟨4, h⟩ (Ideal.cos (a (ix2 r (0 : Fin 1)))) := by
  dsimp only [Value.Cat5_23]
  rw [broadcastTo_a1_ab_apply, shapeCast_self]
  simp only [mulf_apply, subf_apply, divf_apply, cos_apply, broadcast_apply, shapeCast_self, one_apply, five_apply]
  rfl

private theorem angular_5 (Nt : Vec Ideal S7x6 .f32) (d : Vec Ideal S8000x1 .f32) (Zt : Vec Ideal S7x6 .f32) (a mk : Vec Ideal S8000x1 .f32) (r : Fin 8000) (k : Fin 6) (h : 5 < 7) :
    Value.Cat5_23 (F := Ideal) Nt d Zt a mk ⟨5, h⟩ (ix2 r k)
      = Spec.lit (Spec.sphW ⟨5, h⟩) * Spec.leg ⟨5, h⟩ (Ideal.cos (a (ix2 r (0 : Fin 1)))) := by
  dsimp only [Value.Cat5_23]
  rw [broadcastTo_a1_ab_apply, shapeCast_self]
  simp only [mulf_apply, subf_apply, divf_apply, cos_apply, broadcast_apply, shapeCast_self, one_apply, five_apply]
  rfl

private theorem angular_6 (Nt : Vec Ideal S7x6 .f32) (d : Vec Ideal S8000x1 .f32) (Zt : Vec Ideal S7x6 .f32) (a mk : Vec Ideal S8000x1 .f32) (r : Fin 8000) (k : Fin 6) (h : 6 < 7) :
    Value.Cat5_23 (F := Ideal) Nt d Zt a mk ⟨6, h⟩ (ix2 r k)
      = Spec.lit (Spec.sphW ⟨6, h⟩) * Spec.leg ⟨6, h⟩ (Ideal.cos (a (ix2 r (0 : Fin 1)))) := by
  dsimp only [Value.Cat5_23]
  rw [broadcastTo_a1_ab_apply, shapeCast_self]
  simp only [mulf_apply, subf_apply, divf_apply, cos_apply, broadcast_apply, shapeCast_self, one_apply, five_apply]
  rfl

/-- Entry (r, k) of angular piece l, over any loads (`a` the block of angles is the only one read). -/
theorem angular_apply (Nt : Vec Ideal S7x6 .f32) (d : Vec Ideal S8000x1 .f32) (Zt : Vec Ideal S7x6 .f32) (a mk : Vec Ideal S8000x1 .f32) (r : Fin 8000) (l : Fin 7) (k : Fin 6) :
    Value.Cat5_23 (F := Ideal) Nt d Zt a mk l (ix2 r k)
      = Spec.lit (Spec.sphW l) * Spec.leg l (Ideal.cos (a (ix2 r (0 : Fin 1)))) := by
  match l with
  | ⟨0, h⟩ => exact angular_0 Nt d Zt a mk r k h
  | ⟨1, h⟩ => exact angular_1 Nt d Zt a mk r k h
  | ⟨2, h⟩ => exact angular_2 Nt d Zt a mk r k h
  | ⟨3, h⟩ => exact angular_3 Nt d Zt a mk r k h
  | ⟨4, h⟩ => exact angular_4 Nt d Zt a mk r k h
  | ⟨5, h⟩ => exact angular_5 Nt d Zt a mk r k h
  | ⟨6, h⟩ => exact angular_6 Nt d Zt a mk r k h

end Cert.KernelIdeal.Point

end
-- ==== Proof.KernelPoint.lean ====
/-
  One entry of the block a grid point stores: at row r and column 6·l + k the body's result is the scalar function of the
  row's distance, angle and mask and of the tables' entries (l, k), with the envelope in its product form.
-/
import proofs.«169226_j83665962926262_1_alg».proof.Proof.KernelRadial
import proofs.«169226_j83665962926262_1_alg».proof.Proof.KernelAngular

noncomputable section

namespace Cert.KernelIdeal.Point

open Cert.KernelIdeal Cert.KernelIdeal.Gen
open Idealize.ShloMosaic Idealize.ShloMosaic.TcCoe Idealize.SL.Sem Idealize.ShloMosaic.ValueIdx

/-- A row's column index (r, 0), rebuilt from the first coordinate of a block index (r, c), is (r, 0). -/
private theorem ixcol (r : Fin 8000) (c : Fin 42) : Value.ix5_1 (ix2 r c) = ix2 r (0 : Fin 1) := by
  funext ax
  match ax with
  | ⟨0, _⟩ => rfl
  | ⟨1, _⟩ => rfl

/-- Entry (r, 6·l + k) of the stored block as one function of the loads. -/
theorem E5_apply (Nt : Vec Ideal S7x6 .f32) (d : Vec Ideal S8000x1 .f32) (Zt : Vec Ideal S7x6 .f32) (a mk : Vec Ideal S8000x1 .f32) (r : Fin 8000) (l : Fin 7) (k : Fin 6) :
    Value.E5 (F := Ideal) Nt d Zt a mk (ix2 r (Spec.col l k))
      = Spec.valK (Zt (ix2 l k)) (Nt (ix2 l k)) (d (ix2 r (0 : Fin 1))) (a (ix2 r (0 : Fin 1))) (mk (ix2 r (0 : Fin 1))) l := by
  -- the column 6·l + k selects piece l of either family, at its column k
  have hsel0 : Value.csel5_0 (ix2 r (Spec.col l k)) = l := Fin.ext (Spec.col_div l k)
  have hsel23 : Value.csel5_23 (ix2 r (Spec.col l k)) = l := Fin.ext (Spec.col_div l k)
  have hix0 : Value.ix5_0 (ix2 r (Spec.col l k)) = ix2 r k := by
    funext ax
    match ax with
    | ⟨0, _⟩ => rfl
    | ⟨1, _⟩ => exact Fin.ext (Spec.col_mod l k)
  have hix23 : Value.ix5_23 (ix2 r (Spec.col l k)) = ix2 r k := by
    funext ax
    match ax with
    | ⟨0, _⟩ => rfl
    | ⟨1, _⟩ => exact Fin.ext (Spec.col_mod l k)
  -- every read of the distance and the mask is at the row's one column
  have hix1 : Value.ix5_1 (ix2 r (Spec.col l k)) = ix2 r (0 : Fin 1) := ixcol r _
  have hix2 : Value.ix5_2 (ix2 r (Spec.col l k)) = ix2 r (0 : Fin 1) := ixcol r _
  have hix3 : Value.ix5_3 (ix2 r (Spec.col l k)) = ix2 r (0 : Fin 1) := ixcol r _
  have hix4 : Value.ix5_4 (ix2 r (Spec.col l k)) = ix2 r (0 : Fin 1) := ixcol r _
  have hix5 : Value.ix5_5 (ix2 r (Spec.col l k)) = ix2 r (0 : Fin 1) := ixcol r _
  have hix6 : Value.ix5_6 (ix2 r (Spec.col l k)) = ix2 r (0 : Fin 1) := ixcol r _
  have hix7 : Value.ix5_7 (ix2 r (Spec.col l k)) = ix2 r (0 : Fin 1) := ixcol r _
  have hix8 : Value.ix5_8 (ix2 r (Spec.col l k)) = ix2 r (0 : Fin 1) := ixcol r _
  have hix9 : Value.ix5_9 (ix2 r (Spec.col l k)) = ix2 r (0 : Fin 1) := ixcol r _
  have hix10 : Value.ix5_10 (ix2 r (Spec.col l k)) = ix2 r (0 : Fin 1) := ixcol r _
  have hix11 : Value.ix5_11 (ix2 r (Spec.col l k)) = ix2 r (0 : Fin 1) := ixcol r _
  have hix12 : Value.ix5_12 (ix2 r (Spec.col l k)) = ix2 r (0 : Fin 1) := ixcol r _
  have hix13 : Value.ix5_13 (ix2 r (Spec.col l k)) = ix2 r (0 : Fin 1) := ixcol r _
  have hix14 : Value.ix5_14 (ix2 r (Spec.col l k)) = ix2 r (0 : Fin 1) := ixcol r _
  have hix15 : Value.ix5_15 (ix2 r (Spec.col l k)) = ix2 r (0 : Fin 1) := ixcol r _
  have hix16 : Value.ix5_16 (ix2 r (Spec.col l k)) = ix2 r (0 : Fin 1) := ixcol r _
  have hix17 : Value.ix5_17 (ix2 r (Spec.col l k)) = ix2 r (0 : Fin 1) := ixcol r _
  have hix18 : Value.ix5_18 (ix2 r (Spec.col l k)) = ix2 r (0 : Fin 1) := ixcol r _
  have hix19 : Value.ix5_19 (ix2 r (Spec.col l k)) = ix2 r (0 : Fin 1) := ixcol r _
  have hix20 : Value.ix5_20 (ix2 r (Spec.col l k)) = ix2 r (0 : Fin 1) := ixcol r _
  have hix21 : Value.ix5_21 (ix2 r (Spec.col l k)) = ix2 r (0 : Fin 1) := ixcol r _
  have hix22 : Value.ix5_22 (ix2 r (Spec.col l k)) = ix2 r (0 : Fin 1) := ixcol r _
  have hix24 : Value.ix5_24 (ix2 r (Spec.col l k)) = ix2 r (0 : Fin 1) := ixcol r _
  unfold Value.E5
  rw [hsel0, hsel23, hix0, hix23, hix1, hix2, hix3, hix4, hix5, hix6, hix7, hix8, hix9, hix10, hix11, hix12, hix13, hix14, hix15, hix16, hix17, hix18, hix19, hix20, hix21, hix22, hix24]
  rw [radial_apply, angular_apply]
  rfl

end Cert.KernelIdeal.Point

end
-- ==== Proof.KernelHost.lean ====
/-
  The arrays the kernel's one region finds at its entry. @main first wraps negative indices, gathers one distance per
  triplet (the start index clamped into the table) and reshapes distances and angles to columns; the two tables are
  constants.
-/
import proofs.«169226_j83665962926262_1_alg».proof.Proof.Gen.KernelIdeal.Frame
import proofs.«169226_j83665962926262_1_alg».proof.Proof.Spec
import proofs.«169226_j83665962926262_1_alg».proof.Proof.LibKeepdimsColumn
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The gather of one table entry per row, read at row t: the table at the row the start index word at (t, 0) selects,
    read signed and clamped into the table. The operand's one axis is collapsed and is the one the start index names, so
    the operand index is the clamped start alone; the start index's word sits at the result's row on the batch axis and
    at 0 on the index vector's axis. -/
private theorem gather_read {α : Type} (x : S1000000.Idx → α) (idx : IVec S3000000x1 32) (t : Fin 3000000) :
    Host.gather gather_S1000000_S3000000x1_S3000000_n_0_n_n_0_1_1 x idx (ix1 t) = x (ix1 (Spec.row (idx (ix2 t (0 : Fin 1))))) := by
  unfold Host.gather
  congr 1
  funext a
  obtain rfl : a = 0 := Subsingleton.elim _ _
  refine Fin.ext ?_
  show gather_S1000000_S3000000x1_S3000000_n_0_n_n_0_1_1.start (ix1 t) idx 0
      + gather_S1000000_S3000000x1_S3000000_n_0_n_n_0_1_1.batchCoord (ix1 t) 0
      + gather_S1000000_S3000000x1_S3000000_n_0_n_n_0_1_1.offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1000000_S3000000x1_S3000000_n_0_n_n_0_1_1.startIndexMap from List.mem_singleton.mpr rfl)]
  have hsi : gather_S1000000_S3000000x1_S3000000_n_0_n_n_0_1_1.siIdx (ix1 t)
      ⟨List.idxOf (0 : Fin 1) gather_S1000000_S3000000x1_S3000000_n_0_n_n_0_1_1.startIndexMap,
        List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- The wrapped index vector read at a row: the row's word, with the table's length added when it is negative. -/
private theorem wrapped_apply (v : IVec S3000000 32) (t : Fin 3000000) :
    (select (cmpi .slt v (broadcastInDim S3000000 ![] bcast_S_S3000000 (constantI S_ 32 0#32)))
      (addi v (broadcastInDim S3000000 ![] bcast_S_S3000000 (constantI S_ 32 1000000#32))) v) (ix1 t) = Spec.wrap (v (ix1 t)) := rfl

/-- Row t of the distance column: the distance of the edge triplet t selects. -/
theorem V_dist (c : Dev nD) (t : Fin 3000000) :
    (V m c main_v7 : Vec Ideal S3000000x1 .f32) (ix2 t (0 : Fin 1))
      = (m ((c : Thread nD τ).loc main_arg0) : Vec Ideal S1000000 .f32) (ix1 (Spec.edge ((m ((c : Thread nD τ).loc main_arg4) : Vec Ideal S3000000 .i32) (ix1 t)))) := by
  have e : (V m c main_v7 : S3000000x1.Idx → EReal)
      = shapeCast S3000000x1 (Host.gather gather_S1000000_S3000000x1_S3000000_n_0_n_n_0_1_1
          (m ((c : Thread nD τ).loc main_arg0) : S1000000.Idx → EReal)
          (broadcastInDim S3000000x1 ![0] bcast_S3000000_S3000000x1_0
            (select (cmpi .slt (m ((c : Thread nD τ).loc main_arg4) : IVec S3000000 32) (broadcastInDim S3000000 ![] bcast_S_S3000000 (constantI S_ 32 0#32)))
              (addi (m ((c : Thread nD τ).loc main_arg4) : IVec S3000000 32) (broadcastInDim S3000000 ![] bcast_S_S3000000 (constantI S_ 32 1000000#32)))
              (m ((c : Thread nD τ).loc main_arg4) : IVec S3000000 32)))) shapeCasts_S3000000_S3000000x1 := by
    dsimp only [Gen.V, Gen.hostOps0]; after_results; rfl
  rw [e, shapeCast_a_a1_apply _ _ t 0, gather_read]
  rw [broadcastInDim_apply ![0] bcast_S3000000_S3000000x1_0 _ (ix2 t (0 : Fin 1)) (ix1 t) (fun a => by
    obtain rfl : a = 0 := Subsingleton.elim _ _
    show t.val = if (3000000 : ℕ) = 1 then 0 else t.val
    rw [if_neg (by decide)])]
  rw [wrapped_apply]
  rfl

/-- Row t of the angle column: triplet t's angle. -/
theorem V_angle (c : Dev nD) (t : Fin 3000000) :
    (V m c main_v8 : Vec Ideal S3000000x1 .f32) (ix2 t (0 : Fin 1)) = (m ((c : Thread nD τ).loc main_arg1) : Vec Ideal S3000000 .f32) (ix1 t) := by
  have e : (V m c main_v8 : S3000000x1.Idx → EReal)
      = shapeCast S3000000x1 (m ((c : Thread nD τ).loc main_arg1) : S3000000.Idx → EReal) shapeCasts_S3000000_S3000000x1 := by
    dsimp only [Gen.V, Gen.hostOps0]; after_results; rfl
  rw [e]
  exact shapeCast_a_a1_apply _ _ t 0

/-- The row-major position of (l, k) in the [7, 6] tables is the column 6·l + k. -/
private theorem rowMajor_col (l : Fin 7) (k : Fin 6) : S7x6.rowMajor (ix2 l k) = Spec.col l k := by
  apply Fin.ext
  rw [Shape.rowMajor_val_two]
  show l.val * 6 + k.val = 6 * l.val + k.val
  omega

/-- The table of zeros, entry (l, k). -/
theorem V_zeros (c : Dev nD) (l : Fin 7) (k : Fin 6) :
    (V m c main_cst : Vec Ideal S7x6 .f32) (ix2 l k) = Spec.lit (lit0 (Spec.col l k)) := by
  have e : (V m c main_cst : S7x6.Idx → EReal) = fun i => FloatOps.ofBits (F := Ideal) .f32 (lit0 (S7x6.rowMajor i)) := by
    dsimp only [Gen.V, Gen.hostOps0]; after_results; rfl
  rw [e]
  show Spec.lit (lit0 (S7x6.rowMajor (ix2 l k))) = _
  rw [rowMajor_col]

/-- The table of normalisers, entry (l, k). -/
theorem V_norms (c : Dev nD) (l : Fin 7) (k : Fin 6) :
    (V m c main_cst_0 : Vec Ideal S7x6 .f32) (ix2 l k) = Spec.lit (lit1 (Spec.col l k)) := by
  have e : (V m c main_cst_0 : S7x6.Idx → EReal) = fun i => FloatOps.ofBits (F := Ideal) .f32 (lit1 (S7x6.rowMajor i)) := by
    dsimp only [Gen.V, Gen.hostOps0]; after_results; rfl
  rw [e]
  show Spec.lit (lit1 (S7x6.rowMajor (ix2 l k))) = _
  rw [rowMajor_col]

end Cert.KernelIdeal.Host

end
-- ==== Proof.KernelBlocks.lean ====
/-
  The idealized kernel's result array, block by block: grid point t (of 375) writes rows 8000·t … 8000·t + 7999 of the
  [3000000, 42] result from rows 8000·t … of the distance, angle and mask columns and the two whole tables; the blocks
  cover the array, so every entry is the scalar function of its own row's inputs.
-/
import proofs.«169226_j83665962926262_1_alg».proof.Proof.Gen.KernelIdeal.Value
import proofs.«169226_j83665962926262_1_alg».proof.Proof.KernelPoint
import proofs.«169226_j83665962926262_1_alg».proof.Proof.KernelHost

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

private theorem hz : (![0, 0] : Fin 2 → Nat) = fun _ => 0 := funext fun a => by fin_cases a <;> rfl

/-- The block indices at a grid point, decided over the 375 points: the three columns and the result move with the point
    along the rows, the two tables stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

private theorem pt_lt (t : Fin cfg0.N) : t.val < 375 := by
  exact Nat.lt_of_lt_of_eq t.isLt N_0

/-- What the result array holds at row T in the column of (l, k). -/
def entry (c : Dev nD) (T : Fin 3000000) (l : Fin 7) (k : Fin 6) : EReal :=
  Spec.valK (Spec.lit (lit0 (Spec.col l k))) (Spec.lit (lit1 (Spec.col l k)))
    ((m ((c : Thread nD τ).loc main_arg0) : Vec Ideal S1000000 .f32) (ix1 (Spec.edge ((m ((c : Thread nD τ).loc main_arg4) : Vec Ideal S3000000 .i32) (ix1 T)))))
    ((m ((c : Thread nD τ).loc main_arg1) : Vec Ideal S3000000 .f32) (ix1 T)) ((m ((c : Thread nD τ).loc main_arg2) : Vec Ideal S3000000x1 .f32) (ix2 T (0 : Fin 1))) l

/-- The whole result array as one function of the argument arrays: column j is the column of (j / 6, j % 6). -/
def whole (c : Dev nD) : Vec Ideal S3000000x42 .f32 :=
  fun i => entry m c ⟨(i 0).val, idx2_lt0 i⟩ ⟨(i 1).val / 6, by have := idx2_lt1 i; omega⟩ ⟨(i 1).val % 6, Nat.mod_lt _ (by decide)⟩

/-- It reads at an index with row T and column 6·l + k as the entry of (T, l, k). -/
theorem whole_apply (c : Dev nD) (I : S3000000x42.Idx) (T : Fin 3000000) (l : Fin 7) (k : Fin 6)
    (h0 : (I 0).val = T.val) (h1 : (I 1).val = 6 * l.val + k.val) : whole m c I = entry m c T l k := by
  have hl : l.val < 7 := l.isLt
  have hk : k.val < 6 := k.isLt
  unfold whole
  have eT : (⟨(I 0).val, idx2_lt0 I⟩ : Fin 3000000) = T := Fin.ext h0
  have el : (⟨(I 1).val / 6, by have := idx2_lt1 I; omega⟩ : Fin 7) = l := Fin.ext (by show (I 1).val / 6 = l.val; omega)
  have ek : (⟨(I 1).val % 6, Nat.mod_lt _ (by decide)⟩ : Fin 6) = k := Fin.ext (by show (I 1).val % 6 = k.val; omega)
  rw [eT, el, ek]

/-- One entry of a stored block, at an index with row r and column 6·l + k, over the loads as variables. -/
theorem block_at (Nt : Vec Ideal S7x6 .f32) (d : Vec Ideal S8000x1 .f32) (Zt : Vec Ideal S7x6 .f32) (a mk : Vec Ideal S8000x1 .f32)
    (y : S8000x42.Idx) (r : Fin 8000) (l : Fin 7) (k : Fin 6) (h0 : (y 0).val = r.val) (h1 : (y 1).val = 6 * l.val + k.val) :
    Value.E5 (F := Ideal) Nt d Zt a mk y
      = Spec.valK (Zt (ix2 l k)) (Nt (ix2 l k)) (d (ix2 r (0 : Fin 1))) (a (ix2 r (0 : Fin 1))) (mk (ix2 r (0 : Fin 1))) l := by
  have hy : y = ix2 r (Spec.col l k) := by
    funext ax; apply Fin.ext
    match ax with
    | ⟨0, _⟩ => exact h0
    | ⟨1, _⟩ => exact h1
  subst hy
  exact Point.E5_apply Nt d Zt a mk r l k

/-- Row r of the distances' block at point t is row 8000·t + r of the distance column. -/
theorem iblk_dist (c : Dev nD) (t : Fin cfg0.N) (r : Fin 8000) (T : Fin 3000000) (hT : T.val = 8000 * t.val + r.val) :
    (iblk m c 0 t : Vec Ideal S8000x1 .f32) (ix2 r (0 : Fin 1)) = (V m c main_v7 : Vec Ideal S3000000x1 .f32) (ix2 T (0 : Fin 1)) := by
  have hi : win0_0.index t (0 : Fin 2) = t.val ∧ win0_0.index t (1 : Fin 2) = 0 := by
    obtain ⟨e00, e01, e10, e11, e20, e21, -⟩ := idx_facts t
    exact ⟨e00, e01⟩
  unfold iblk
  rw [View.read_apply]
  show V m c main_v7 _ = V m c main_v7 _
  congr 1
  funext ax; apply Fin.ext
  match ax with
  | ⟨0, _⟩ => show win0_0.index t (0 : Fin 2) * 8000 + 1 * r.val = T.val; rw [hi.1, hT]; omega
  | ⟨1, _⟩ => show win0_0.index t (1 : Fin 2) * 1 + 1 * 0 = 0; rw [hi.2]

/-- Row r of the angles' block at point t is row 8000·t + r of the angle column. -/
theorem iblk_angle (c : Dev nD) (t : Fin cfg0.N) (r : Fin 8000) (T : Fin 3000000) (hT : T.val = 8000 * t.val + r.val) :
    (iblk m c 1 t : Vec Ideal S8000x1 .f32) (ix2 r (0 : Fin 1)) = (V m c main_v8 : Vec Ideal S3000000x1 .f32) (ix2 T (0 : Fin 1)) := by
  have hi : win0_1.index t (0 : Fin 2) = t.val ∧ win0_1.index t (1 : Fin 2) = 0 := by
    obtain ⟨e00, e01, e10, e11, e20, e21, -⟩ := idx_facts t
    exact ⟨e10, e11⟩
  unfold iblk
  rw [View.read_apply]
  show V m c main_v8 _ = V m c main_v8 _
  congr 1
  funext ax; apply Fin.ext
  match ax with
  | ⟨0, _⟩ => show win0_1.index t (0 : Fin 2) * 8000 + 1 * r.val = T.val; rw [hi.1, hT]; omega
  | ⟨1, _⟩ => show win0_1.index t (1 : Fin 2) * 1 + 1 * 0 = 0; rw [hi.2]

/-- Row r of the mask's block at point t is row 8000·t + r of the mask. -/
theorem iblk_mask (c : Dev nD) (t : Fin cfg0.N) (r : Fin 8000) (T : Fin 3000000) (hT : T.val = 8000 * t.val + r.val) :
    (iblk m c 2 t : Vec Ideal S8000x1 .f32) (ix2 r (0 : Fin 1)) = (V m c main_arg2 : Vec Ideal S3000000x1 .f32) (ix2 T (0 : Fin 1)) := by
  have hi : win0_2.index t (0 : Fin 2) = t.val ∧ win0_2.index t (1 : Fin 2) = 0 := by
    obtain ⟨e00, e01, e10, e11, e20, e21, -⟩ := idx_facts t
    exact ⟨e20, e21⟩
  unfold iblk
  rw [View.read_apply]
  show V m c main_arg2 _ = V m c main_arg2 _
  congr 1
  funext ax; apply Fin.ext
  match ax with
  | ⟨0, _⟩ => show win0_2.index t (0 : Fin 2) * 8000 + 1 * r.val = T.val; rw [hi.1, hT]; omega
  | ⟨1, _⟩ => show win0_2.index t (1 : Fin 2) * 1 + 1 * 0 = 0; rw [hi.2]

/-- The zeros' block at any point is the whole table. -/
theorem iblk_zeros (c : Dev nD) (t : Fin cfg0.N) (l : Fin 7) (k : Fin 6) :
    (iblk m c 3 t : Vec Ideal S7x6 .f32) (ix2 l k) = (V m c main_cst : Vec Ideal S7x6 .f32) (ix2 l k) := by
  have hi : win0_3.index t (0 : Fin 2) = 0 ∧ win0_3.index t (1 : Fin 2) = 0 := by
    obtain ⟨-, -, -, -, -, -, e30, e31, e40, e41, -⟩ := idx_facts t
    exact ⟨e30, e31⟩
  unfold iblk
  rw [View.read_apply]
  show V m c main_cst _ = V m c main_cst _
  congr 1
  funext ax; apply Fin.ext
  match ax with
  | ⟨0, _⟩ => show win0_3.index t (0 : Fin 2) * 7 + 1 * l.val = l.val; rw [hi.1]; omega
  | ⟨1, _⟩ => show win0_3.index t (1 : Fin 2) * 6 + 1 * k.val = k.val; rw [hi.2]; omega

/-- The normalisers' block at any point is the whole table. -/
theorem iblk_norms (c : Dev nD) (t : Fin cfg0.N) (l : Fin 7) (k : Fin 6) :
    (iblk m c 4 t : Vec Ideal S7x6 .f32) (ix2 l k) = (V m c main_cst_0 : Vec Ideal S7x6 .f32) (ix2 l k) := by
  have hi : win0_4.index t (0 : Fin 2) = 0 ∧ win0_4.index t (1 : Fin 2) = 0 := by
    obtain ⟨-, -, -, -, -, -, e30, e31, e40, e41, -⟩ := idx_facts t
    exact ⟨e40, e41⟩
  unfold iblk
  rw [View.read_apply]
  show V m c main_cst_0 _ = V m c main_cst_0 _
  congr 1
  funext ax; apply Fin.ext
  match ax with
  | ⟨0, _⟩ => show win0_4.index t (0 : Fin 2) * 7 + 1 * l.val = l.val; rw [hi.1]; omega
  | ⟨1, _⟩ => show win0_4.index t (1 : Fin 2) * 6 + 1 * k.val = k.val; rw [hi.2]; omega

/-- WHAT POINT t WRITES BACK is block t of the whole-array function: entry (r, j) of the stored block is the scalar function
    of row 8000·t + r of the three columns and of the tables' entries (j / 6, j % 6). -/
theorem flushed_eq (c : Dev nD) (t : Fin cfg0.N) :
    (dats m 0 c).flushed 5 t = ((cfg0.win 5).blk t).view.read (Elt Ideal) (whole m c) := by
  rw [Value.flushed5]
  unfold out0_5
  funext j
  refine (Value.canon5_eq _ _ _ _ _ _).trans ?_
  simp only [View.ld_unit_zero (S := S8000x1) hz, View.ld_unit_zero (S := S7x6) hz]
  rw [View.read_apply]
  show _ = whole m c _
  obtain ⟨-, -, -, -, -, -, -, -, -, -, e50, e51⟩ := idx_facts t
  have hN : t.val < 375 := pt_lt t
  have hj0 : (j 0).val < 8000 := (j 0).isLt
  have hj1 : (j 1).val < 42 := (j 1).isLt
  have hT : 8000 * t.val + (j 0).val < 3000000 := by omega
  rw [block_at _ _ _ _ _ _ ⟨(j 0).val, hj0⟩ ⟨(j 1).val / 6, by omega⟩ ⟨(j 1).val % 6, Nat.mod_lt _ (by decide)⟩ rfl
    (by show (j 1).val = 6 * ((j 1).val / 6) + (j 1).val % 6; omega)]
  rw [iblk_dist m c t ⟨(j 0).val, hj0⟩ ⟨8000 * t.val + (j 0).val, hT⟩ rfl, iblk_angle m c t ⟨(j 0).val, hj0⟩ ⟨8000 * t.val + (j 0).val, hT⟩ rfl,
    iblk_mask m c t ⟨(j 0).val, hj0⟩ ⟨8000 * t.val + (j 0).val, hT⟩ rfl, iblk_zeros, iblk_norms]
  rw [Host.V_dist, Host.V_angle, Host.V_zeros, Host.V_norms, V_main_arg2]
  rw [whole_apply m c _ ⟨8000 * t.val + (j 0).val, hT⟩ ⟨(j 1).val / 6, by omega⟩ ⟨(j 1).val % 6, Nat.mod_lt _ (by decide)⟩
    (by show win0_5.index t (0 : Fin 2) * 8000 + 1 * (j 0).val = 8000 * t.val + (j 0).val; rw [e50]; omega)
    (by show win0_5.index t (1 : Fin 2) * 42 + 1 * (j 1).val = 6 * ((j 1).val / 6) + (j 1).val % 6; rw [e51]; omega)]
  rfl

/-- An index of the array is in point t's block iff each coordinate is in the block's range on its axis. -/
theorem mem_blk (t : Fin cfg0.N) (i : S3000000x42.Idx) :
    i ∈ ((cfg0.win 5).blk t).view.set ↔ ∀ a : Fin 2, win0_5.index t a * S8000x42.size a ≤ (i a).val ∧ (i a).val < win0_5.index t a * S8000x42.size a + S8000x42.size a := by
  show i ∈ ((View.whole main_v9).slice (win0_5.rect t)).set ↔ _
  rw [View.set_slice_whole, Rect.mem_set_unit]
  exact Iff.rfl

/-- The blocks cover the array: row r is in the block of point r / 8000. -/
theorem cover (i : S3000000x42.Idx) : ∃ t : Fin cfg0.N, (cfg0.win 5).flush t = true ∧ i ∈ ((cfg0.win 5).blk t).view.set := by
  have hi0 : (i 0).val < 3000000 := idx2_lt0 i
  have hi1 : (i 1).val < 42 := idx2_lt1 i
  have hq : (i 0).val / 8000 < cfg0.N := Nat.lt_of_lt_of_eq (show (i 0).val / 8000 < 375 by omega) N_0.symm
  refine ⟨⟨(i 0).val / 8000, hq⟩, flush0_5 _, ?_⟩
  obtain ⟨-, -, -, -, -, -, -, -, -, -, e50, e51⟩ := idx_facts ⟨(i 0).val / 8000, hq⟩
  rw [mem_blk]
  intro a
  match a with
  | ⟨0, _⟩ =>
    show win0_5.index ⟨(i 0).val / 8000, hq⟩ (0 : Fin 2) * 8000 ≤ (i 0).val ∧ (i 0).val < win0_5.index ⟨(i 0).val / 8000, hq⟩ (0 : Fin 2) * 8000 + 8000
    rw [e50]; show (i 0).val / 8000 * 8000 ≤ (i 0).val ∧ (i 0).val < (i 0).val / 8000 * 8000 + 8000; omega
  | ⟨1, _⟩ =>
    show win0_5.index ⟨(i 0).val / 8000, hq⟩ (1 : Fin 2) * 42 ≤ (i 1).val ∧ (i 1).val < win0_5.index ⟨(i 0).val / 8000, hq⟩ (1 : Fin 2) * 42 + 42
    rw [e51]; omega

/-- THE ARRAY after the run is the whole-array function. -/
theorem arrAt_eq (c : Dev nD) : (dats m 0 c).arrAt 5 cfg0.N = whole m c :=
  (dats m 0 c).arrAt_eq_of_cover 5 (whole m c) (fun t _ => flushed_eq m c t) cover

/-- Entry (t, 6·l + k) of the result array after the run. -/
theorem final (c : Dev nD) (t : Fin 3000000) (l : Fin 7) (k : Fin 6) :
    ((dats m 0 c).arrAt 5 cfg0.N : Vec Ideal S3000000x42 .f32) (ix2 t (Spec.col l k))
      = Spec.valK (Spec.lit (lit0 (Spec.col l k))) (Spec.lit (lit1 (Spec.col l k)))
          ((m ((c : Thread nD τ).loc main_arg0) : Vec Ideal S1000000 .f32) (ix1 (Spec.edge ((m ((c : Thread nD τ).loc main_arg4) : Vec Ideal S3000000 .i32) (ix1 t)))))
          ((m ((c : Thread nD τ).loc main_arg1) : Vec Ideal S3000000 .f32) (ix1 t)) ((m ((c : Thread nD τ).loc main_arg2) : Vec Ideal S3000000x1 .f32) (ix2 t (0 : Fin 1))) l := by
  rw [arrAt_eq, whole_apply m c _ t l k rfl rfl]
  rfl

end Cert.KernelIdeal.Blocks

end
-- ==== Proof.SpecLaws.lean ====
/-
  The one law that joins the two programs: on a finite scaled distance the powers with float exponents 7 and 8 are the
  products s⁶·s and s⁶·s² (a real to a natural-number exponent is the iterated product, whatever its sign), and s⁶ does
  not depend on how its six factors are grouped; so the two envelopes, and with them the two values, agree.
-/
import proofs.«169226_j83665962926262_1_alg».proof.Proof.Spec
import Mathlib.Analysis.SpecialFunctions.Pow.Real

noncomputable section

namespace Cert.Spec

open Idealize.ShloMosaic

/-- The word 0x40E00000 is the real 7. -/
private theorem lit_seven : lit 0x40E00000#32 = ((7 : ℝ) : EReal) := by
  simp [lit, Ideal.ofBits, Ideal.ieee, -EReal.coe_mul]; norm_num

/-- The word 0x41000000 is the real 8. -/
private theorem lit_eight : lit 0x41000000#32 = ((8 : ℝ) : EReal) := by
  simp [lit, Ideal.ofBits, Ideal.ieee, -EReal.coe_mul]; norm_num

/-- The word 0x3E4CCCCD (the single-precision 1/5) is a real. -/
private theorem lit_fifth : ∃ q : ℝ, lit 0x3E4CCCCD#32 = (q : EReal) := by
  simp [lit, Ideal.ofBits, Ideal.ieee, -EReal.coe_mul]

/-- On a real, s⁶ in either grouping is the coerced sixth power. -/
private theorem pow6K_coe (q : ℝ) : pow6K (q : EReal) = ((q ^ 6 : ℝ) : EReal) := by
  unfold pow6K; simp only [← EReal.coe_mul]; congr 1; ring

private theorem pow6R_coe (q : ℝ) : pow6R (q : EReal) = ((q ^ 6 : ℝ) : EReal) := by
  unfold pow6R; simp only [← EReal.coe_mul]; congr 1; ring

/-- A real to the real exponent 7 is its seventh power, the product s⁶·s. -/
private theorem pow_seven (q : ℝ) :
    Ideal.pow (q : EReal) (lit 0x40E00000#32) = pow6K (q : EReal) * (q : EReal) := by
  rw [lit_seven, pow6K_coe, ← EReal.coe_mul]
  show ((Real.rpow q 7 : ℝ) : EReal) = _
  have h : Real.rpow q 7 = q ^ 7 := by
    have := Real.rpow_natCast q 7
    simpa using this
  rw [h]; exact congrArg Real.toEReal (by ring)

/-- A real to the real exponent 8 is its eighth power, the product s⁶·s². -/
private theorem pow_eight (q : ℝ) :
    Ideal.pow (q : EReal) (lit 0x41000000#32) = pow6K (q : EReal) * ((q : EReal) * (q : EReal)) := by
  rw [lit_eight, pow6K_coe, ← EReal.coe_mul, ← EReal.coe_mul]
  show ((Real.rpow q 8 : ℝ) : EReal) = _
  have h : Real.rpow q 8 = q ^ 8 := by
    have := Real.rpow_natCast q 8
    simpa using this
  rw [h]; exact congrArg Real.toEReal (by ring)

/-- The scaled distance of a finite distance is finite. -/
theorem scaled_real (r : ℝ) : ∃ q : ℝ, scaled (r : EReal) = (q : EReal) := by
  obtain ⟨f, hf⟩ := lit_fifth
  exact ⟨r * f, by unfold scaled; rw [hf, ← EReal.coe_mul]⟩

/-- On a finite argument the reference's envelope is the kernel's. -/
theorem envR_eq_envK (q : ℝ) : envR (q : EReal) = envK (q : EReal) := by
  unfold envR envK
  rw [pow_seven, pow_eight, pow6R_coe, pow6K_coe]

/-- So at a finite distance the two programs' values agree. -/
theorem valR_eq_valK (z n a mk : EReal) (r : ℝ) (l : Fin 7) : valR z n (r : EReal) a mk l = valK z n (r : EReal) a mk l := by
  obtain ⟨q, hq⟩ := scaled_real r
  unfold valR valK radial
  rw [hq, envR_eq_envK]

end Cert.Spec

end
-- ==== Proof.Finite.lean ====
/-
  What the precondition gives: every distance is a real number (finite), so that the law between a power and a product
  applies to it.
-/
import proofs.«169226_j83665962926262_1_alg».proof.Defs
import proofs.«169226_j83665962926262_1_alg».proof.Proof.Gen.Pre_finite_inputs
import Idealize.ShloMosaic.Lib.ValueIdx
import Idealize.ShloMosaic.Lib.ReduceAll

noncomputable section

namespace Cert.Finite

open Idealize.ShloMosaic Idealize.ShloMosaic.TcCoe Idealize.SL.Sem Idealize.ShloMosaic.ValueIdx

private instance : Subsingleton Cert.Pre_finite_inputs.S_.Idx := ⟨fun a b => funext fun d => d.elim0⟩

/-- An extended real whose absolute value max x (−x) is strictly below +∞ is a real number: −∞ and +∞ both have
    absolute value +∞. -/
private theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hb : BitVec.ofBool (decide (max x (-x) < ⊤)) = 1#1 := h
  have h' : max x (-x) < ⊤ := by
    by_contra hn
    rw [decide_eq_false hn] at hb
    exact absurd hb (by decide)
  induction x using EReal.rec with
  | bot => simp at h'
  | coe r => exact ⟨r, rfl⟩
  | top => simp at h'

/-- Under the precondition every entry of the distance array is a real number. -/
theorem dist_real [hPre : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S1000000.Idx) :
    ∃ r : ℝ, (m ((c.tc : Thread Cert.KernelIdeal.nD Cert.KernelIdeal.τ).loc Cert.KernelIdeal.main_arg0) : Vec Ideal Cert.KernelIdeal.S1000000 .f32) i = (r : EReal) := by
  -- the predicate is the conjunction of three "all entries finite"; the first is about the distances
  have h0 := congrFun (h c) ValueIdx.ix0
  dsimp only [Cert.Pre_finite_inputs.fn] at h0
  obtain ⟨h1, -⟩ := IntOp.andi_eq_one.1 h0
  obtain ⟨h2, -⟩ := IntOp.andi_eq_one.1 h1
  exact real_of_abs_lt _ (Host.reduce_andi_all _ _ _ _ _ h2 i)

end Cert.Finite

end
-- ==== Proof.lean ====
/-
  The certificate. Both programs compute, at triplet t and column 6·l + k, the product of a radial factor
  N(l,k) · j_l(s · Z(l,k)) · env(s), s the scaled distance of the edge the triplet selects, and an angular factor
  Y_l · P_l(cos θ_t) · mask_t. The kernel gathers ONE distance per triplet and evaluates the radial factor on the triplet
  axis; the reference evaluates it on the edge axis for all 42 columns and gathers rows. Both gathers read the same row
  (a negative index wrapped, the start clamped into the table), and every operation acts entry by entry, so the two orders
  agree. The one difference is the envelope's s⁷ and s⁸: products in the kernel, powers with float exponents in the
  reference; they agree because the distance is finite (the precondition), and a real to a natural exponent is the iterated
  product. The frames: the kernel's two are the generated frame certificates; the reference's is its run, no operation of
  which writes an argument. The idealization rewrote nothing, so there is nothing to preserve.
-/
import proofs.«169226_j83665962926262_1_alg».proof.Defs
import proofs.«169226_j83665962926262_1_alg».proof.Proof.Gen.Kernel
import proofs.«169226_j83665962926262_1_alg».proof.Proof.Gen.Kernel.Skeleton
import proofs.«169226_j83665962926262_1_alg».proof.Proof.Gen.Kernel.Launch
import proofs.«169226_j83665962926262_1_alg».proof.Proof.Gen.Kernel.Points
import proofs.«169226_j83665962926262_1_alg».proof.Proof.Gen.Kernel.Frame
import proofs.«169226_j83665962926262_1_alg».proof.Proof.Gen.KernelIdeal
import proofs.«169226_j83665962926262_1_alg».proof.Proof.Gen.KernelIdeal.Skeleton
import proofs.«169226_j83665962926262_1_alg».proof.Proof.Gen.KernelIdeal.Launch
import proofs.«169226_j83665962926262_1_alg».proof.Proof.Gen.KernelIdeal.Points
import proofs.«169226_j83665962926262_1_alg».proof.Proof.Gen.KernelIdeal.Frame
import proofs.«169226_j83665962926262_1_alg».proof.Proof.Gen.KernelIdeal.Value
import proofs.«169226_j83665962926262_1_alg».proof.Proof.Gen.ReferenceIdeal
import proofs.«169226_j83665962926262_1_alg».proof.Proof.Gen.Pre_finite_inputs
import proofs.«169226_j83665962926262_1_alg».proof.Proof.RefRun
import proofs.«169226_j83665962926262_1_alg».proof.Proof.RefValue
import proofs.«169226_j83665962926262_1_alg».proof.Proof.KernelBlocks
import proofs.«169226_j83665962926262_1_alg».proof.Proof.SpecLaws
import proofs.«169226_j83665962926262_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, and no operation of the line writes an argument. -/
theorem frame_ri : Cert.frame_ReferenceIdeal := fun m ρ _ =>
  (θ_run Cert.ReferenceIdeal.defs _ _).mono
    (fun _ h c =>
      ⟨(h c Cert.ReferenceIdeal.main_arg0).trans (Cert.ReferenceIdeal.Val.keeps_arg _ _ (by decide)),
       (h c Cert.ReferenceIdeal.main_arg1).trans (Cert.ReferenceIdeal.Val.keeps_arg _ _ (by decide)),
       (h c Cert.ReferenceIdeal.main_arg2).trans (Cert.ReferenceIdeal.Val.keeps_arg _ _ (by decide)),
       (h c Cert.ReferenceIdeal.main_arg3).trans (Cert.ReferenceIdeal.Val.keeps_arg _ _ (by decide)),
       (h c Cert.ReferenceIdeal.main_arg4).trans (Cert.ReferenceIdeal.Val.keeps_arg _ _ (by decide))⟩)
    (Cert.ReferenceIdeal.Run.run (F := Ideal) m ρ)

theorem preserves : Cert.preserves_Kernel_KernelIdeal := trivial

/-- The two tables are the same words in both programs. -/
theorem lit0_eq : Cert.ReferenceIdeal.lit0 = Cert.KernelIdeal.lit0 := rfl
theorem lit1_eq : Cert.ReferenceIdeal.lit1 = Cert.KernelIdeal.lit1 := rfl

/-- Entry by entry the two results are one value: the reference's reading with its power-form envelope, the kernel's with
    the product form, at the same finite distance. -/
theorem algebraic : Cert.algebraic_KernelIdeal_ReferenceIdeal := by
  intro m ρ m' ρ' hpre hagree
  refine ⟨fun c => (Cert.KernelIdeal.Gen.dats (F := Ideal) m 0 c).arrAt 5 Cert.KernelIdeal.cfg0.N,
    Cert.KernelIdeal.Value.run_blocks (F := Ideal) m ρ, ?_⟩
  refine (θ_run Cert.ReferenceIdeal.defs _ _).mono (fun r h c => ⟨?_, ?_, ?_, ?_, ?_, ?_⟩)
    (Cert.ReferenceIdeal.Run.run (F := Ideal) m' ρ')
  · refine (h c Cert.ReferenceIdeal.main_v295).trans ?_
    funext i
    obtain ⟨t, j, rfl⟩ : ∃ (t : Fin 3000000) (j : Fin 42), i = ix2 t j := ⟨i 0, i 1, eq_ix2 i⟩
    obtain ⟨l, k, rfl⟩ := Cert.Spec.col_surj j
    obtain ⟨hd, ha, hm, -, hi⟩ := hagree c
    obtain ⟨q, hq⟩ := Cert.Finite.dist_real m hpre c
      (ix1 (Cert.Spec.edge ((m ((c.tc : Thread Cert.KernelIdeal.nD Cert.KernelIdeal.τ).loc Cert.KernelIdeal.main_arg4) : Vec Ideal Cert.KernelIdeal.S3000000 .i32) (ix1 t))))
    refine (Cert.ReferenceIdeal.Val.result (StableHlo.launchContents m' c) t l k).trans ?_
    refine Eq.trans ?_ (Cert.KernelIdeal.Blocks.final m c t l k).symm
    have e0 : Cert.ReferenceIdeal.Val.distOf (StableHlo.launchContents m' c)
        = (m ((c.tc : Thread Cert.KernelIdeal.nD Cert.KernelIdeal.τ).loc Cert.KernelIdeal.main_arg0) : Vec Ideal Cert.KernelIdeal.S1000000 .f32) := hd
    have e1 : Cert.ReferenceIdeal.Val.angleOf (StableHlo.launchContents m' c)
        = (m ((c.tc : Thread Cert.KernelIdeal.nD Cert.KernelIdeal.τ).loc Cert.KernelIdeal.main_arg1) : Vec Ideal Cert.KernelIdeal.S3000000 .f32) := ha
    have e2 : Cert.ReferenceIdeal.Val.maskOf (StableHlo.launchContents m' c)
        = (m ((c.tc : Thread Cert.KernelIdeal.nD Cert.KernelIdeal.τ).loc Cert.KernelIdeal.main_arg2) : Vec Ideal Cert.KernelIdeal.S3000000x1 .f32) := hm
    have e4 : Cert.ReferenceIdeal.Val.idxOf (StableHlo.launchContents m' c)
        = (m ((c.tc : Thread Cert.KernelIdeal.nD Cert.KernelIdeal.τ).loc Cert.KernelIdeal.main_arg4) : Vec Ideal Cert.KernelIdeal.S3000000 .i32) := hi
    rw [e0, e1, e2, e4, lit0_eq, lit1_eq, hq]
    exact Cert.Spec.valR_eq_valK _ _ _ _ q l
  · exact (h c Cert.ReferenceIdeal.main_arg0).trans (Cert.ReferenceIdeal.Val.keeps_arg _ _ (by decide))
  · exact (h c Cert.ReferenceIdeal.main_arg1).trans (Cert.ReferenceIdeal.Val.keeps_arg _ _ (by decide))
  · exact (h c Cert.ReferenceIdeal.main_arg2).trans (Cert.ReferenceIdeal.Val.keeps_arg _ _ (by decide))
  · exact (h c Cert.ReferenceIdeal.main_arg3).trans (Cert.ReferenceIdeal.Val.keeps_arg _ _ (by decide))
  · exact (h c Cert.ReferenceIdeal.main_arg4).trans (Cert.ReferenceIdeal.Val.keeps_arg _ _ (by decide))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
